-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v68) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x200 : Shape := ⟨2, ![64, 200]⟩
abbrev S2x1600000 : Shape := ⟨2, ![2, 1600000]⟩
abbrev S100000x64 : Shape := ⟨2, ![100000, 64]⟩
abbrev S64x128 : Shape := ⟨2, ![64, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x200 : S_.BroadcastsInDim S64x200 (![] : Fin 0 → Fin S64x200.rank)
  reducesTo_S64x200_S_d0_1 : S64x200.ReducesTo [0, 1] S_

variable [Facts]

def fn_part1 {F : FTy → Type} [FloatOps F] (main_arg0 : IVec S64x200 32) (main_arg6 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_c_8 : IVec S_ 32 := constantI S_ 32 0#32
  let main_v24 : IVec S64x200 32 := broadcastInDim S64x200 ![] bcast_S_S64x200 main_c_8
  let main_v25 : IVec S64x200 1 := cmpi .sge main_arg0 main_v24
  let main_c_9 : IVec S_ 32 := constantI S_ 32 100000#32
  let main_v26 : IVec S64x200 32 := broadcastInDim S64x200 ![] bcast_S_S64x200 main_c_9
  let main_v27 : IVec S64x200 1 := cmpi .slt main_arg0 main_v26
  let main_v28 : IVec S64x200 1 := andi main_v25 main_v27
  let main_c_10 : IVec S_ 1 := constantI S_ 1 1#1
  let main_v29 : IVec S_ 1 := (fun x v => Host.reduce IntOp.andi x v reducesTo_S64x200_S_d0_1 h_S_) main_v28 main_c_10
  let main_v30 : IVec S_ 1 := andi main_v23 main_v29
  main_v30

def fn {F : FTy → Type} [FloatOps F] (main_arg0 : IVec S64x200 32) (main_arg1 : IVec S2x1600000 32) (main_arg2 : FVec F S100000x64 .f32) (main_arg3 : FVec F S64x128 .f32) (main_arg4 : FVec F S128 .f32) (main_arg5 : FVec F S128x64 .f32) (main_arg6 : FVec F S64 .f32) : IVec S_ 1 :=
  let main_v0 : FVec F S100000x64 .f32 := Host.absf main_arg2
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x128 .f32 := Host.absf main_arg3
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg5
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg0 main_arg6 main_v13 main_v16
-- ==== Kernel.lean ====
abbrev S64x200 : Shape := ⟨2, ![64, 200]⟩
abbrev S2x1600000 : Shape := ⟨2, ![2, 1600000]⟩
abbrev S100000x64 : Shape := ⟨2, ![100000, 64]⟩
abbrev S64x128 : Shape := ⟨2, ![64, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S10000x64 : Shape := ⟨2, ![10000, 64]⟩
abbrev S10000x128 : Shape := ⟨2, ![10000, 128]⟩
abbrev S1700000x128 : Shape := ⟨2, ![1700000, 128]⟩
abbrev S1x128 : Shape := ⟨2, ![1, 128]⟩
abbrev S1700000x64 : Shape := ⟨2, ![1700000, 64]⟩
abbrev S1x64 : Shape := ⟨2, ![1, 64]⟩
abbrev S12800 : Shape := ⟨1, ![12800]⟩
abbrev S100000x1x64 : Shape := ⟨3, ![100000, 1, 64]⟩
abbrev S12800x1x64 : Shape := ⟨3, ![12800, 1, 64]⟩
abbrev S1x1x64 : Shape := ⟨3, ![1, 1, 64]⟩
abbrev S1 : Shape := ⟨1, ![1]⟩
abbrev S12800x64 : Shape := ⟨2, ![12800, 64]⟩
abbrev S64x200x64 : Shape := ⟨3, ![64, 200, 64]⟩

abbrev nBuf : Space → Nat
  | .hbm => 91
  | .vmem => 14
  | .smem => 1
  | _ => 0

abbrev bufTy : (tb : Table) → Fin (tcTables nBuf tb) → BufTy
  | .hbm, ⟨0, _⟩ => ⟨S64x200, .i32⟩
  | .hbm, ⟨1, _⟩ => ⟨S2x1600000, .i32⟩
  | .hbm, ⟨2, _⟩ => ⟨S100000x64, .f32⟩
  | .hbm, ⟨3, _⟩ => ⟨S64x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S100000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S1x1600000, .i32⟩
  | .hbm, ⟨12, _⟩ => ⟨S1600000, .i32⟩
  | .hbm, ⟨13, _⟩ => ⟨S1700000, .i32⟩
  | .hbm, ⟨14, _⟩ => ⟨S_, .f32⟩
  | .hbm, ⟨15, _⟩ => ⟨S1700000, .f32⟩
  | .hbm, ⟨16, _⟩ => ⟨S_, .f32⟩
  | .hbm, ⟨17, _⟩ => ⟨S100000, .f32⟩
  | .hbm, ⟨18, _⟩ => ⟨S1700000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S1700000, .i32⟩
  | .hbm, ⟨30, _⟩ => ⟨S1700000, .i1⟩
  | .hbm, ⟨31, _⟩ => ⟨S_, .i32⟩
  | .hbm, ⟨32, _⟩ => ⟨S1700000, .i32⟩
  | .hbm, ⟨33, _⟩ => ⟨S1700000, .i32⟩
  | .hbm, ⟨34, _⟩ => ⟨S1700000, .i32⟩
  | .hbm, ⟨35, _⟩ => ⟨S1700000x1, .i32⟩
  | .hbm, ⟨36, _⟩ => ⟨S1700000, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000, .f32⟩
  | .hbm, ⟨46, _⟩ => ⟨S1700000, .f32⟩
  | .hbm, ⟨47, _⟩ => ⟨S100000x128, .f32⟩
  | .hbm, ⟨48, _⟩ => ⟨S_, .i32⟩
  | .hbm, ⟨49, _⟩ => ⟨S1700000, .i32⟩
  | .hbm, ⟨50, _⟩ => ⟨S1700000, .i1⟩
  | .hbm, ⟨51, _⟩ => ⟨S_, .i32⟩
  | .hbm, ⟨52, _⟩ => ⟨S1700000, .i32⟩
  | .hbm, ⟨53, _⟩ => ⟨S1700000, .i32⟩
  | .hbm, ⟨54, _⟩ => ⟨S1700000, .i32⟩
  | .hbm, ⟨55, _⟩ => ⟨S1700000x1, .i32⟩
  | .hbm, ⟨56, _⟩ => ⟨S1700000x128, .f32⟩
  | .hbm, ⟨57, _⟩ => ⟨S1700000x1, .f32⟩
  | .hbm, ⟨58, _⟩ => ⟨S1700000x128, .f32⟩
  | .hbm, ⟨59, _⟩ => ⟨S1700000x128, .f32⟩
  | .hbm, ⟨60, _⟩ => ⟨S_, .f32⟩
  | .hbm, ⟨61, _⟩ => ⟨S100000x128, .f32⟩
  | .hbm, ⟨62, _⟩ => ⟨S1700000x1, .i32⟩
  | .hbm, ⟨63, _⟩ => ⟨S100000x128, .f32⟩
  | .hbm, ⟨64, _⟩ => ⟨S1x128, .f32⟩
  | .hbm, ⟨65, _⟩ => ⟨S100000x128, .f32⟩
  | .hbm, ⟨66, _⟩ => ⟨S100000x128, .f32⟩
  | .hbm, ⟨67, _⟩ => ⟨S100000x64, .f32⟩
  | .hbm, ⟨68, _⟩ => ⟨S_, .i32⟩
  | .hbm, ⟨69, _⟩ => ⟨S1700000, .i32⟩
  | .hbm, ⟨70, _⟩ => ⟨S1700000, .i1⟩
  | .hbm, ⟨71, _⟩ => ⟨S_, .i32⟩
  | .hbm, ⟨72, _⟩ => ⟨S1700000, .i32⟩
  | .hbm, ⟨73, _⟩ => ⟨S1700000, .i32⟩
  | .hbm, ⟨74, _⟩ => ⟨S1700000, .i32⟩
  | .hbm, ⟨75, _⟩ => ⟨S1700000x1, .i32⟩
  | .hbm, ⟨76, _⟩ => ⟨S1700000x64, .f32⟩
  | .hbm, ⟨77, _⟩ => ⟨S1700000x1, .f32⟩
  | .hbm, ⟨78, _⟩ => ⟨S1700000x64, .f32⟩
  | .hbm, ⟨79, _⟩ => ⟨S1700000x64, .f32⟩
  | .hbm, ⟨80, _⟩ => ⟨S_, .f32⟩
  | .hbm, ⟨81, _⟩ => ⟨S100000x64, .f32⟩
  | .hbm, ⟨82, _⟩ => ⟨S1700000x1, .i32⟩
  | .hbm, ⟨83, _⟩ => ⟨S100000x64, .f32⟩
  | .hbm, ⟨84, _⟩ => ⟨S1x64, .f32⟩
  | .hbm, ⟨85, _⟩ => ⟨S100000x64, .f32⟩
  | .hbm, ⟨86, _⟩ => ⟨S100000x64, .f32⟩
  | .hbm, ⟨87, _⟩ => ⟨S100000x1x64, .f32⟩
  | .hbm, ⟨88, _⟩ => ⟨S12800x1x64, .f32⟩
  | .hbm, ⟨89, _⟩ => ⟨S12800x64, .f32⟩
  | .hbm, ⟨90, _⟩ => ⟨S64x200x64, .f32⟩
  | .local _ .vmem, ⟨0, _⟩ => ⟨S10000x64, .f32⟩
  | .local _ .vmem, ⟨1, _⟩ => ⟨S10000x64, .f32⟩
  | .local _ .vmem, ⟨2, _⟩ => ⟨S64x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S128x64, .f32⟩
  | .local _ .vmem, ⟨8, _⟩ => ⟨S10000x64, .f32⟩
  | .local _ .vmem, ⟨9, _⟩ => ⟨S10000x64, .f32⟩
  | .local _ .vmem, ⟨10, _⟩ => ⟨S1x1x64, .f32⟩
  | .local _ .vmem, ⟨11, _⟩ => ⟨S1x1x64, .f32⟩
  | .local _ .vmem, ⟨12, _⟩ => ⟨S1x1x64, .f32⟩
  | .local _ .vmem, ⟨13, _⟩ => ⟨S1x1x64, .f32⟩
  | .local _ .smem, ⟨0, _⟩ => ⟨S12800, .i32⟩
  | _, _ => ⟨S64x200, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v14 : Ref sig .tc := ⟨.hbm, 27, rfl⟩
abbrev main_c : Ref sig .tc := ⟨.hbm, 28, rfl⟩
abbrev main_v15 : Ref sig .tc := ⟨.hbm, 29, rfl⟩
abbrev main_v16 : Ref sig .tc := ⟨.hbm, 30, rfl⟩
abbrev main_c_3 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_4 : Ref sig .tc := ⟨.hbm, 37, rfl⟩
abbrev main_v22 : Ref sig .tc := ⟨.hbm, 38, rfl⟩
abbrev main_v23 : Ref sig .tc := ⟨.hbm, 39, rfl⟩
abbrev main_c_5 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c_6 : Ref sig .tc := ⟨.hbm, 48, rfl⟩
abbrev main_v31 : Ref sig .tc := ⟨.hbm, 49, rfl⟩
abbrev main_v32 : Ref sig .tc := ⟨.hbm, 50, rfl⟩
abbrev main_c_7 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_8 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_c_9 : Ref sig .tc := ⟨.hbm, 68, rfl⟩
abbrev main_v48 : Ref sig .tc := ⟨.hbm, 69, rfl⟩
abbrev main_v49 : Ref sig .tc := ⟨.hbm, 70, rfl⟩
abbrev main_c_10 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_11 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v64 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![12800], ![false]⟩

abbrev pre2 : Pipeline.Prefetch sig := ⟨1, ![main_v64.idx], fun | 0 => main_v64.names | ⟨_ + 1, h⟩ => absurd h (Nat.not_lt.2 (Nat.le_add_left _ _)), fun | 0 => rfl | ⟨_ + 1, h⟩ => absurd h (Nat.not_lt.2 (Nat.le_add_left _ _))⟩

def k2_off1 (i : grid2.Coords) : Fin 1 → Nat :=
  let arg0 : BitVec 32 := BitVec.ofNat 32 (i 0).val
  let v0 : Index := Scalar.indexCast arg0
  ![v0.toNat]
def cc2_transform_0 (k2_off1_inb : ∀ i : grid2.Coords, ∀ a, (k2_off1 i) a + S1.size a ≤ S12800.size a) (numel1_S1 : S1.numel = 1) (pf : pre2.Contents (Elt F)) (i : grid2.Coords) : Fin 3 → Nat :=
  let arg0 : BitVec 32 := BitVec.ofNat 32 (i 0).val
  let v0 : Index := Scalar.indexCast arg0
  let v1 : BitVec 32 := pf.at 0 (Rect.unit (s := S12800) ![v0.toNat] S1.size (k2_off1_inb i)) numel1_S1
  let c0_i32 : BitVec 32 := 0#32
  let c0_i32_0 : BitVec 32 := 0#32
  let c0_i32_1 : BitVec 32 := 0#32
  ![v1.toNat, c0_i32.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x1x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x1x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S10000x128_S10000x128_0_0 : ∀ a, (![0, 0] : Fin 2 → Nat) a + S10000x128.size a ≤ S10000x128.size a
  h_S10000x128 : 0 < S10000x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  shapeCasts_S10000x128_S10000x128 : S10000x128.ShapeCasts S10000x128
  inb_S128x64_S128x64_0_0 : ∀ a, (![0, 0] : Fin 2 → Nat) a + S128x64.size a ≤ S128x64.size a
  h_S128x64 : 0 < S128x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  shapeCasts_S64x200_S12800 : S64x200.ShapeCasts S12800
  shapeCasts_S100000x64_S100000x1x64 : S100000x64.ShapeCasts S100000x1x64
  numel1_S1 : S1.numel = 1
  inb_S1x1x64_S1x1x64_0_0_0 : ∀ a, (![0, 0, 0] : Fin 3 → Nat) a + S1x1x64.size a ≤ S1x1x64.size a
  h_S1x1x64 : 0 < S1x1x64.numel
  shapeCasts_S1x1x64_S1x1x64 : S1x1x64.ShapeCasts S1x1x64
  shapeCasts_S12800x1x64_S12800x64 : S12800x1x64.ShapeCasts S12800x64
  shapeCasts_S12800x64_S64x200x64 : S12800x64.ShapeCasts S64x200x64
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x64_S64x128_S10000x128_1_0_0_1_n_n_wf : DotDims.WF S10000x64 S64x128 S10000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S10000x128_S128x64_S10000x64_1_0_0_1_n_n_wf : DotDims.WF S10000x128 S128x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x64.size a ≤ S128x64.size a
  hwx1_1 : ∀ i : grid1.Coords, EltTy.bits .f32 = 32 ∨ (Rect.block (s := S128x64) S128x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)
  hrank2 : 0 < grid2.rank
  k2_off1_inb : ∀ i : grid2.Coords, ∀ a, (k2_off1 i) a + S1.size a ≤ S12800.size a
  hstage2_0 : ∀ j, (stage2_0 j).IsWhole
  nbuf2_0 : grid2.bufCount reads2_0 false = 2
  hreads2_0 : ∀ {F : FTy → Type} [FloatOps F] (pf : pre2.Contents (Elt F)) (i i' : grid2.Coords), (∀ a, reads2_0 a = true → i a = i' a) → cc2_transform_0 k2_off1_inb numel1_S1 pf i = cc2_transform_0 k2_off1_inb numel1_S1 pf i'
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x1x64.size a ≤ S12800x1x64.size a
  hwx2_1 : ∀ i : grid2.Coords, EltTy.bits .f32 = 32 ∨ (Rect.block (s := S12800x1x64) S1x1x64.size (cc2_transform_1 i) (hinb2_1 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x64_S64x128_S10000x128_1_0_0_1_n_n : DotDims S10000x64 S64x128 S10000x128 where
  lhsContracting := [1]
  rhsContracting := [0]
  lhsNonContracting := [0]
  rhsNonContracting := [1]
  lhsBatch := []
  rhsBatch := []
  wf := dot_S10000x64_S64x128_S10000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg2) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v46) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S128x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev spec2_0 : Pipeline.WinSpec sig grid2.rank :=
  Pipeline.WinSpec.ofSpec (Memref.whole main_v65) S1x1x64.size reads2_0 false false 2 stage2_0 sem2_0 nbuf2_0 hstage2_0

abbrev spec2_1 : Pipeline.WinSpec sig grid2.rank :=
  Pipeline.WinSpec.ofSpec (Memref.whole main_v66) S1x1x64.size reads2_1 true false 2 stage2_1 sem2_1 nbuf2_1 hstage2_1

abbrev spec2 : Fin 2 → Pipeline.WinSpec sig grid2.rank := fun | 0 => spec2_0 | 1 => spec2_1 | ⟨_ + 2, h⟩ => absurd h (Nat.not_lt.2 (Nat.le_add_left _ _))
theorem hcount2 : ∀ w, grid2.bufCount (spec2 w).reads (spec2 w).sync = (spec2 w).nbuf := fun | 0 => nbuf2_0 | 1 => nbuf2_1 | ⟨_ + 2, h⟩ => absurd h (Nat.not_lt.2 (Nat.le_add_left _ _))
abbrev ix2 (pf : pre2.Contents (Elt F)) : (w : Fin 2) → grid2.Coords → Fin (spec2 w).shape.rank → Nat := fun | 0 => cc2_transform_0 k2_off1_inb numel1_S1 pf | 1 => cc2_transform_1 | ⟨_ + 2, h⟩ => absurd h (Nat.not_lt.2 (Nat.le_add_left _ _))
theorem hreads2 : ∀ (pf : pre2.Contents (Elt F)) w (i i' : grid2.Coords), (∀ a, (spec2 w).reads a = true → i a = i' a) → ix2 pf w i = ix2 pf w i' := fun pf => fun | 0 => hreads2_0 pf | 1 => hreads2_1 | ⟨_ + 2, h⟩ => absurd h (Nat.not_lt.2 (Nat.le_add_left _ _))
def ok2 (pf : pre2.Contents (Elt F)) : Prop :=
  (∀ i : grid2.Coords, ∃ h : (∀ a, (cc2_transform_0 k2_off1_inb numel1_S1 pf i a + 1) * S1x1x64.size a ≤ S100000x1x64.size a), EltTy.bits .f32 = 32 ∨ (Rect.block (s := S100000x1x64) S1x1x64.size (cc2_transform_0 k2_off1_inb numel1_S1 pf i) h).WholeWords (EltTy.packing .f32))
instance (pf : pre2.Contents (Elt F)) : Decidable (ok2 pf) := decidable_of_iff' _ (Iff.of_eq (ok2.eq_1 pf))
theorem hinb2 : ∀ (pf : pre2.Contents (Elt F)), ok2 pf → ∀ w (i : grid2.Coords) a, (ix2 pf w i a + 1) * (spec2 w).size a ≤ (spec2 w).shape.size a :=
  fun pf hok => fun | 0 => fun i a => (hok i).elim fun h _ => h a | 1 => hinb2_1 | ⟨_ + 2, h⟩ => absurd h (Nat.not_lt.2 (Nat.le_add_left _ _))
theorem hwx2 : ∀ (pf : pre2.Contents (Elt F)) (hok : ok2 pf) w (i : grid2.Coords), (spec2 w).elt.bits = 32 ∨ (Rect.block (spec2 w).size (ix2 pf w i) (hinb2 pf hok w i)).WholeWords (spec2 w).elt.packing :=
  fun pf hok => fun | 0 => fun i => (hok i).elim fun _ h => h | 1 => hwx2_1 | ⟨_ + 2, h⟩ => absurd h (Nat.not_lt.2 (Nat.le_add_left _ _))

class Facts : Prop extends Facts₀ where
  harr2 : ∀ w, (spec2 w).arr.IsWhole

variable [Facts]
-- ==== ReferenceIdeal.lean ====
abbrev S64x200 : Shape := ⟨2, ![64, 200]⟩
abbrev S2x1600000 : Shape := ⟨2, ![2, 1600000]⟩
abbrev S100000x64 : Shape := ⟨2, ![100000, 64]⟩
abbrev S64x128 : Shape := ⟨2, ![64, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S100000x128 : Shape := ⟨2, ![100000, 128]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S1700000x64 : Shape := ⟨2, ![1700000, 64]⟩
abbrev S1x64 : Shape := ⟨2, ![1, 64]⟩
abbrev S12800 : Shape := ⟨1, ![12800]⟩
abbrev S12800x1 : Shape := ⟨2, ![12800, 1]⟩
abbrev S12800x64 : Shape := ⟨2, ![12800, 64]⟩
abbrev S64x200x64 : Shape := ⟨3, ![64, 200, 64]⟩

abbrev nBuf : Space → Nat
  | .hbm => 131
  | .vmem => 0
  | .smem => 0
  | _ => 0

abbrev hbmTy0_0 (i : Nat) : BufTy := match i % 128 with
  | 0 => ⟨S64x200, .i32⟩
  | 1 => ⟨S2x1600000, .i32⟩
  | 2 => ⟨S100000x64, .f32⟩
  | 3 => ⟨S64x128, .f32⟩
  | 4 => ⟨S128, .f32⟩
  | 5 => ⟨S128x64, .f32⟩
  | 6 => ⟨S64, .f32⟩
  | 7 => ⟨S100000, .i32⟩
  | 8 => ⟨S1x1600000, .i32⟩
  | 9 => ⟨S1600000, .i32⟩
  | 10 => ⟨S1700000, .i32⟩
  | 11 => ⟨S1x1600000, .i32⟩
  | 12 => ⟨S1600000, .i32⟩
  | 13 => ⟨S1700000, .i32⟩
  | 14 => ⟨S100000x128, .f32⟩
  | 15 => ⟨S_, .f32⟩
  | 16 => ⟨S1700000, .f32⟩
  | 17 => ⟨S_, .f32⟩
  | 18 => ⟨S100000, .f32⟩
  | 19 => ⟨S1700000x1, .i32⟩
  | 20 => ⟨S100000, .f32⟩
  | 21 => ⟨S_, .f32⟩
  | 22 => ⟨S100000, .f32⟩
  | 23 => ⟨S100000, .i1⟩
  | 24 => ⟨S100000, .f32⟩
  | 25 => ⟨S_, .f32⟩
  | 26 => ⟨S_, .f32⟩
  | 27 => ⟨S100000, .f32⟩
  | 28 => ⟨S100000, .f32⟩
  | 29 => ⟨S_, .i32⟩
  | 30 => ⟨S1700000, .i32⟩
  | 31 => ⟨S1700000, .i1⟩
  | 32 => ⟨S_, .i32⟩
  | 33 => ⟨S1700000, .i32⟩
  | 34 => ⟨S1700000, .i32⟩
  | 35 => ⟨S1700000, .i32⟩
  | 36 => ⟨S1700000x1, .i32⟩
  | 37 => ⟨S1700000, .f32⟩
  | 38 => ⟨S_, .i32⟩
  | 39 => ⟨S1700000, .i32⟩
  | 40 => ⟨S1700000, .i1⟩
  | 41 => ⟨S_, .i32⟩
  | 42 => ⟨S1700000, .i32⟩
  | 43 => ⟨S1700000, .i32⟩
  | 44 => ⟨S1700000, .i32⟩
  | 45 => ⟨S1700000x1, .i32⟩
  | 46 => ⟨S1700000, .f32⟩
  | 47 => ⟨S1700000, .f32⟩
  | 48 => ⟨S_, .i32⟩
  | 49 => ⟨S1700000, .i32⟩
  | 50 => ⟨S1700000, .i1⟩
  | 51 => ⟨S_, .i32⟩
  | 52 => ⟨S1700000, .i32⟩
  | 53 => ⟨S1700000, .i32⟩
  | 54 => ⟨S1700000, .i32⟩
  | 55 => ⟨S1700000x1, .i32⟩
  | 56 => ⟨S1700000x128, .f32⟩
  | 57 => ⟨S1700000x1, .f32⟩
  | 58 => ⟨S1700000x128, .f32⟩
  | 59 => ⟨S1700000x128, .f32⟩
  | 60 => ⟨S_, .f32⟩
  | 61 => ⟨S100000x128, .f32⟩
  | 62 => ⟨S1700000x1, .i32⟩
  | 63 => ⟨S100000x128, .f32⟩
  | 64 => ⟨S1x128, .f32⟩
  | 65 => ⟨S100000x128, .f32⟩
  | 66 => ⟨S100000x128, .f32⟩
  | 67 => ⟨S100000x64, .f32⟩
  | 68 => ⟨S_, .f32⟩
  | 69 => ⟨S1700000, .f32⟩
  | 70 => ⟨S_, .f32⟩
  | 71 => ⟨S100000, .f32⟩
  | 72 => ⟨S1700000x1, .i32⟩
  | 73 => ⟨S100000, .f32⟩
  | 74 => ⟨S_, .f32⟩
  | 75 => ⟨S100000, .f32⟩
  | 76 => ⟨S100000, .i1⟩
  | 77 => ⟨S100000, .f32⟩
  | 78 => ⟨S_, .f32⟩
  | 79 => ⟨S_, .f32⟩
  | 80 => ⟨S100000, .f32⟩
  | 81 => ⟨S100000, .f32⟩
  | 82 => ⟨S_, .i32⟩
  | 83 => ⟨S1700000, .i32⟩
  | 84 => ⟨S1700000, .i1⟩
  | 85 => ⟨S_, .i32⟩
  | 86 => ⟨S1700000, .i32⟩
  | 87 => ⟨S1700000, .i32⟩
  | 88 => ⟨S1700000, .i32⟩
  | 89 => ⟨S1700000x1, .i32⟩
  | 90 => ⟨S1700000, .f32⟩
  | 91 => ⟨S_, .i32⟩
  | 92 => ⟨S1700000, .i32⟩
  | 93 => ⟨S1700000, .i1⟩
  | 94 => ⟨S_, .i32⟩
  | 95 => ⟨S1700000, .i32⟩
  | 96 => ⟨S1700000, .i32⟩
  | 97 => ⟨S1700000, .i32⟩
  | 98 => ⟨S1700000x1, .i32⟩
  | 99 => ⟨S1700000, .f32⟩
  | 100 => ⟨S1700000, .f32⟩
  | 101 => ⟨S_, .i32⟩
  | 102 => ⟨S1700000, .i32⟩
  | 103 => ⟨S1700000, .i1⟩
  | 104 => ⟨S_, .i32⟩
  | 105 => ⟨S1700000, .i32⟩
  | 106 => ⟨S1700000, .i32⟩
  | 107 => ⟨S1700000, .i32⟩
  | 108 => ⟨S1700000x1, .i32⟩
  | 109 => ⟨S1700000x64, .f32⟩
  | 110 => ⟨S1700000x1, .f32⟩
  | 111 => ⟨S1700000x64, .f32⟩
  | 112 => ⟨S1700000x64, .f32⟩
  | 113 => ⟨S_, .f32⟩
  | 114 => ⟨S100000x64, .f32⟩
  | 115 => ⟨S1700000x1, .i32⟩
  | 116 => ⟨S100000x64, .f32⟩
  | 117 => ⟨S1x64, .f32⟩
  | 118 => ⟨S100000x64, .f32⟩
  | 119 => ⟨S100000x64, .f32⟩
  | 120 => ⟨S12800, .i32⟩
  | 121 => ⟨S_, .i32⟩
  | 122 => ⟨S12800, .i32⟩
  | 123 => ⟨S12800, .i1⟩
  | 124 => ⟨S_, .i32⟩
  | 125 => ⟨S12800, .i32⟩
  | 126 => ⟨S12800, .i32⟩
  | 127 => ⟨S12800, .i32⟩
  | _ => ⟨S64x200, .i32⟩

abbrev hbmTy0_1 (i : Nat) : BufTy := match i % 128 with
  | 0 => ⟨S12800x1, .i32⟩
  | 1 => ⟨S12800x64, .f32⟩
  | 2 => ⟨S64x200x64, .f32⟩
  | _ => ⟨S64x200, .i32⟩

abbrev hbmTy (i : Nat) : BufTy := match i / 128 with
  | 0 => hbmTy0_0 i
  | 1 => hbmTy0_1 i
  | _ => ⟨S64x200, .i32⟩

abbrev bufTy : (tb : Table) → Fin (tcTables nBuf tb) → BufTy
  | .hbm, ⟨i, _⟩ => hbmTy i
  | _, _ => ⟨S64x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c_4 : Ref sig .tc := ⟨.hbm, 38, rfl⟩
abbrev main_v23 : Ref sig .tc := ⟨.hbm, 39, rfl⟩
abbrev main_v24 : Ref sig .tc := ⟨.hbm, 40, rfl⟩
abbrev main_c_5 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c_6 : Ref sig .tc := ⟨.hbm, 48, rfl⟩
abbrev main_v31 : Ref sig .tc := ⟨.hbm, 49, rfl⟩
abbrev main_v32 : Ref sig .tc := ⟨.hbm, 50, rfl⟩
abbrev main_c_7 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_8 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_9 : Ref sig .tc := ⟨.hbm, 68, rfl⟩
abbrev main_v48 : Ref sig .tc := ⟨.hbm, 69, rfl⟩
abbrev main_cst_10 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_11 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_12 : Ref sig .tc := ⟨.hbm, 78, rfl⟩
abbrev main_call1_v0 : Ref sig .tc := ⟨.hbm, 79, rfl⟩
abbrev main_call1_v1 : Ref sig .tc := ⟨.hbm, 80, rfl⟩
abbrev main_v55 : Ref sig .tc := ⟨.hbm, 81, rfl⟩
abbrev main_c_13 : Ref sig .tc := ⟨.hbm, 82, rfl⟩
abbrev main_v56 : Ref sig .tc := ⟨.hbm, 83, rfl⟩
abbrev main_v57 : Ref sig .tc := ⟨.hbm, 84, rfl⟩
abbrev main_c_14 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_c_15 : Ref sig .tc := ⟨.hbm, 91, rfl⟩
abbrev main_v63 : Ref sig .tc := ⟨.hbm, 92, rfl⟩
abbrev main_v64 : Ref sig .tc := ⟨.hbm, 93, rfl⟩
abbrev main_c_16 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_c_17 : Ref sig .tc := ⟨.hbm, 101, rfl⟩
abbrev main_v71 : Ref sig .tc := ⟨.hbm, 102, rfl⟩
abbrev main_v72 : Ref sig .tc := ⟨.hbm, 103, rfl⟩
abbrev main_c_18 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_cst_19 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_c_20 : Ref sig .tc := ⟨.hbm, 121, rfl⟩
abbrev main_v88 : Ref sig .tc := ⟨.hbm, 122, rfl⟩
abbrev main_v89 : Ref sig .tc := ⟨.hbm, 123, rfl⟩
abbrev main_c_21 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  shapeCasts_S64x200_S12800 : S64x200.ShapeCasts S12800
  bcast_S_S12800 : S_.BroadcastsInDim S12800 (![] : Fin 0 → Fin S12800.rank)
  bcast_S12800_S12800x1_0 : S12800.BroadcastsInDim S12800x1 (![0] : Fin 1 → Fin S12800x1.rank)
  shapeCasts_S12800x64_S64x200x64 : S12800x64.ShapeCasts S64x200x64
  dot_S100000x64_S64x128_S100000x128_1_0_0_1_n_n_wf : DotDims.WF S100000x64 S64x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  gather_S100000x64_S12800x1_S12800x64_1_0_n_n_0_1_164_wf : GatherDims.WF S100000x64 S12800x1 S12800x64 [1] [0] [] [0] [] 1 ![1, 64]

variable [Facts₀]

def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def gather_S100000x64_S12800x1_S12800x64_1_0_n_n_0_1_164 : GatherDims S100000x64 S12800x1 S12800x64 where
  offsetDims := [1]
  collapsedSliceDims := [0]
  operandBatchingDims := []
  startIndicesBatchingDims := []
  startIndexMap := [0]
  indexVectorDim := 1
  sliceSizes := ![1, 64]
  wf := gather_S100000x64_S12800x1_S12800x64_1_0_n_n_0_1_164_wf

class Facts : Prop extends Facts₀ where

variable [Facts]
-- ==== Proof.K.Mm0.lean ====
/- Region 0 of @main (a tiled matrix product), at a parameter: the buffer contents the region is entered with.
   Each window's block at a grid point, what the body leaves in the output window's buffer, the body's triple over
   its skeleton, the pipeline's proof data and the body obligation at every point. Generic in the float model. -/
import proofs.«409041_j70755291234309_2_alg».proof.Proof.Gen.Kernel.Launch
import proofs.«409041_j70755291234309_2_alg».proof.Proof.Gen.Kernel.Skeleton
import proofs.«409041_j70755291234309_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384
noncomputable section
namespace Cert.Kernel.Fr
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen
variable {F : FTy → Type} [FloatOps F]
local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row-block input's current buffer holds its block at every point, for any proof data over the entry arrays
    whose body leaves that block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t := by
  exact (dat.before_in_eq_fetched 0 rfl (fun _ => rfl) (fun _ _ _ => rfl)
    (fun t => by rw [hafter]; unfold Dat.blockOf iblk0; rw [hA]; try rfl) t d).trans
    (by unfold Dat.fetched Dat.blockOf iblk0; rw [hA]; try rfl)

/-- The weight input is brought in at the first point only; its block index never moves, so its buffer holds the
    same block at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t := by
  exact (dat.before_in_eq_fetched 1 rfl (fun _ => rfl) (fun _ _ _ => rfl)
    (fun t => by rw [hafter]; unfold Dat.blockOf iblk0; rw [hA]; try rfl) t d).trans
    (by unfold Dat.fetched Dat.blockOf iblk0; rw [hA]; try rfl)

/-! ## The body's accesses: each buffer whole -/

abbrev r0_0 : Rect S10000x64 := Rect.unit (s := S10000x64) ![0, 0] S10000x64.size inb_S10000x64_S10000x64_0_0
abbrev r0_1 : Rect S64x128 := Rect.unit (s := S64x128) ![0, 0] S64x128.size inb_S64x128_S64x128_0_0
abbrev r0_2 : Rect S10000x128 := Rect.unit (s := S10000x128) ![0, 0] S10000x128.size inb_S10000x128_S10000x128_0_0

/-! ## What the body leaves in the output window's buffer -/

/-- The output buffer after the body, from the two input blocks: its one store, of the product of the two loads. -/
def out0_2 (x0 : Vec F S10000x64 .f32) (x1 : Vec F S64x128 .f32) : Vec F S10000x128 .f32 :=
  View.canon [⟨r0_2, k0_pay1 (View.ld x0 r0_0) (View.ld x1 r0_1)⟩]

/-- The one store is of the whole buffer, so it covers it. -/
theorem cover0_2 (p0 : Vec F S10000x128 .f32) (y : S10000x128.Idx) :
    ∃ pc ∈ ([⟨r0_2, p0⟩] : List (View.Piece (Elt F) S10000x128 .f32)), y ∈ pc.1.set := by
  exact View.cover_of_tiled [⟨r0_2, p0⟩] S10000x128.size (by rfl) y

/-! ## The body's triple -/

/-- The body on whole staging memrefs, the inputs at read contents `x0`, `x1` and the output at anything, runs to the
    continuation holding the inputs as they were and the output at `out0_2 x0 x1`. The output buffer's load before
    the store reads a value nothing uses. -/
theorem sound_kernel0 (c : Dev nD) (E : Set ℕ) (i : grid0.Coords)
    (arg1 : Memref sig .tc .vmem S10000x64 .f32) (harg1 : arg1.IsWhole) (arg2 : Memref sig .tc .vmem S64x128 .f32) (harg2 : arg2.IsWhole)
    (arg3 : Memref sig .tc .vmem S10000x128 .f32) (harg3 : arg3.IsWhole)
    (x0 : Vec F S10000x64 .f32) (x1 : Vec F S64x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of the region's pipeline on core `c`: the arrays as the region finds them; after the body at point
    `t` each input's buffer at its block and the output's at `out0_2` of the two input blocks; the scoped rest and the
    generator register pass through; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so the body's triple applies; the invariant and what
    the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.K.Mm1.lean ====
/- Region 1 of @main (a tiled matrix product), at a parameter: the buffer contents the region is entered with.
   Each window's block at a grid point, what the body leaves in the output window's buffer, the body's triple over
   its skeleton, the pipeline's proof data and the body obligation at every point. Generic in the float model. -/
import proofs.«409041_j70755291234309_2_alg».proof.Proof.Gen.Kernel.Launch
import proofs.«409041_j70755291234309_2_alg».proof.Proof.Gen.Kernel.Skeleton
import proofs.«409041_j70755291234309_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384
noncomputable section
namespace Cert.Kernel.Fr
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen
variable {F : FTy → Type} [FloatOps F]
local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The row-block input's current buffer holds its block at every point, for any proof data over the entry arrays
    whose body leaves that block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t := by
  exact (dat.before_in_eq_fetched 0 rfl (fun _ => rfl) (fun _ _ _ => rfl)
    (fun t => by rw [hafter]; unfold Dat.blockOf iblk1; rw [hA]; try rfl) t d).trans
    (by unfold Dat.fetched Dat.blockOf iblk1; rw [hA]; try rfl)

/-- The weight input is brought in at the first point only; its block index never moves, so its buffer holds the
    same block at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t := by
  exact (dat.before_in_eq_fetched 1 rfl (fun _ => rfl) (fun _ _ _ => rfl)
    (fun t => by rw [hafter]; unfold Dat.blockOf iblk1; rw [hA]; try rfl) t d).trans
    (by unfold Dat.fetched Dat.blockOf iblk1; rw [hA]; try rfl)

/-! ## The body's accesses: each buffer whole -/

abbrev r1_0 : Rect S10000x128 := Rect.unit (s := S10000x128) ![0, 0] S10000x128.size inb_S10000x128_S10000x128_0_0
abbrev r1_1 : Rect S128x64 := Rect.unit (s := S128x64) ![0, 0] S128x64.size inb_S128x64_S128x64_0_0
abbrev r1_2 : Rect S10000x64 := Rect.unit (s := S10000x64) ![0, 0] S10000x64.size inb_S10000x64_S10000x64_0_0

/-! ## What the body leaves in the output window's buffer -/

/-- The output buffer after the body, from the two input blocks: its one store, of the product of the two loads. -/
def out1_2 (x0 : Vec F S10000x128 .f32) (x1 : Vec F S128x64 .f32) : Vec F S10000x64 .f32 :=
  View.canon [⟨r1_2, k1_pay1 (View.ld x0 r1_0) (View.ld x1 r1_1)⟩]

/-- The one store is of the whole buffer, so it covers it. -/
theorem cover1_2 (p0 : Vec F S10000x64 .f32) (y : S10000x64.Idx) :
    ∃ pc ∈ ([⟨r1_2, p0⟩] : List (View.Piece (Elt F) S10000x64 .f32)), y ∈ pc.1.set := by
  exact View.cover_of_tiled [⟨r1_2, p0⟩] S10000x64.size (by rfl) y

/-! ## The body's triple -/

/-- The body on whole staging memrefs, the inputs at read contents `x0`, `x1` and the output at anything, runs to the
    continuation holding the inputs as they were and the output at `out1_2 x0 x1`. The output buffer's load before
    the store reads a value nothing uses. -/
theorem sound_kernel1 (c : Dev nD) (E : Set ℕ) (i : grid1.Coords)
    (arg1 : Memref sig .tc .vmem S10000x128 .f32) (harg1 : arg1.IsWhole) (arg2 : Memref sig .tc .vmem S128x64 .f32) (harg2 : arg2.IsWhole)
    (arg3 : Memref sig .tc .vmem S10000x64 .f32) (harg3 : arg3.IsWhole)
    (x0 : Vec F S10000x128 .f32) (x1 : Vec F S128x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out1_2 x0 x1)) -∗ K ⟨⟩))
      ⊢ wp frame (wpE (defs₀ (F := F)) Variants.none c none) E (cc1__matmul_kernel i arg1 harg1 arg2 harg2 arg3 harg3) K := by
  simp only [cc1__matmul_kernel_eq_skeleton]; unfold cc1__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The pipeline's proof data -/

/-- The proof data of the region's pipeline on core `c`: the arrays as the region finds them; after the body at point
    `t` each input's buffer at its block and the output's at `out1_2` of the two input blocks; the scoped rest and the
    generator register pass through; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks, so the body's triple applies; the invariant and what
    the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Fr

end
-- ==== Proof.K.Gather2.lean ====
import proofs.«409041_j70755291234309_2_alg».proof.Proof.Gen.Kernel.Launch
import proofs.«409041_j70755291234309_2_alg».proof.Proof.Gen.Kernel.Skeleton
import proofs.«409041_j70755291234309_2_alg».proof.Proof.Gen.Kernel.Points
import Idealize.ShloMosaic.Lib.Pipeline.Frame
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384
noncomputable section
namespace Cert.Kernel.Fr
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen
variable {F : FTy → Type} [FloatOps F]
local notation "𝕄" => MT nD τ sig Unit (Elt F) ℕ (UR sig nD τ) ℕ

/-! # Region 2: the row gather, whose input window's index map reads the prefetched table -/

/-! ## The schedule's names at any admissible contents of the table -/

/-- The current staging memref of each window at point `t`, at admissible contents `a` of the table, and its
    wholeness. -/
abbrev st2_0 (a : (pcfg2 (F := F)).Adm) (t : Fin (cfg2 a).N) : Memref sig .tc .vmem S1x1x64 .f32 := spec2_0.stage ((cfg2 a).slots t 0)
abbrev hst2_0 (a : (pcfg2 (F := F)).Adm) (t : Fin (cfg2 a).N) : (st2_0 a t).IsWhole := hstage2_0 (((cfg2 a).slots t 0).cast nbuf2_0)
abbrev st2_1 (a : (pcfg2 (F := F)).Adm) (t : Fin (cfg2 a).N) : Memref sig .tc .vmem S1x1x64 .f32 := spec2_1.stage ((cfg2 a).slots t 1)
abbrev hst2_1 (a : (pcfg2 (F := F)).Adm) (t : Fin (cfg2 a).N) : (st2_1 a t).IsWhole := hstage2_1 (((cfg2 a).slots t 1).cast nbuf2_1)

/-- The kernel body at point `t`, on what the pipeline calls it with: the table's whole buffer, then the two
    current staging memrefs. -/
abbrev bodyAt2 (a : (pcfg2 (F := F)).Adm) (t : Fin (cfg2 a).N) : Prog (TpuEff nD τ sig (Elt F) Λ₀ .tc) PUnit :=
  cc2__gather_kernel (grid2.coords t) (Memref.whole main_v64) (Memref.isWhole_whole _) (st2_0 a t) (hst2_0 a t) (st2_1 a t) (hst2_1 a t)

/-! ## The body's one store, and its triple (no table involved: the body never reads it) -/

abbrev r2_0 : Rect S1x1x64 := Rect.unit (s := S1x1x64) ![0, 0, 0] S1x1x64.size inb_S1x1x64_S1x1x64_0_0_0

/-- The output window's staging buffer after the body, from the input window's block: its one store as a piece. -/
def out2_1 (x0 : Vec F S1x1x64 .f32) : Vec F S1x1x64 .f32 :=
  View.canon [⟨r2_0, k2_pay1 (View.ld x0 r2_0)⟩]

/-- The store is of the whole buffer, so it covers it. -/
theorem cover2_1 (p0 : Vec F S1x1x64 .f32) (y : S1x1x64.Idx) :
    ∃ pc ∈ ([⟨r2_0, p0⟩] : List (View.Piece (Elt F) S1x1x64 .f32)), y ∈ pc.1.set :=
  View.cover_of_tiled [⟨r2_0, p0⟩] S1x1x64.size (by rfl) y

set_option maxHeartbeats 1000000 in
/-- The body on whole staging memrefs, the input's at contents `x0` and the output's at anything, whatever the table
    memref is (it is never read): it runs to the continuation holding the input's as it was and the output's at
    `out2_1 x0`. -/
theorem sound_kernel2 (c : Dev nD) (E : Set ℕ) (i : grid2.Coords) (arg1 : Memref sig .tc .smem S12800 .i32) (harg1 : arg1.IsWhole)
    (arg2 : Memref sig .tc .vmem S1x1x64 .f32) (harg2 : arg2.IsWhole) (arg3 : Memref sig .tc .vmem S1x1x64 .f32) (harg3 : arg3.IsWhole)
    (x0 : Vec F S1x1x64 .f32) (K : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (out2_1 x0)) -∗ K ⟨⟩))
      ⊢ wp frame (wpE (defs₀ (F := F)) Variants.none c none) E (cc2__gather_kernel i arg1 harg1 arg2 harg2 arg3 harg3) K := by
  simp only [cc2__gather_kernel_eq_skeleton]; unfold cc2__gather_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover2_1 _)

/-! ## The windows' blocks, at any admissible contents of the table -/

section AnyTable
variable (V : (c : Dev nD) → (b : Ref sig .tc) → Buf (Elt F) ((c : Thread nD τ).loc b))

/-- Window `w`'s block at point `t`, read off its array as the region finds it (`V`), at admissible contents `a`. -/
def iblkA2 (a : (pcfg2 (F := F)).Adm) (c : Dev nD) (w : Fin (cfg2 a).W) (t : Fin (cfg2 a).N) :
    (((cfg2 a).win w).xblock ((cfg2 a).grid.coords t)).Idx → Elt F ((cfg2 a).win w).elt :=
  (((cfg2 a).win w).blk t).view.read (Elt F) (V c (Pipeline.arrRef spec2 w))

/-- The input window's current staging buffer holds its block at every point, fetched there or not, for any proof
    data whose array is `V`'s and whose body leaves the block in place: unfetched, the block index has not moved. -/
theorem before2_0_of (a : (pcfg2 (F := F)).Adm) {c : Dev nD} (dat : Dat τ (Elt F) Unit ℕ (UR sig nD τ) ℕ (cfg2 a) c)
    (hA : dat.A 0 = V c (Pipeline.arrRef spec2 0)) (hafter : ∀ t, dat.after 0 t = iblkA2 V a c 0 t)
    (t : Fin (cfg2 a).N) (d) : dat.before 0 t d = iblkA2 V a c 0 t :=
  (dat.before_in_eq_fetched 0 rfl (fun _ => rfl) (fun _ _ _ => rfl) (fun t => by rw [hafter]; unfold Dat.blockOf iblkA2; rw [hA]; try rfl) t d).trans
    (by unfold Dat.fetched Dat.blockOf iblkA2; rw [hA]; try rfl)

end AnyTable

/-! ## The region's half at the contents the region finds -/

variable (V : (c : Dev nD) → (b : Ref sig .tc) → Buf (Elt F) ((c : Thread nD τ).loc b))

/-- The table's contents when the region is entered (there is one device: device 0's). -/
def tbl2 : pre2.Contents (Elt F) := fun j => V (0 : Dev nD) (pre2.ref j)
/-- The pipeline's side condition of the table: every row index it holds is inside the gathered array. -/
abbrev Ok2 : Prop := ok2 (F := F) (tbl2 V)
/-- The table as admissible contents, and the pipeline at them. -/
abbrev adm2 (hO : Ok2 V) : (pcfg2 (F := F)).Adm := ⟨tbl2 V, hO⟩
abbrev cfgM2 (hO : Ok2 V) : Pipeline.Cfg sig Λ₀ := cfg2 (adm2 V hO)

/-- Window `w`'s block at point `t`, read off its array as the region finds it: for the input window, the row the
    table names at `t`. -/
def iblk2 (hO : Ok2 V) (c : Dev nD) (w : Fin (cfgM2 V hO).W) (t : Fin (cfgM2 V hO).N) :
    (((cfgM2 V hO).win w).xblock ((cfgM2 V hO).grid.coords t)).Idx → Elt F ((cfgM2 V hO).win w).elt :=
  (((cfgM2 V hO).win w).blk t).view.read (Elt F) (V c (Pipeline.arrRef spec2 w))

/-- The proof data of pipeline 2 on core `c`: the arrays as the region finds them; after the body at point `t` the
    input's buffer at its block and the output's at `out2_1` of it; the invariant the scoped rest with the generator
    register, and the table held at the full share, both untouched; nothing owed; full shares. -/
def dat2 (hO : Ok2 V) (c : Dev nD) : Dat τ (Elt F) Unit ℕ (UR sig nD τ) ℕ (cfgM2 V hO) c where
  A w := V c (Pipeline.arrRef spec2 w)
  after w t := match w with
    | ⟨0, _⟩ => iblk2 V hO c 0 t
    | ⟨1, _⟩ => out2_1 (iblk2 V hO c 0 t)
  Φ _ := iprop(Pipeline.ΦA spec2 c ∗ Pipeline.prefHeld (Ix := Unit) (Name := ℕ) (U := UR sig nD τ) (Lvl := ℕ) pre2 c (fun _ => fullShare) (tbl2 V))
  q _ := fullShare
  owed _ := 0

theorem A_eq2 (hO : Ok2 V) (c : Dev nD) (w : Fin (cfgM2 V hO).W) : (dat2 V hO c).A w = V c (Pipeline.arrRef spec2 w) := by
  dsimp only [dat2]

theorem after2_0 (hO : Ok2 V) (c : Dev nD) (t : Fin (cfgM2 V hO).N) : (dat2 V hO c).after 0 t = iblk2 V hO c 0 t := by dsimp only [dat2]; try rfl
theorem after2_1 (hO : Ok2 V) (c : Dev nD) (t : Fin (cfgM2 V hO).N) : (dat2 V hO c).after 1 t = out2_1 (iblk2 V hO c 0 t) := by dsimp only [dat2]; try rfl

/-- The input's current staging buffer holds its block at every point. -/
theorem before2_0 (hO : Ok2 V) (c : Dev nD) (t : Fin (cfgM2 V hO).N) (d) : (dat2 V hO c).before 0 t d = iblk2 V hO c 0 t :=
  before2_0_of V (adm2 V hO) (dat2 V hO c) (A_eq2 V hO c 0) (after2_0 V hO c) t d

/-! ## The body obligation, at a generic point -/

/-- What the body is called with at point `t`, -/
def bodyPre2 (hO : Ok2 V) (c : Dev nD) (t : Fin (cfgM2 V hO).N) : sProp 𝕄 :=
  iprop((dat2 V hO c).Φ t.castSucc ∗ (dat2 V hO c).owesAt () t.castSucc
    ∗ (∃ d, owns (c : Thread nD τ) (st2_0 (adm2 V hO) t) fullShare ((dat2 V hO c).before 0 t d))
    ∗ (∃ d, owns (c : Thread nD τ) (st2_1 (adm2 V hO) t) fullShare ((dat2 V hO c).before 1 t d)))

/-- and what it returns. -/
def bodyPost2 (hO : Ok2 V) (c : Dev nD) (t : Fin (cfgM2 V hO).N) : sProp 𝕄 :=
  iprop((dat2 V hO c).Φ t.succ ∗ (dat2 V hO c).owesAt () t.succ
    ∗ owns (c : Thread nD τ) (st2_0 (adm2 V hO) t) fullShare ((dat2 V hO c).after 0 t)
    ∗ owns (c : Thread nD τ) (st2_1 (adm2 V hO) t) fullShare ((dat2 V hO c).after 1 t))

/-- The body at any point: the input's memref holds its block, so the body's triple applies; the invariant (the
    table, held whole, within it) and the core's debt pass through unread. -/
theorem sound_body2 (hO : Ok2 V) (c : Dev nD) (t : Fin (cfgM2 V hO).N) :
    bodyPre2 V hO c t ⊢ wp frame (wpE (defs₀ (F := F)) Variants.none c none) Set.univ (bodyAt2 (adm2 V hO) t) (fun _ => bodyPost2 V hO c t) := by
  unfold bodyPre2 bodyPost2 bodyAt2
  simp only [before2_0]
  rw [show (dat2 V hO c).Φ t.succ = (dat2 V hO c).Φ t.castSucc from rfl,
    show (dat2 V hO c).owesAt () t.succ = (dat2 V hO c).owesAt () t.castSucc from rfl,
    after2_0, after2_1]
  iintro ⟨HΦ, Ho, ⟨%d0, H0⟩, ⟨%d1, H1⟩⟩
  iapply (sound_kernel2 c Set.univ _ _ _ _ _ _ _ (iblk2 V hO c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation of the pipeline's proof data, at every point. -/
theorem body_obligation2 (hO : Ok2 V) (c : Dev nD) : BodyObligation (dat2 (F := F) V hO c) (defs₀ (F := F)) Variants.none () Set.univ := fun t => by
  rw [bigSep_W2, bigSep_W2]
  exact sound_body2 V hO c t

end Cert.Kernel.Fr

end
-- ==== Proof.K.Fold.lean ====
/- The buffer contents of @main at every boundary between its items, as a fold from the launch memory: a stretch of
   host operations rewrites the buffers it writes; a region leaves its arrays at what its pipeline's write-backs
   fold to and every other buffer as it was. Each argument array is read back through the fold to its launch
   contents, and the gather's table to the reshaped token argument. Generic in the float model. -/
import proofs.«409041_j70755291234309_2_alg».proof.Proof.K.Mm0
import proofs.«409041_j70755291234309_2_alg».proof.Proof.K.Mm1
import proofs.«409041_j70755291234309_2_alg».proof.Proof.K.Gather2
import proofs.«409041_j70755291234309_2_alg».proof.Proof.Gen.Kernel.Regions

set_option maxRecDepth 16384
noncomputable section
namespace Cert.Kernel.Fr
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen
variable {F : FTy → Type} [FloatOps F]
local notation "𝕄" => MT nD τ sig Unit (Elt F) ℕ (UR sig nD τ) ℕ

variable (m : (ℓ : Loc nD τ sig) → Buf (Elt F) ℓ) (ρ : Dev nD → PrngReg)

/-! ## The contents at each boundary -/

/-- Core `c`'s buffers at launch. -/
abbrev W0 : Dev nD → Valuation τ sig (Elt F) := fun c b => (s₀ m ρ).mem ((c : Dev nD), b)
/-- After the first stretch of host operations, -/
abbrev W1 : Dev nD → Valuation τ sig (Elt F) := fun c => StableHlo.after hostOps0 (W0 m ρ c)
/-- after the called function's three, -/
abbrev W2 : Dev nD → Valuation τ sig (Elt F) := fun c => StableHlo.after hostOps0_1 (W1 m ρ c)
/-- and after the stretch that ends at region 0's entry. -/
abbrev W3 : Dev nD → Valuation τ sig (Elt F) := fun c => StableHlo.after hostOps0_2 (W2 m ρ c)
/-- The same read at the TensorCore's references (what region 0's proof data take). -/
abbrev V3 : (c : Dev nD) → (b : Ref sig .tc) → Buf (Elt F) ((c : Thread nD τ).loc b) := fun c b => W3 m ρ c b

/-- At region 0's exit: its arrays at what the pipeline leaves (an input as entered, the output with every
    write-back folded in), every other buffer as entered. -/
def W4 (c : Dev nD) : Valuation τ sig (Elt F) :=
  Pipeline.withArrays spec0 c (W3 m ρ c) fun w => (dat0 (V3 m ρ) c).arrAt w cfg0.N
theorem W4_arr (c : Dev nD) (w : Fin cfg0.W) :
    W4 m ρ c (Proc.devRef .tc (Pipeline.arrRef spec0 w)) = (dat0 (V3 m ρ) c).arrAt w cfg0.N := by
  unfold W4; exact Pipeline.withArrays_arr spec0 winFacts0.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
abbrev V4 : (c : Dev nD) → (b : Ref sig .tc) → Buf (Elt F) ((c : Thread nD τ).loc b) := fun c b => W4 m ρ c b
/-- At region 0's exit each of its arrays holds what the pipeline leaves, and every other buffer what it held at
    entry. -/
theorem hF0 (c : Dev nD) (w : Fin cfg0.W) : (dat0 (V3 m ρ) c).arrAt w cfg0.N = V4 m ρ c (Pipeline.arrRef spec0 w) :=
  (W4_arr m ρ c w).symm
theorem hrest0 (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)

/-- After the stretch between regions 0 and 1 (region 1's entry). -/
abbrev W5 : Dev nD → Valuation τ sig (Elt F) := fun c => StableHlo.after hostOps1 (W4 m ρ c)
abbrev V5 : (c : Dev nD) → (b : Ref sig .tc) → Buf (Elt F) ((c : Thread nD τ).loc b) := fun c b => W5 m ρ c b

/-- At region 1's exit. -/
def W6 (c : Dev nD) : Valuation τ sig (Elt F) :=
  Pipeline.withArrays spec1 c (W5 m ρ c) fun w => (dat1 (V5 m ρ) c).arrAt w cfg1.N
theorem W6_arr (c : Dev nD) (w : Fin cfg1.W) :
    W6 m ρ c (Proc.devRef .tc (Pipeline.arrRef spec1 w)) = (dat1 (V5 m ρ) c).arrAt w cfg1.N := by
  unfold W6; exact Pipeline.withArrays_arr spec1 winFacts1.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
abbrev V6 : (c : Dev nD) → (b : Ref sig .tc) → Buf (Elt F) ((c : Thread nD τ).loc b) := fun c b => W6 m ρ c b
theorem hF1 (c : Dev nD) (w : Fin cfg1.W) : (dat1 (V5 m ρ) c).arrAt w cfg1.N = V6 m ρ c (Pipeline.arrRef spec1 w) :=
  (W6_arr m ρ c w).symm
theorem hrest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)

/-- After the stretch between regions 1 and 2 (region 2's entry): it writes the gather's table and the gathered
    array. -/
abbrev W7 : Dev nD → Valuation τ sig (Elt F) := fun c => StableHlo.after hostOps2 (W6 m ρ c)
abbrev V7 : (c : Dev nD) → (b : Ref sig .tc) → Buf (Elt F) ((c : Thread nD τ).loc b) := fun c b => W7 m ρ c b

/-- The pipeline's side condition of the table as region 2 finds it: every row index inside the gathered array. -/
abbrev Ok : Prop := Ok2 (V7 m ρ)

/-- At region 2's exit, the table admissible. -/
def W8 (hO : Ok m ρ) (c : Dev nD) : Valuation τ sig (Elt F) :=
  Pipeline.withArrays spec2 c (W7 m ρ c) fun w => (dat2 (V7 m ρ) hO c).arrAt w (cfgM2 (V7 m ρ) hO).N
theorem W8_arr (hO : Ok m ρ) (c : Dev nD) (w : Fin (cfgM2 (V7 m ρ) hO).W) :
    W8 m ρ hO c (Proc.devRef .tc (Pipeline.arrRef spec2 w)) = (dat2 (V7 m ρ) hO c).arrAt w (cfgM2 (V7 m ρ) hO).N := by
  unfold W8; exact Pipeline.withArrays_arr spec2 winFacts2.arr_inj c _ _ w
theorem W8_of_ne (hO : Ok m ρ) (c : Dev nD) (b : Ref sig .tc) (hb : ∀ w, Pipeline.arrRef spec2 w ≠ b) :
    W8 m ρ hO c (Proc.devRef .tc b) = W7 m ρ c (Proc.devRef .tc b) := by
  unfold W8; exact Pipeline.withArrays_of_ne spec2 c _ _ b hb
abbrev V8 (hO : Ok m ρ) : (c : Dev nD) → (b : Ref sig .tc) → Buf (Elt F) ((c : Thread nD τ).loc b) := fun c b => W8 m ρ hO c b
theorem hF2 (hO : Ok m ρ) (c : Dev nD) (w : Fin (cfgM2 (V7 m ρ) hO).W) :
    (dat2 (V7 m ρ) hO c).arrAt w (cfgM2 (V7 m ρ) hO).N = V8 m ρ hO c (Pipeline.arrRef spec2 w) :=
  (W8_arr m ρ hO c w).symm
theorem hrest2 (hO : Ok m ρ) (c : Dev nD) : ∀ b, b ∉ Finset.univ.image (Pipeline.arrRef spec2) → V8 m ρ hO c b = V7 m ρ c b :=
  fun b hb => W8_of_ne m ρ hO c b fun w e => hb (Finset.mem_image.mpr ⟨w, Finset.mem_univ _, e⟩)

/-- After the last two reshapes: the contents at the return. -/
abbrev W9 (hO : Ok m ρ) : Dev nD → Valuation τ sig (Elt F) := fun c => StableHlo.after hostOps3 (W8 m ρ hO c)
abbrev V9 (hO : Ok m ρ) : (c : Dev nD) → (b : Ref sig .tc) → Buf (Elt F) ((c : Thread nD τ).loc b) := fun c b => W9 m ρ hO c b

/-- The prefetched tables' admissible contents: pipelines 0 and 1 have none; pipeline 2's is the table as region 2
    finds it. -/
abbrev adm (hO : Ok m ρ) : (p : Fin 3) → (pcfgs (F := F) p).Adm
  | ⟨0, _⟩ => cfg0.toPCfg_adm
  | ⟨1, _⟩ => cfg1.toPCfg_adm
  | ⟨2, _⟩ => adm2 (V7 m ρ) hO

/-! ## What each item leaves unchanged -/

theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W2_of (c : Dev nD) (r : Ref sig .tc) (h : r ∉ hostOps0_1_W) : W2 m ρ c (Proc.devRef .tc r) = W1 m ρ c (Proc.devRef .tc r) :=
  StableHlo.after_of_writes_sub hostOps0_1 _ hostOps0_1_writes h
theorem W3_of (c : Dev nD) (r : Ref sig .tc) (h : r ∉ hostOps0_2_W) : W3 m ρ c (Proc.devRef .tc r) = W2 m ρ c (Proc.devRef .tc r) :=
  StableHlo.after_of_writes_sub hostOps0_2 _ hostOps0_2_writes h
theorem W5_of (c : Dev nD) (r : Ref sig .tc) (h : r ∉ hostOps1_W) : W5 m ρ c (Proc.devRef .tc r) = W4 m ρ c (Proc.devRef .tc r) :=
  StableHlo.after_of_writes_sub hostOps1 _ hostOps1_writes h
theorem W7_of (c : Dev nD) (r : Ref sig .tc) (h : r ∉ hostOps2_W) : W7 m ρ c (Proc.devRef .tc r) = W6 m ρ c (Proc.devRef .tc r) :=
  StableHlo.after_of_writes_sub hostOps2 _ hostOps2_writes h
theorem W9_of (hO : Ok m ρ) (c : Dev nD) (r : Ref sig .tc) (h : r ∉ hostOps3_W) :
    W9 m ρ hO c (Proc.devRef .tc r) = W8 m ρ hO c (Proc.devRef .tc r) :=
  StableHlo.after_of_writes_sub hostOps3 _ hostOps3_writes h

/-- An input window's array leaves its region as it entered. -/
theorem W4_in0 (c : Dev nD) : W4 m ρ c (Proc.devRef .tc main_arg2) = W3 m ρ c (Proc.devRef .tc main_arg2) :=
  (W4_arr m ρ c 0).trans (((dat0 (V3 m ρ) c).arrAt_in 0 rfl _).trans (A_eq0 (V3 m ρ) c 0))
theorem W4_in1 (c : Dev nD) : W4 m ρ c (Proc.devRef .tc main_arg3) = W3 m ρ c (Proc.devRef .tc main_arg3) :=
  (W4_arr m ρ c 1).trans (((dat0 (V3 m ρ) c).arrAt_in 1 rfl _).trans (A_eq0 (V3 m ρ) c 1))
theorem W6_in0 (c : Dev nD) : W6 m ρ c (Proc.devRef .tc main_v46) = W5 m ρ c (Proc.devRef .tc main_v46) :=
  (W6_arr m ρ c 0).trans (((dat1 (V5 m ρ) c).arrAt_in 0 rfl _).trans (A_eq1 (V5 m ρ) c 0))
theorem W6_in1 (c : Dev nD) : W6 m ρ c (Proc.devRef .tc main_arg5) = W5 m ρ c (Proc.devRef .tc main_arg5) :=
  (W6_arr m ρ c 1).trans (((dat1 (V5 m ρ) c).arrAt_in 1 rfl _).trans (A_eq1 (V5 m ρ) c 1))
theorem W8_in0 (hO : Ok m ρ) (c : Dev nD) : W8 m ρ hO c (Proc.devRef .tc main_v65) = W7 m ρ c (Proc.devRef .tc main_v65) :=
  (W8_arr m ρ hO c 0).trans (((dat2 (V7 m ρ) hO c).arrAt_in 0 rfl _).trans (A_eq2 (V7 m ρ) hO c 0))

/-! ## The arguments end as launched -/

/-- A buffer that no stretch writes and no region has among its arrays holds at the return what the launch gave it. -/
theorem W9_of_untouched (hO : Ok m ρ) (c : Dev nD) (r : Ref sig .tc)
    (h0 : r ∉ hostOps0_W) (h01 : r ∉ hostOps0_1_W) (h02 : r ∉ hostOps0_2_W) (h1 : r ∉ hostOps1_W) (h2 : r ∉ hostOps2_W)
    (h3 : r ∉ hostOps3_W) (a0 : ∀ w, Pipeline.arrRef spec0 w ≠ r) (a1 : ∀ w, Pipeline.arrRef spec1 w ≠ r)
    (a2 : ∀ w, Pipeline.arrRef spec2 w ≠ r) :
    W9 m ρ hO c (Proc.devRef .tc r) = m ((c : Thread nD τ).loc r) :=
  calc W9 m ρ hO c (Proc.devRef .tc r)
    _ = W8 m ρ hO c (Proc.devRef .tc r) := W9_of m ρ hO c r h3
    _ = W7 m ρ c (Proc.devRef .tc r) := W8_of_ne m ρ hO c r a2
    _ = W6 m ρ c (Proc.devRef .tc r) := W7_of m ρ c r h2
    _ = W5 m ρ c (Proc.devRef .tc r) := W6_of_ne m ρ c r a1
    _ = W4 m ρ c (Proc.devRef .tc r) := W5_of m ρ c r h1
    _ = W3 m ρ c (Proc.devRef .tc r) := W4_of_ne m ρ c r a0
    _ = W2 m ρ c (Proc.devRef .tc r) := W3_of m ρ c r h02
    _ = W1 m ρ c (Proc.devRef .tc r) := W2_of m ρ c r h01
    _ = W0 m ρ c (Proc.devRef .tc r) := W1_of m ρ c r h0
    _ = m ((c : Thread nD τ).loc r) := rfl

theorem W9_main_arg0 (hO : Ok m ρ) (c : Dev nD) : W9 m ρ hO c (Proc.devRef .tc main_arg0) = m ((c : Thread nD τ).loc main_arg0) :=
  W9_of_untouched m ρ hO c main_arg0 (by decide) (by decide) (by decide) (by decide) (by decide) (by decide) (by decide) (by decide) (by decide)
theorem W9_main_arg1 (hO : Ok m ρ) (c : Dev nD) : W9 m ρ hO c (Proc.devRef .tc main_arg1) = m ((c : Thread nD τ).loc main_arg1) :=
  W9_of_untouched m ρ hO c main_arg1 (by decide) (by decide) (by decide) (by decide) (by decide) (by decide) (by decide) (by decide) (by decide)
theorem W9_main_arg4 (hO : Ok m ρ) (c : Dev nD) : W9 m ρ hO c (Proc.devRef .tc main_arg4) = m ((c : Thread nD τ).loc main_arg4) :=
  W9_of_untouched m ρ hO c main_arg4 (by decide) (by decide) (by decide) (by decide) (by decide) (by decide) (by decide) (by decide) (by decide)
theorem W9_main_arg6 (hO : Ok m ρ) (c : Dev nD) : W9 m ρ hO c (Proc.devRef .tc main_arg6) = m ((c : Thread nD τ).loc main_arg6) :=
  W9_of_untouched m ρ hO c main_arg6 (by decide) (by decide) (by decide) (by decide) (by decide) (by decide) (by decide) (by decide) (by decide)

/-- The embedding table and the first layer's weights are region 0's two input arrays. -/
theorem W9_main_arg2 (hO : Ok m ρ) (c : Dev nD) : W9 m ρ hO c (Proc.devRef .tc main_arg2) = m ((c : Thread nD τ).loc main_arg2) :=
  calc W9 m ρ hO c (Proc.devRef .tc main_arg2)
    _ = W8 m ρ hO c (Proc.devRef .tc main_arg2) := W9_of m ρ hO c _ (by decide)
    _ = W7 m ρ c (Proc.devRef .tc main_arg2) := W8_of_ne m ρ hO c _ (by decide)
    _ = W6 m ρ c (Proc.devRef .tc main_arg2) := W7_of m ρ c _ (by decide)
    _ = W5 m ρ c (Proc.devRef .tc main_arg2) := W6_of_ne m ρ c _ (by decide)
    _ = W4 m ρ c (Proc.devRef .tc main_arg2) := W5_of m ρ c _ (by decide)
    _ = W3 m ρ c (Proc.devRef .tc main_arg2) := W4_in0 m ρ c
    _ = W2 m ρ c (Proc.devRef .tc main_arg2) := W3_of m ρ c _ (by decide)
    _ = W1 m ρ c (Proc.devRef .tc main_arg2) := W2_of m ρ c _ (by decide)
    _ = W0 m ρ c (Proc.devRef .tc main_arg2) := W1_of m ρ c _ (by decide)
    _ = m ((c : Thread nD τ).loc main_arg2) := rfl
theorem W9_main_arg3 (hO : Ok m ρ) (c : Dev nD) : W9 m ρ hO c (Proc.devRef .tc main_arg3) = m ((c : Thread nD τ).loc main_arg3) :=
  calc W9 m ρ hO c (Proc.devRef .tc main_arg3)
    _ = W8 m ρ hO c (Proc.devRef .tc main_arg3) := W9_of m ρ hO c _ (by decide)
    _ = W7 m ρ c (Proc.devRef .tc main_arg3) := W8_of_ne m ρ hO c _ (by decide)
    _ = W6 m ρ c (Proc.devRef .tc main_arg3) := W7_of m ρ c _ (by decide)
    _ = W5 m ρ c (Proc.devRef .tc main_arg3) := W6_of_ne m ρ c _ (by decide)
    _ = W4 m ρ c (Proc.devRef .tc main_arg3) := W5_of m ρ c _ (by decide)
    _ = W3 m ρ c (Proc.devRef .tc main_arg3) := W4_in1 m ρ c
    _ = W2 m ρ c (Proc.devRef .tc main_arg3) := W3_of m ρ c _ (by decide)
    _ = W1 m ρ c (Proc.devRef .tc main_arg3) := W2_of m ρ c _ (by decide)
    _ = W0 m ρ c (Proc.devRef .tc main_arg3) := W1_of m ρ c _ (by decide)
    _ = m ((c : Thread nD τ).loc main_arg3) := rfl
/-- The second layer's weights are region 1's second input array. -/
theorem W9_main_arg5 (hO : Ok m ρ) (c : Dev nD) : W9 m ρ hO c (Proc.devRef .tc main_arg5) = m ((c : Thread nD τ).loc main_arg5) :=
  calc W9 m ρ hO c (Proc.devRef .tc main_arg5)
    _ = W8 m ρ hO c (Proc.devRef .tc main_arg5) := W9_of m ρ hO c _ (by decide)
    _ = W7 m ρ c (Proc.devRef .tc main_arg5) := W8_of_ne m ρ hO c _ (by decide)
    _ = W6 m ρ c (Proc.devRef .tc main_arg5) := W7_of m ρ c _ (by decide)
    _ = W5 m ρ c (Proc.devRef .tc main_arg5) := W6_in1 m ρ c
    _ = W4 m ρ c (Proc.devRef .tc main_arg5) := W5_of m ρ c _ (by decide)
    _ = W3 m ρ c (Proc.devRef .tc main_arg5) := W4_of_ne m ρ c _ (by decide)
    _ = W2 m ρ c (Proc.devRef .tc main_arg5) := W3_of m ρ c _ (by decide)
    _ = W1 m ρ c (Proc.devRef .tc main_arg5) := W2_of m ρ c _ (by decide)
    _ = W0 m ρ c (Proc.devRef .tc main_arg5) := W1_of m ρ c _ (by decide)
    _ = m ((c : Thread nD τ).loc main_arg5) := rfl

/-! ## The gather's table is the token argument, reshaped -/

/-- The token argument reaches region 2's entry as launched. -/
theorem W6_main_arg0 (c : Dev nD) : W6 m ρ c (Proc.devRef .tc main_arg0) = m ((c : Thread nD τ).loc main_arg0) :=
  calc W6 m ρ c (Proc.devRef .tc main_arg0)
    _ = W5 m ρ c (Proc.devRef .tc main_arg0) := W6_of_ne m ρ c _ (by decide)
    _ = W4 m ρ c (Proc.devRef .tc main_arg0) := W5_of m ρ c _ (by decide)
    _ = W3 m ρ c (Proc.devRef .tc main_arg0) := W4_of_ne m ρ c _ (by decide)
    _ = W2 m ρ c (Proc.devRef .tc main_arg0) := W3_of m ρ c _ (by decide)
    _ = W1 m ρ c (Proc.devRef .tc main_arg0) := W2_of m ρ c _ (by decide)
    _ = W0 m ρ c (Proc.devRef .tc main_arg0) := W1_of m ρ c _ (by decide)
    _ = m ((c : Thread nD τ).loc main_arg0) := rfl

/-- Region 2 finds in the table's buffer the token argument's elements in row-major order. -/
theorem W7_main_v64 (c : Dev nD) :
    W7 m ρ c (Proc.devRef .tc main_v64) = shapeCast S12800 (m ((c : Thread nD τ).loc main_arg0)) shapeCasts_S64x200_S12800 := by
  rw [← W6_main_arg0 m ρ c]
  show StableHlo.after hostOps2 (W6 m ρ c) (Proc.devRef .tc main_v64) = _
  after_results
  rfl

/-! ## The proof data family and what rides beside the buffers -/

/-- Every pipeline's proof data, each at its region's entry contents. -/
def pdats (hO : Ok m ρ) : (p : Fin 3) → (c : Dev nD) → Dat τ (Elt F) Unit ℕ (UR sig nD τ) ℕ (Pipeline.pin (pcfgs (F := F)) (adm m ρ hO) p) c
  | ⟨0, _⟩ => fun c => dat0 (V3 m ρ) c
  | ⟨1, _⟩ => fun c => dat1 (V5 m ρ) c
  | ⟨2, _⟩ => fun c => dat2 (V7 m ρ) hO c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues,
    at nothing. -/
abbrev R (c : Dev nD) : sProp 𝕄 := iprop((∃ r, prngReg c r) ∗ ∃ W, owes (c : Thread nD τ) (0 : CellTallies nD τ sig Unit) W)
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.Kernel.Fr

end
-- ==== Proof.K.Reg2.lean ====
/- Region 2 of @main as a segment over the thread state: entered from every unscoped buffer at the contents the
   stretch before it leaves, left at those contents with the gather's output array overwritten. The gather's table
   is one of the unscoped buffers: it is handed to the pipeline whole at entry, rides in the invariant unread, and
   is put back among the unscoped buffers at exit. Generic in the float model. -/
import proofs.«409041_j70755291234309_2_alg».proof.Proof.K.Fold

set_option maxRecDepth 16384
noncomputable section
namespace Cert.Kernel.Fr
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen
variable {F : FTy → Type} [FloatOps F]
local notation "𝕄" => MT nD τ sig Unit (Elt F) ℕ (UR sig nD τ) ℕ

/-- There is one device, so on every device the table's buffer holds what `tbl2` reads off device 0: stated for
    any contents `V`, never for a particular one. -/
theorem tbl2_of (V : (c : Dev nD) → (b : Ref sig .tc) → Buf (Elt F) ((c : Thread nD τ).loc b)) (c : Dev nD) :
    (fun k => V c (pre2.ref k) : pre2.Contents (Elt F)) = tbl2 V := by
  obtain rfl : c = 0 := Subsingleton.elim _ _
  rfl

variable (m : (ℓ : Loc nD τ sig) → Buf (Elt F) ℓ) (ρ : Dev nD → PrngReg)

/-- The table as the pipeline holds it through region 2: whole, at the contents the region finds. -/
abbrev tblHeld (c : Dev nD) : sProp 𝕄 :=
  Pipeline.prefHeld (Ix := Unit) (Name := ℕ) (U := UR sig nD τ) (Lvl := ℕ) pre2 c (fun _ => fullShare) (tbl2 (V7 m ρ))

/-- The unscoped buffers that are none of region 2's arrays are the table, whole at the contents the region finds, and
    the rest. -/
theorem rest2_split (hO : Ok m ρ) (c : Dev nD) :
    (Pipeline.unscopedRest (Ix := Unit) (Name := ℕ) (U := UR sig nD τ) (Lvl := ℕ) (Pipeline.pin (pcfgs (F := F)) (adm m ρ hO) 2).spec c (V7 m ρ c) : sProp 𝕄)
      = iprop(tblHeld m ρ c ∗ Pipeline.unscopedRestP (Ix := Unit) (Name := ℕ) (U := UR sig nD τ) (Lvl := ℕ) pre2 spec2 c (V7 m ρ c)) :=
  (Pipeline.unscopedRest_split (win := spec2) (pre := pre2) preFacts2 c (V7 m ρ c)).trans
    (congrArg (fun t : pre2.Contents (Elt F) => (iprop(Pipeline.prefHeld (Ix := Unit) (Name := ℕ) (U := UR sig nD τ) (Lvl := ℕ) pre2 c (fun _ => fullShare) t
      ∗ Pipeline.unscopedRestP (Ix := Unit) (Name := ℕ) (U := UR sig nD τ) (Lvl := ℕ) pre2 spec2 c (V7 m ρ c)) : sProp 𝕄)) (tbl2_of (V7 m ρ) c))

set_option backward.isDefEq.respectTransparency.types false in
/-- REGION 2 over the thread state: entered from every unscoped buffer at `W7`, left at `W8`. Its two arrays and its
    table are split out of the unscoped buffers at entry; the table and the generator register enter the invariant and
    come back out of it; at exit the table rejoins the other unscoped buffers and the arrays are put back at what the
    pipeline leaves in them. Nothing is owed; the kernel has no semaphore of its own. -/
def reg2 (hO : Ok m ρ) : Pipeline.RegionSeg (pcfgs (F := F)) (adm m ρ hO) (pdats m ρ hO) () defs₀ 𝒱₀ L lv 2 where
  win := (launch2 (F := F)).win.to₀
  block_pos := (launch2 (F := F)).block_pos
  stage_whole := (launch2 (F := F)).stage_whole
  K := PEmpty
  osem k := k.elim
  ho := Pipeline.OwnSemFacts.none _
  hbody c := (body_obligation2 (V7 m ρ) hO c).loose
  hwaits := Pipeline.hwaits_of_owed_zero _ _ _ _ L lv 2 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ hO c) ∗ R c)
  X c := iprop(∃ r, prngReg c r)
  Y c := iprop((∃ r, prngReg c r) ∗ tblHeld m ρ c)
  Z c := Pipeline.unscopedRestP (Ix := Unit) (Name := ℕ) (U := UR sig nD τ) (Lvl := ℕ) pre2 spec2 c (V7 m ρ c)
  hentry c := by
    rw [Pipeline.ownSems0_none]
    have hsplit := Pipeline.arrays_of_unscopedBufs (p := 2) (pcfgs (F := F)) (adm m ρ hO) (pdats m ρ hO) (launch2 (F := F)).win (launch2 (F := F)).arr_whole c
      ((pdats m ρ hO 2 c).share_full fun _ => rfl) (V7 m ρ c) fun _ => rfl
    rw [Pipeline.unscopedBufs_held, rest2_split m ρ hO c] at hsplit
    iintro ⟨⟨Hub, Hp, HO⟩, -, -⟩
    ihave H := hsplit $$ Hub
    icases H with ⟨Ha, HT, Hrest⟩
    imodintro
    isplitl [Ha]; · iexact Ha
    isplitl [HT]; · iexact HT
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ hO 2 c).Φ 0 = iprop(Pipeline.ΦA spec2 c ∗ tblHeld m ρ c) from rfl]; unfold Pipeline.ΦA
    iintro ⟨Hp, HT, Hr⟩
    isplitl [Hr Hp]
    · isplitl [Hr]; · iexact Hr
      iexact Hp
    iexact HT
  hout c := by
    rw [Pipeline.ownSems0_none, show (pdats m ρ hO 2 c).Φ (Fin.last _) = iprop(Pipeline.ΦA spec2 c ∗ tblHeld m ρ c) from rfl]; unfold Pipeline.ΦA
    iintro ⟨⟨Hr, Hp⟩, HT⟩
    isplitl [Hp HT]
    · isplitl [Hp]; · iexact Hp
      iexact HT
    isplitr; · iempintro
    iexact Hr
  hexit c := by
    have hjoin := Pipeline.unscopedBufs_of_arrays (p := 2) (pcfgs (F := F)) (adm m ρ hO) (Ix := Unit) (Name := ℕ) (U := UR sig nD τ) (Lvl := ℕ)
      (launch2 (F := F)).win (launch2 (F := F)).arr_whole c (pdats m ρ hO) ((pdats m ρ hO 2 c).share_full fun _ => rfl)
      (V7 m ρ c) (V8 m ρ hO c) ((pdats m ρ hO 2 c).arrAt · (cfgM2 (V7 m ρ) hO).N) (hF2 m ρ hO c) (hrest2 m ρ hO c)
    rw [Pipeline.unscopedBufs_held, rest2_split m ρ hO c] at hjoin
    iintro ⟨Ha, HO, ⟨HY, HT⟩, Hrest⟩
    imodintro
    isplitl [Ha HT Hrest]
    · iapply hjoin
      isplitl [Ha]; · iexact Ha
      isplitl [HT]; · iexact HT
      iexact Hrest
    isplitl [HY]; · iexact HY
    unfold Pipeline.Dat.owesAt Pipeline.owesWithin
    icases HO with ⟨%W, -, HO⟩; iexists W; iexact HO

end Cert.Kernel.Fr

end
-- ==== Proof.K.Run.lean ====
/- The run of @main over the kit of segments: every stretch of host operations a host segment from its boundary's
   contents, every kernel call a region over the thread state "each unscoped buffer whole at the boundary's contents,
   the generator register at some state, nothing owed"; then the launch, whose final states hold every unscoped
   buffer at the fold's last contents, and the frame read off it. Generic in the float model. -/
import proofs.«409041_j70755291234309_2_alg».proof.Proof.K.Fold
import proofs.«409041_j70755291234309_2_alg».proof.Proof.K.Reg2
import Idealize.ShloMosaic.Lib.Pipeline.Regions
import Idealize.ShloMosaic.Lib.Pipeline.RegionsLoop

set_option maxRecDepth 16384
noncomputable section
namespace Cert.Kernel.Fr
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen
variable {F : FTy → Type} [FloatOps F]
local notation "𝕄" => MT nD τ sig Unit (Elt F) ℕ (UR sig nD τ) ℕ

variable (m : (ℓ : Loc nD τ sig) → Buf (Elt F) ℓ) (ρ : Dev nD → PrngReg)

/-! ## The host stretches as segments -/

/-- A stretch of host operations as a segment: over the unscoped references from the contents `W`, the register and
    the dues riding along; it leaves those references at `StableHlo.after ops (W c)`, the next boundary's contents. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-! ## The matrix products' regions as segments -/

set_option backward.isDefEq.respectTransparency.types false in
/-- Region 0 over the thread state: entered with every unscoped buffer at `W3`, left with them at `W4`. Its three
    arrays are split out of the unscoped buffers and put back at the exit contents; the generator register passes
    through the class invariant; nothing is owed; the kernel has no semaphore of its own. -/
def reg0 (hO : Ok m ρ) : Pipeline.RegionSeg (pcfgs (F := F)) (adm m ρ hO) (pdats m ρ hO) () defs₀ 𝒱₀ L lv 0 where
  win := (launch0 (F := F)).win.to₀
  block_pos := (launch0 (F := F)).block_pos
  stage_whole := (launch0 (F := F)).stage_whole
  K := PEmpty
  osem k := k.elim
  ho := Pipeline.OwnSemFacts.none _
  hbody c := (body_obligation0 (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs (p := 0) (pcfgs (F := F)) (adm m ρ hO) (pdats m ρ hO) (launch0 (F := F)).win
      (launch0 (F := F)).arr_whole c ((pdats m ρ hO 0 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ hO 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ hO 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) (adm m ρ hO) (Ix := Unit) (Name := ℕ) (U := UR sig nD τ) (Lvl := ℕ)
      (launch0 (F := F)).win (launch0 (F := F)).arr_whole c (pdats m ρ hO) ((pdats m ρ hO 0 c).share_full fun _ => rfl)
      (V3 m ρ c) (V4 m ρ c) ((pdats m ρ hO 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 likewise: entered with every unscoped buffer at `W5`, left with them at `W6`. -/
def reg1 (hO : Ok m ρ) : Pipeline.RegionSeg (pcfgs (F := F)) (adm m ρ hO) (pdats m ρ hO) () defs₀ 𝒱₀ L lv 1 where
  win := (launch1 (F := F)).win.to₀
  block_pos := (launch1 (F := F)).block_pos
  stage_whole := (launch1 (F := F)).stage_whole
  K := PEmpty
  osem k := k.elim
  ho := Pipeline.OwnSemFacts.none _
  hbody c := (body_obligation1 (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := Pipeline.arrays_of_unscopedBufs (p := 1) (pcfgs (F := F)) (adm m ρ hO) (pdats m ρ hO) (launch1 (F := F)).win
      (launch1 (F := F)).arr_whole c ((pdats m ρ hO 1 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ hO 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ hO 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) (adm m ρ hO) (Ix := Unit) (Name := ℕ) (U := UR sig nD τ) (Lvl := ℕ)
      (launch1 (F := F)).win (launch1 (F := F)).arr_whole c (pdats m ρ hO) ((pdats m ρ hO 1 c).share_full fun _ => rfl)
      (V5 m ρ c) (V6 m ρ c) ((pdats m ρ hO 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's nine items in order: a host segment per stretch from its boundary's contents, a region per kernel call. -/
abbrev segs (hO : Ok m ρ) : List (Pipeline.Seg (pcfgs (F := F)) (adm m ρ hO) (pdats m ρ hO) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ hO),
    .host (hseg hostOps1 hostOps1_sub hostOps1_fresh (W4 m ρ)),
    .region (reg1 m ρ hO),
    .host (hseg hostOps2 hostOps2_sub hostOps2_fresh (W6 m ρ)),
    .region (reg2 m ρ hO),
    .host (hseg hostOps3 hostOps3_sub hostOps3_fresh (W8 m ρ hO)) ]

/-- @main is the run of the segments: its chain of items, against the chain of the segments' fragments. -/
theorem main_run (hO : Ok m ρ) (c : Dev nD) : main (F := F) c = Pipeline.Seg.run (segs m ρ hO) := by
  rewrite [main_chain c, Pipeline.Seg.run_eq_chain,
    show (segs m ρ hO).map Pipeline.Seg.prog = [
      StableHlo.seq hostOps0,
      StableHlo.seq hostOps0_1,
      StableHlo.seq hostOps0_2,
      Prog.lift (.customCall (Pipeline.entry 0) ()),
      StableHlo.seq hostOps1,
      Prog.lift (.customCall (Pipeline.entry 1) ()),
      StableHlo.seq hostOps2,
      Prog.lift (.customCall (Pipeline.entry 2) ()),
      StableHlo.seq hostOps3 ] from rfl]
  rfl

/-- The last thread state without the dues: every unscoped buffer at the return's contents, the generator register at
    some state. -/
abbrev Tₙ (hO : Ok m ρ) (c : Dev nD) : sProp 𝕄 :=
  iprop(StableHlo.held (c : Thread nD τ) (Pipeline.ucRefs τ sig) (W9 m ρ hO c) ∗ ∃ r, prngReg c r)

set_option backward.isDefEq.respectTransparency.types false in
/-- THE RUN. With the table's row indices in range, from any memory with zero counters every weakly fair execution of
    @main on the TensorCore terminates, nothing faulting, and in every final state each unscoped buffer holds what the
    fold says of it at the return. -/
theorem run_main (hO : Ok m ρ) : θ_run defs (onTc (τ := τ) (main (F := F))) ⟨m, fun _ => 0, ρ⟩
    (fun r => ∀ c : Dev nD, ∀ b ∈ Pipeline.ucRefs τ sig, r.2.mem ((c : Thread nD τ).1, b) = W9 m ρ hO c b) :=
  Pipeline.θ_run_regions_kit (pcfgs (F := F)) (adm m ρ hO) (pdats m ρ hO) () (cellOf_inj (adm m ρ hO)) emb₁ defs₀ 𝒱₀ L lv m ρ main
    (segs m ρ hO)
    (fun c Q => by rw [main_run m ρ hO c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells (Pipeline.pin (pcfgs (F := F)) (adm m ρ hO)) (cellOf_inj (adm m ρ hO)))
      (Pipeline.launchToks (Pipeline.pin (pcfgs (F := F)) (adm m ρ hO)) (cellOf_inj (adm m ρ hO))))
    (hu₀ := by
      iintro Hu; imodintro
      isplitl [Hu]
      · iapply (show (ownU (initOf (Pipeline.cells (Pipeline.pin (pcfgs (F := F)) (adm m ρ hO)) (cellOf_inj (adm m ρ hO)))
            (Pipeline.launchToks (Pipeline.pin (pcfgs (F := F)) (adm m ρ hO)) (cellOf_inj (adm m ρ hO)))) : sProp 𝕄)
            ⊢ BI.own (emb₁ (initOf (Pipeline.cells (Pipeline.pin (pcfgs (F := F)) (adm m ρ hO)) (cellOf_inj (adm m ρ hO)))
              (Pipeline.launchToks (Pipeline.pin (pcfgs (F := F)) (adm m ρ hO)) (cellOf_inj (adm m ρ hO))))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ hO)
    (hch := ⟨fun _ => .rfl, fun _ => .rfl, fun _ => .rfl, fun _ => .rfl, fun _ => .rfl, fun _ => .rfl, fun _ => .rfl,
      fun _ => .rfl, fun _ => .rfl, fun c => by
        show iprop(StableHlo.held (c : Thread nD τ) (Pipeline.ucRefs τ sig) (W9 m ρ hO c) ∗ R c) ⊢ _
        iintro ⟨Hh, Hp, HO⟩
        isplitl [Hh Hp]
        · isplitl [Hh] <;> iassumption
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ hO c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ hO c) s')
      isplitl [Hh] <;> iassumption)
    (hQ := fun s h c => h c)

/-- THE FRAME: every argument array ends holding its launch contents — each read off the final state at the return's
    contents and walked back through the fold. -/
theorem frame (hO : Ok m ρ) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_arg0 (by decide))).trans (W9_main_arg0 m ρ hO c),
     (h c _ (mem_uc main_arg1 (by decide))).trans (W9_main_arg1 m ρ hO c),
     (h c _ (mem_uc main_arg2 (by decide))).trans (W9_main_arg2 m ρ hO c),
     (h c _ (mem_uc main_arg3 (by decide))).trans (W9_main_arg3 m ρ hO c),
     (h c _ (mem_uc main_arg4 (by decide))).trans (W9_main_arg4 m ρ hO c),
     (h c _ (mem_uc main_arg5 (by decide))).trans (W9_main_arg5 m ρ hO c),
     (h c _ (mem_uc main_arg6 (by decide))).trans (W9_main_arg6 m ρ hO c)⟩) (run_main m ρ hO)

/-- info: 'Cert.Kernel.Fr.frame' depends on axioms: [propext, Classical.choice, Quot.sound] -/
#guard_msgs in #print axioms frame

end Cert.Kernel.Fr

end
-- ==== Proof.K.Ok.lean ====
/-
  The precondition bounds every token: 0 ≤ token < 100000, signed. The gather's table is the tokens under another
  shape, so each of its words is a token, and a word in [0, 100000) signed is below 100000 unsigned. Window 0's block
  at grid point i is row table[i] of the [100000, 1, 64] source: inside it, since table[i] + 1 ≤ 100000.
-/
import proofs.«409041_j70755291234309_2_alg».proof.Kernel
import proofs.«409041_j70755291234309_2_alg».proof.Pre_finite_inputs
import proofs.«409041_j70755291234309_2_alg».proof.Proof.Gen.Kernel
import proofs.«409041_j70755291234309_2_alg».proof.Proof.Gen.Pre_finite_inputs
import Idealize.ShloMosaic.Lib.ReduceAll
import Idealize.ShloMosaic.Lib.StableHlo.Predicate

set_option maxRecDepth 16384
noncomputable section
namespace Cert.Kernel.Fr
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel Cert.Kernel.Gen
variable {F : FTy → Type} [FloatOps F]

/-- The scalar shape has one index. -/
instance subsingleton_S_Idx : Subsingleton Cert.Pre_finite_inputs.S_.Idx := ⟨fun x y => funext fun a => a.elim0⟩

/-- A word in [0, n) signed is below n unsigned. -/
theorem toNat_lt_of_signed_range (w : BitVec 32) (n : Nat) (hn : n < 2 ^ 31)
    (h0 : IntOp.cmpi .sge w 0#32 = 1#1) (h1 : IntOp.cmpi .slt w (BitVec.ofNat 32 n) = 1#1) : w.toNat < n := by
  have hw : w.toNat < 2 ^ 31 := by
    have := (Scalar.nonneg_iff w).1 h0
    omega
  have hn' : (BitVec.ofNat 32 n).toNat < 2 ^ 31 := by rw [BitVec.toNat_ofNat]; omega
  have := (StableHlo.Predicate.slt_iff_toNat hw hn').1 h1
  rw [BitVec.toNat_ofNat] at this
  omega

/-- THE PRECONDITION DECODED at one token: its last conjunct is the conjunction, over all tokens, of 0 ≤ token and
    token < 100000. -/
theorem pre_token (a0 : IVec Cert.Pre_finite_inputs.S64x200 32) (a1 : IVec Cert.Pre_finite_inputs.S2x1600000 32)
    (a2 : FVec F Cert.Pre_finite_inputs.S100000x64 .f32) (a3 : FVec F Cert.Pre_finite_inputs.S64x128 .f32)
    (a4 : FVec F Cert.Pre_finite_inputs.S128 .f32) (a5 : FVec F Cert.Pre_finite_inputs.S128x64 .f32)
    (a6 : FVec F Cert.Pre_finite_inputs.S64 .f32)
    (h : Cert.Pre_finite_inputs.fn (F := F) a0 a1 a2 a3 a4 a5 a6 = fun _ => 1#1)
    (i : Cert.Pre_finite_inputs.S64x200.Idx) : (a0 i).toNat < 100000 := by
  have e := congrFun h (fun a => a.elim0)
  unfold Cert.Pre_finite_inputs.fn Cert.Pre_finite_inputs.fn_part1 at e
  -- the result is (the five finiteness conjuncts) ∧ (the reduce of the token mask)
  have e29 := (IntOp.andi_eq_one.1 e).2
  have e28 := Host.reduce_andi_all _ _ _ _ _ e29 i
  obtain ⟨hge, hlt⟩ := IntOp.andi_eq_one.1 e28
  exact toNat_lt_of_signed_range (a0 i) 100000 (by decide) hge hlt

/-- Every word of a table that is the tokens under another shape is below 100000, hence the side condition. -/
theorem ok2_of_pre (a0 : IVec Cert.Pre_finite_inputs.S64x200 32) (a1 : IVec Cert.Pre_finite_inputs.S2x1600000 32)
    (a2 : FVec F Cert.Pre_finite_inputs.S100000x64 .f32) (a3 : FVec F Cert.Pre_finite_inputs.S64x128 .f32)
    (a4 : FVec F Cert.Pre_finite_inputs.S128 .f32) (a5 : FVec F Cert.Pre_finite_inputs.S128x64 .f32)
    (a6 : FVec F Cert.Pre_finite_inputs.S64 .f32)
    (h : Cert.Pre_finite_inputs.fn (F := F) a0 a1 a2 a3 a4 a5 a6 = fun _ => 1#1)
    (pf : pre2.Contents (Elt F))
    (hpf : pf 0 = shapeCast S12800 a0 shapeCasts_S64x200_S12800) : ok2 (F := F) pf := by
  intro i
  -- whatever index the map reads the table at, the word is a token
  have hl : ∀ x, BitVec.toNat (pf 0 x : BitVec 32) < 100000 := fun x => by
    rw [hpf]; exact pre_token a0 a1 a2 a3 a4 a5 a6 h _
  obtain ⟨w, hw, e⟩ : ∃ w : BitVec 32, w.toNat < 100000 ∧ cc2_transform_0 k2_off1_inb numel1_S1 pf i = ![w.toNat, 0, 0] :=
    ⟨_, hl _, rfl⟩
  refine ⟨fun a => ?_, Or.inl rfl⟩
  rw [e]
  fin_cases a <;> simp [S1x1x64, S100000x1x64] <;> omega

end Cert.Kernel.Fr

end
-- ==== Proof.K.OkFold.lean ====
/-
  The side condition of the gather's table, from the precondition on the launch memory: the table region 2 finds is the
  token argument under another shape, and the precondition bounds every token by 100000.
-/
import proofs.«409041_j70755291234309_2_alg».proof.Proof.K.Ok
import proofs.«409041_j70755291234309_2_alg».proof.Proof.K.Fold

set_option maxRecDepth 16384
noncomputable section
namespace Cert.Kernel.Fr
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen
variable {F : FTy → Type} [FloatOps F]

variable (m : (ℓ : Loc nD τ sig) → Buf (Elt F) ℓ) (ρ : Dev nD → PrngReg)

/-- The table at region 2's entry is, on the one device, the token argument's elements in row-major order; each is
    below 100000 under the precondition, so every block of window 0 lies inside the gathered array. -/
theorem ok_of_pre
    (h : ∀ c : Dev nD, Cert.Pre_finite_inputs.fn (F := F) (m ((c.tc : Thread nD τ).loc main_arg0))
      (m ((c.tc : Thread nD τ).loc main_arg1)) (m ((c.tc : Thread nD τ).loc main_arg2))
      (m ((c.tc : Thread nD τ).loc main_arg3)) (m ((c.tc : Thread nD τ).loc main_arg4))
      (m ((c.tc : Thread nD τ).loc main_arg5)) (m ((c.tc : Thread nD τ).loc main_arg6)) = fun _ => 1#1) :
    Ok m ρ := by
  have hpf : tbl2 (V7 m ρ) 0
      = shapeCast S12800 (m (((0 : Dev nD).tc : Thread nD τ).loc main_arg0)) shapeCasts_S64x200_S12800 :=
    W7_main_v64 m ρ 0
  exact ok2_of_pre _ _ _ _ _ _ _ (h 0) (tbl2 (V7 m ρ)) hpf

end Cert.Kernel.Fr

end
-- ==== Proof.KI.Mm0.lean ====
/- Region 0 of @main (a tiled matrix product), at a parameter: the buffer contents the region is entered with.
   Each window's block at a grid point, what the body leaves in the output window's buffer, the body's triple over
   its skeleton, the pipeline's proof data and the body obligation at every point. Generic in the float model. -/
import proofs.«409041_j70755291234309_2_alg».proof.Proof.Gen.KernelIdeal.Launch
import proofs.«409041_j70755291234309_2_alg».proof.Proof.Gen.KernelIdeal.Skeleton
import proofs.«409041_j70755291234309_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384
noncomputable section
namespace Cert.KernelIdeal.Fr
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
variable {F : FTy → Type} [FloatOps F]
local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row-block input's current buffer holds its block at every point, for any proof data over the entry arrays
    whose body leaves that block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t := by
  exact (dat.before_in_eq_fetched 0 rfl (fun _ => rfl) (fun _ _ _ => rfl)
    (fun t => by rw [hafter]; unfold Dat.blockOf iblk0; rw [hA]; try rfl) t d).trans
    (by unfold Dat.fetched Dat.blockOf iblk0; rw [hA]; try rfl)

/-- The weight input is brought in at the first point only; its block index never moves, so its buffer holds the
    same block at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t := by
  exact (dat.before_in_eq_fetched 1 rfl (fun _ => rfl) (fun _ _ _ => rfl)
    (fun t => by rw [hafter]; unfold Dat.blockOf iblk0; rw [hA]; try rfl) t d).trans
    (by unfold Dat.fetched Dat.blockOf iblk0; rw [hA]; try rfl)

/-! ## The body's accesses: each buffer whole -/

abbrev r0_0 : Rect S10000x64 := Rect.unit (s := S10000x64) ![0, 0] S10000x64.size inb_S10000x64_S10000x64_0_0
abbrev r0_1 : Rect S64x128 := Rect.unit (s := S64x128) ![0, 0] S64x128.size inb_S64x128_S64x128_0_0
abbrev r0_2 : Rect S10000x128 := Rect.unit (s := S10000x128) ![0, 0] S10000x128.size inb_S10000x128_S10000x128_0_0

/-! ## What the body leaves in the output window's buffer -/

/-- The output buffer after the body, from the two input blocks: its one store, of the product of the two loads. -/
def out0_2 (x0 : Vec F S10000x64 .f32) (x1 : Vec F S64x128 .f32) : Vec F S10000x128 .f32 :=
  View.canon [⟨r0_2, k0_pay1 (View.ld x0 r0_0) (View.ld x1 r0_1)⟩]

/-- The one store is of the whole buffer, so it covers it. -/
theorem cover0_2 (p0 : Vec F S10000x128 .f32) (y : S10000x128.Idx) :
    ∃ pc ∈ ([⟨r0_2, p0⟩] : List (View.Piece (Elt F) S10000x128 .f32)), y ∈ pc.1.set := by
  exact View.cover_of_tiled [⟨r0_2, p0⟩] S10000x128.size (by rfl) y

/-! ## The body's triple -/

/-- The body on whole staging memrefs, the inputs at read contents `x0`, `x1` and the output at anything, runs to the
    continuation holding the inputs as they were and the output at `out0_2 x0 x1`. The output buffer's load before
    the store reads a value nothing uses. -/
theorem sound_kernel0 (c : Dev nD) (E : Set ℕ) (i : grid0.Coords)
    (arg1 : Memref sig .tc .vmem S10000x64 .f32) (harg1 : arg1.IsWhole) (arg2 : Memref sig .tc .vmem S64x128 .f32) (harg2 : arg2.IsWhole)
    (arg3 : Memref sig .tc .vmem S10000x128 .f32) (harg3 : arg3.IsWhole)
    (x0 : Vec F S10000x64 .f32) (x1 : Vec F S64x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of the region's pipeline on core `c`: the arrays as the region finds them; after the body at point
    `t` each input's buffer at its block and the output's at `out0_2` of the two input blocks; the scoped rest and the
    generator register pass through; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so the body's triple applies; the invariant and what
    the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.KI.Mm1.lean ====
/- Region 1 of @main (a tiled matrix product), at a parameter: the buffer contents the region is entered with.
   Each window's block at a grid point, what the body leaves in the output window's buffer, the body's triple over
   its skeleton, the pipeline's proof data and the body obligation at every point. Generic in the float model. -/
import proofs.«409041_j70755291234309_2_alg».proof.Proof.Gen.KernelIdeal.Launch
import proofs.«409041_j70755291234309_2_alg».proof.Proof.Gen.KernelIdeal.Skeleton
import proofs.«409041_j70755291234309_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384
noncomputable section
namespace Cert.KernelIdeal.Fr
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
variable {F : FTy → Type} [FloatOps F]
local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The row-block input's current buffer holds its block at every point, for any proof data over the entry arrays
    whose body leaves that block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t := by
  exact (dat.before_in_eq_fetched 0 rfl (fun _ => rfl) (fun _ _ _ => rfl)
    (fun t => by rw [hafter]; unfold Dat.blockOf iblk1; rw [hA]; try rfl) t d).trans
    (by unfold Dat.fetched Dat.blockOf iblk1; rw [hA]; try rfl)

/-- The weight input is brought in at the first point only; its block index never moves, so its buffer holds the
    same block at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t := by
  exact (dat.before_in_eq_fetched 1 rfl (fun _ => rfl) (fun _ _ _ => rfl)
    (fun t => by rw [hafter]; unfold Dat.blockOf iblk1; rw [hA]; try rfl) t d).trans
    (by unfold Dat.fetched Dat.blockOf iblk1; rw [hA]; try rfl)

/-! ## The body's accesses: each buffer whole -/

abbrev r1_0 : Rect S10000x128 := Rect.unit (s := S10000x128) ![0, 0] S10000x128.size inb_S10000x128_S10000x128_0_0
abbrev r1_1 : Rect S128x64 := Rect.unit (s := S128x64) ![0, 0] S128x64.size inb_S128x64_S128x64_0_0
abbrev r1_2 : Rect S10000x64 := Rect.unit (s := S10000x64) ![0, 0] S10000x64.size inb_S10000x64_S10000x64_0_0

/-! ## What the body leaves in the output window's buffer -/

/-- The output buffer after the body, from the two input blocks: its one store, of the product of the two loads. -/
def out1_2 (x0 : Vec F S10000x128 .f32) (x1 : Vec F S128x64 .f32) : Vec F S10000x64 .f32 :=
  View.canon [⟨r1_2, k1_pay1 (View.ld x0 r1_0) (View.ld x1 r1_1)⟩]

/-- The one store is of the whole buffer, so it covers it. -/
theorem cover1_2 (p0 : Vec F S10000x64 .f32) (y : S10000x64.Idx) :
    ∃ pc ∈ ([⟨r1_2, p0⟩] : List (View.Piece (Elt F) S10000x64 .f32)), y ∈ pc.1.set := by
  exact View.cover_of_tiled [⟨r1_2, p0⟩] S10000x64.size (by rfl) y

/-! ## The body's triple -/

/-- The body on whole staging memrefs, the inputs at read contents `x0`, `x1` and the output at anything, runs to the
    continuation holding the inputs as they were and the output at `out1_2 x0 x1`. The output buffer's load before
    the store reads a value nothing uses. -/
theorem sound_kernel1 (c : Dev nD) (E : Set ℕ) (i : grid1.Coords)
    (arg1 : Memref sig .tc .vmem S10000x128 .f32) (harg1 : arg1.IsWhole) (arg2 : Memref sig .tc .vmem S128x64 .f32) (harg2 : arg2.IsWhole)
    (arg3 : Memref sig .tc .vmem S10000x64 .f32) (harg3 : arg3.IsWhole)
    (x0 : Vec F S10000x128 .f32) (x1 : Vec F S128x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out1_2 x0 x1)) -∗ K ⟨⟩))
      ⊢ wp frame (wpE (defs₀ (F := F)) Variants.none c none) E (cc1__matmul_kernel i arg1 harg1 arg2 harg2 arg3 harg3) K := by
  simp only [cc1__matmul_kernel_eq_skeleton]; unfold cc1__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The pipeline's proof data -/

/-- The proof data of the region's pipeline on core `c`: the arrays as the region finds them; after the body at point
    `t` each input's buffer at its block and the output's at `out1_2` of the two input blocks; the scoped rest and the
    generator register pass through; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks, so the body's triple applies; the invariant and what
    the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Fr

end
-- ==== Proof.KI.Gather2.lean ====
import proofs.«409041_j70755291234309_2_alg».proof.Proof.Gen.KernelIdeal.Launch
import proofs.«409041_j70755291234309_2_alg».proof.Proof.Gen.KernelIdeal.Skeleton
import proofs.«409041_j70755291234309_2_alg».proof.Proof.Gen.KernelIdeal.Points
import Idealize.ShloMosaic.Lib.Pipeline.Frame
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384
noncomputable section
namespace Cert.KernelIdeal.Fr
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
variable {F : FTy → Type} [FloatOps F]
local notation "𝕄" => MT nD τ sig Unit (Elt F) ℕ (UR sig nD τ) ℕ

/-! # Region 2: the row gather, whose input window's index map reads the prefetched table -/

/-! ## The schedule's names at any admissible contents of the table -/

/-- The current staging memref of each window at point `t`, at admissible contents `a` of the table, and its
    wholeness. -/
abbrev st2_0 (a : (pcfg2 (F := F)).Adm) (t : Fin (cfg2 a).N) : Memref sig .tc .vmem S1x1x64 .f32 := spec2_0.stage ((cfg2 a).slots t 0)
abbrev hst2_0 (a : (pcfg2 (F := F)).Adm) (t : Fin (cfg2 a).N) : (st2_0 a t).IsWhole := hstage2_0 (((cfg2 a).slots t 0).cast nbuf2_0)
abbrev st2_1 (a : (pcfg2 (F := F)).Adm) (t : Fin (cfg2 a).N) : Memref sig .tc .vmem S1x1x64 .f32 := spec2_1.stage ((cfg2 a).slots t 1)
abbrev hst2_1 (a : (pcfg2 (F := F)).Adm) (t : Fin (cfg2 a).N) : (st2_1 a t).IsWhole := hstage2_1 (((cfg2 a).slots t 1).cast nbuf2_1)

/-- The kernel body at point `t`, on what the pipeline calls it with: the table's whole buffer, then the two
    current staging memrefs. -/
abbrev bodyAt2 (a : (pcfg2 (F := F)).Adm) (t : Fin (cfg2 a).N) : Prog (TpuEff nD τ sig (Elt F) Λ₀ .tc) PUnit :=
  cc2__gather_kernel (grid2.coords t) (Memref.whole main_v64) (Memref.isWhole_whole _) (st2_0 a t) (hst2_0 a t) (st2_1 a t) (hst2_1 a t)

/-! ## The body's one store, and its triple (no table involved: the body never reads it) -/

abbrev r2_0 : Rect S1x1x64 := Rect.unit (s := S1x1x64) ![0, 0, 0] S1x1x64.size inb_S1x1x64_S1x1x64_0_0_0

/-- The output window's staging buffer after the body, from the input window's block: its one store as a piece. -/
def out2_1 (x0 : Vec F S1x1x64 .f32) : Vec F S1x1x64 .f32 :=
  View.canon [⟨r2_0, k2_pay1 (View.ld x0 r2_0)⟩]

/-- The store is of the whole buffer, so it covers it. -/
theorem cover2_1 (p0 : Vec F S1x1x64 .f32) (y : S1x1x64.Idx) :
    ∃ pc ∈ ([⟨r2_0, p0⟩] : List (View.Piece (Elt F) S1x1x64 .f32)), y ∈ pc.1.set :=
  View.cover_of_tiled [⟨r2_0, p0⟩] S1x1x64.size (by rfl) y

set_option maxHeartbeats 1000000 in
/-- The body on whole staging memrefs, the input's at contents `x0` and the output's at anything, whatever the table
    memref is (it is never read): it runs to the continuation holding the input's as it was and the output's at
    `out2_1 x0`. -/
theorem sound_kernel2 (c : Dev nD) (E : Set ℕ) (i : grid2.Coords) (arg1 : Memref sig .tc .smem S12800 .i32) (harg1 : arg1.IsWhole)
    (arg2 : Memref sig .tc .vmem S1x1x64 .f32) (harg2 : arg2.IsWhole) (arg3 : Memref sig .tc .vmem S1x1x64 .f32) (harg3 : arg3.IsWhole)
    (x0 : Vec F S1x1x64 .f32) (K : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (out2_1 x0)) -∗ K ⟨⟩))
      ⊢ wp frame (wpE (defs₀ (F := F)) Variants.none c none) E (cc2__gather_kernel i arg1 harg1 arg2 harg2 arg3 harg3) K := by
  simp only [cc2__gather_kernel_eq_skeleton]; unfold cc2__gather_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover2_1 _)

/-! ## The windows' blocks, at any admissible contents of the table -/

section AnyTable
variable (V : (c : Dev nD) → (b : Ref sig .tc) → Buf (Elt F) ((c : Thread nD τ).loc b))

/-- Window `w`'s block at point `t`, read off its array as the region finds it (`V`), at admissible contents `a`. -/
def iblkA2 (a : (pcfg2 (F := F)).Adm) (c : Dev nD) (w : Fin (cfg2 a).W) (t : Fin (cfg2 a).N) :
    (((cfg2 a).win w).xblock ((cfg2 a).grid.coords t)).Idx → Elt F ((cfg2 a).win w).elt :=
  (((cfg2 a).win w).blk t).view.read (Elt F) (V c (Pipeline.arrRef spec2 w))

/-- The input window's current staging buffer holds its block at every point, fetched there or not, for any proof
    data whose array is `V`'s and whose body leaves the block in place: unfetched, the block index has not moved. -/
theorem before2_0_of (a : (pcfg2 (F := F)).Adm) {c : Dev nD} (dat : Dat τ (Elt F) Unit ℕ (UR sig nD τ) ℕ (cfg2 a) c)
    (hA : dat.A 0 = V c (Pipeline.arrRef spec2 0)) (hafter : ∀ t, dat.after 0 t = iblkA2 V a c 0 t)
    (t : Fin (cfg2 a).N) (d) : dat.before 0 t d = iblkA2 V a c 0 t :=
  (dat.before_in_eq_fetched 0 rfl (fun _ => rfl) (fun _ _ _ => rfl) (fun t => by rw [hafter]; unfold Dat.blockOf iblkA2; rw [hA]; try rfl) t d).trans
    (by unfold Dat.fetched Dat.blockOf iblkA2; rw [hA]; try rfl)

end AnyTable

/-! ## The region's half at the contents the region finds -/

variable (V : (c : Dev nD) → (b : Ref sig .tc) → Buf (Elt F) ((c : Thread nD τ).loc b))

/-- The table's contents when the region is entered (there is one device: device 0's). -/
def tbl2 : pre2.Contents (Elt F) := fun j => V (0 : Dev nD) (pre2.ref j)
/-- The pipeline's side condition of the table: every row index it holds is inside the gathered array. -/
abbrev Ok2 : Prop := ok2 (F := F) (tbl2 V)
/-- The table as admissible contents, and the pipeline at them. -/
abbrev adm2 (hO : Ok2 V) : (pcfg2 (F := F)).Adm := ⟨tbl2 V, hO⟩
abbrev cfgM2 (hO : Ok2 V) : Pipeline.Cfg sig Λ₀ := cfg2 (adm2 V hO)

/-- Window `w`'s block at point `t`, read off its array as the region finds it: for the input window, the row the
    table names at `t`. -/
def iblk2 (hO : Ok2 V) (c : Dev nD) (w : Fin (cfgM2 V hO).W) (t : Fin (cfgM2 V hO).N) :
    (((cfgM2 V hO).win w).xblock ((cfgM2 V hO).grid.coords t)).Idx → Elt F ((cfgM2 V hO).win w).elt :=
  (((cfgM2 V hO).win w).blk t).view.read (Elt F) (V c (Pipeline.arrRef spec2 w))

/-- The proof data of pipeline 2 on core `c`: the arrays as the region finds them; after the body at point `t` the
    input's buffer at its block and the output's at `out2_1` of it; the invariant the scoped rest with the generator
    register, and the table held at the full share, both untouched; nothing owed; full shares. -/
def dat2 (hO : Ok2 V) (c : Dev nD) : Dat τ (Elt F) Unit ℕ (UR sig nD τ) ℕ (cfgM2 V hO) c where
  A w := V c (Pipeline.arrRef spec2 w)
  after w t := match w with
    | ⟨0, _⟩ => iblk2 V hO c 0 t
    | ⟨1, _⟩ => out2_1 (iblk2 V hO c 0 t)
  Φ _ := iprop(Pipeline.ΦA spec2 c ∗ Pipeline.prefHeld (Ix := Unit) (Name := ℕ) (U := UR sig nD τ) (Lvl := ℕ) pre2 c (fun _ => fullShare) (tbl2 V))
  q _ := fullShare
  owed _ := 0

theorem A_eq2 (hO : Ok2 V) (c : Dev nD) (w : Fin (cfgM2 V hO).W) : (dat2 V hO c).A w = V c (Pipeline.arrRef spec2 w) := by
  dsimp only [dat2]

theorem after2_0 (hO : Ok2 V) (c : Dev nD) (t : Fin (cfgM2 V hO).N) : (dat2 V hO c).after 0 t = iblk2 V hO c 0 t := by dsimp only [dat2]; try rfl
theorem after2_1 (hO : Ok2 V) (c : Dev nD) (t : Fin (cfgM2 V hO).N) : (dat2 V hO c).after 1 t = out2_1 (iblk2 V hO c 0 t) := by dsimp only [dat2]; try rfl

/-- The input's current staging buffer holds its block at every point. -/
theorem before2_0 (hO : Ok2 V) (c : Dev nD) (t : Fin (cfgM2 V hO).N) (d) : (dat2 V hO c).before 0 t d = iblk2 V hO c 0 t :=
  before2_0_of V (adm2 V hO) (dat2 V hO c) (A_eq2 V hO c 0) (after2_0 V hO c) t d

/-! ## The body obligation, at a generic point -/

/-- What the body is called with at point `t`, -/
def bodyPre2 (hO : Ok2 V) (c : Dev nD) (t : Fin (cfgM2 V hO).N) : sProp 𝕄 :=
  iprop((dat2 V hO c).Φ t.castSucc ∗ (dat2 V hO c).owesAt () t.castSucc
    ∗ (∃ d, owns (c : Thread nD τ) (st2_0 (adm2 V hO) t) fullShare ((dat2 V hO c).before 0 t d))
    ∗ (∃ d, owns (c : Thread nD τ) (st2_1 (adm2 V hO) t) fullShare ((dat2 V hO c).before 1 t d)))

/-- and what it returns. -/
def bodyPost2 (hO : Ok2 V) (c : Dev nD) (t : Fin (cfgM2 V hO).N) : sProp 𝕄 :=
  iprop((dat2 V hO c).Φ t.succ ∗ (dat2 V hO c).owesAt () t.succ
    ∗ owns (c : Thread nD τ) (st2_0 (adm2 V hO) t) fullShare ((dat2 V hO c).after 0 t)
    ∗ owns (c : Thread nD τ) (st2_1 (adm2 V hO) t) fullShare ((dat2 V hO c).after 1 t))

/-- The body at any point: the input's memref holds its block, so the body's triple applies; the invariant (the
    table, held whole, within it) and the core's debt pass through unread. -/
theorem sound_body2 (hO : Ok2 V) (c : Dev nD) (t : Fin (cfgM2 V hO).N) :
    bodyPre2 V hO c t ⊢ wp frame (wpE (defs₀ (F := F)) Variants.none c none) Set.univ (bodyAt2 (adm2 V hO) t) (fun _ => bodyPost2 V hO c t) := by
  unfold bodyPre2 bodyPost2 bodyAt2
  simp only [before2_0]
  rw [show (dat2 V hO c).Φ t.succ = (dat2 V hO c).Φ t.castSucc from rfl,
    show (dat2 V hO c).owesAt () t.succ = (dat2 V hO c).owesAt () t.castSucc from rfl,
    after2_0, after2_1]
  iintro ⟨HΦ, Ho, ⟨%d0, H0⟩, ⟨%d1, H1⟩⟩
  iapply (sound_kernel2 c Set.univ _ _ _ _ _ _ _ (iblk2 V hO c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation of the pipeline's proof data, at every point. -/
theorem body_obligation2 (hO : Ok2 V) (c : Dev nD) : BodyObligation (dat2 (F := F) V hO c) (defs₀ (F := F)) Variants.none () Set.univ := fun t => by
  rw [bigSep_W2, bigSep_W2]
  exact sound_body2 V hO c t

end Cert.KernelIdeal.Fr

end
-- ==== Proof.KI.Fold.lean ====
/- The buffer contents of @main at every boundary between its items, as a fold from the launch memory: a stretch of
   host operations rewrites the buffers it writes; a region leaves its arrays at what its pipeline's write-backs
   fold to and every other buffer as it was. Each argument array is read back through the fold to its launch
   contents, and the gather's table to the reshaped token argument. Generic in the float model. -/
import proofs.«409041_j70755291234309_2_alg».proof.Proof.KI.Mm0
import proofs.«409041_j70755291234309_2_alg».proof.Proof.KI.Mm1
import proofs.«409041_j70755291234309_2_alg».proof.Proof.KI.Gather2
import proofs.«409041_j70755291234309_2_alg».proof.Proof.Gen.KernelIdeal.Regions

set_option maxRecDepth 16384
noncomputable section
namespace Cert.KernelIdeal.Fr
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
variable {F : FTy → Type} [FloatOps F]
local notation "𝕄" => MT nD τ sig Unit (Elt F) ℕ (UR sig nD τ) ℕ

variable (m : (ℓ : Loc nD τ sig) → Buf (Elt F) ℓ) (ρ : Dev nD → PrngReg)

/-! ## The contents at each boundary -/

/-- Core `c`'s buffers at launch. -/
abbrev W0 : Dev nD → Valuation τ sig (Elt F) := fun c b => (s₀ m ρ).mem ((c : Dev nD), b)
/-- After the first stretch of host operations, -/
abbrev W1 : Dev nD → Valuation τ sig (Elt F) := fun c => StableHlo.after hostOps0 (W0 m ρ c)
/-- after the called function's three, -/
abbrev W2 : Dev nD → Valuation τ sig (Elt F) := fun c => StableHlo.after hostOps0_1 (W1 m ρ c)
/-- and after the stretch that ends at region 0's entry. -/
abbrev W3 : Dev nD → Valuation τ sig (Elt F) := fun c => StableHlo.after hostOps0_2 (W2 m ρ c)
/-- The same read at the TensorCore's references (what region 0's proof data take). -/
abbrev V3 : (c : Dev nD) → (b : Ref sig .tc) → Buf (Elt F) ((c : Thread nD τ).loc b) := fun c b => W3 m ρ c b

/-- At region 0's exit: its arrays at what the pipeline leaves (an input as entered, the output with every
    write-back folded in), every other buffer as entered. -/
def W4 (c : Dev nD) : Valuation τ sig (Elt F) :=
  Pipeline.withArrays spec0 c (W3 m ρ c) fun w => (dat0 (V3 m ρ) c).arrAt w cfg0.N
theorem W4_arr (c : Dev nD) (w : Fin cfg0.W) :
    W4 m ρ c (Proc.devRef .tc (Pipeline.arrRef spec0 w)) = (dat0 (V3 m ρ) c).arrAt w cfg0.N := by
  unfold W4; exact Pipeline.withArrays_arr spec0 winFacts0.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
abbrev V4 : (c : Dev nD) → (b : Ref sig .tc) → Buf (Elt F) ((c : Thread nD τ).loc b) := fun c b => W4 m ρ c b
/-- At region 0's exit each of its arrays holds what the pipeline leaves, and every other buffer what it held at
    entry. -/
theorem hF0 (c : Dev nD) (w : Fin cfg0.W) : (dat0 (V3 m ρ) c).arrAt w cfg0.N = V4 m ρ c (Pipeline.arrRef spec0 w) :=
  (W4_arr m ρ c w).symm
theorem hrest0 (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)

/-- After the stretch between regions 0 and 1 (region 1's entry). -/
abbrev W5 : Dev nD → Valuation τ sig (Elt F) := fun c => StableHlo.after hostOps1 (W4 m ρ c)
abbrev V5 : (c : Dev nD) → (b : Ref sig .tc) → Buf (Elt F) ((c : Thread nD τ).loc b) := fun c b => W5 m ρ c b

/-- At region 1's exit. -/
def W6 (c : Dev nD) : Valuation τ sig (Elt F) :=
  Pipeline.withArrays spec1 c (W5 m ρ c) fun w => (dat1 (V5 m ρ) c).arrAt w cfg1.N
theorem W6_arr (c : Dev nD) (w : Fin cfg1.W) :
    W6 m ρ c (Proc.devRef .tc (Pipeline.arrRef spec1 w)) = (dat1 (V5 m ρ) c).arrAt w cfg1.N := by
  unfold W6; exact Pipeline.withArrays_arr spec1 winFacts1.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
abbrev V6 : (c : Dev nD) → (b : Ref sig .tc) → Buf (Elt F) ((c : Thread nD τ).loc b) := fun c b => W6 m ρ c b
theorem hF1 (c : Dev nD) (w : Fin cfg1.W) : (dat1 (V5 m ρ) c).arrAt w cfg1.N = V6 m ρ c (Pipeline.arrRef spec1 w) :=
  (W6_arr m ρ c w).symm
theorem hrest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)

/-- After the stretch between regions 1 and 2 (region 2's entry): it writes the gather's table and the gathered
    array. -/
abbrev W7 : Dev nD → Valuation τ sig (Elt F) := fun c => StableHlo.after hostOps2 (W6 m ρ c)
abbrev V7 : (c : Dev nD) → (b : Ref sig .tc) → Buf (Elt F) ((c : Thread nD τ).loc b) := fun c b => W7 m ρ c b

/-- The pipeline's side condition of the table as region 2 finds it: every row index inside the gathered array. -/
abbrev Ok : Prop := Ok2 (V7 m ρ)

/-- At region 2's exit, the table admissible. -/
def W8 (hO : Ok m ρ) (c : Dev nD) : Valuation τ sig (Elt F) :=
  Pipeline.withArrays spec2 c (W7 m ρ c) fun w => (dat2 (V7 m ρ) hO c).arrAt w (cfgM2 (V7 m ρ) hO).N
theorem W8_arr (hO : Ok m ρ) (c : Dev nD) (w : Fin (cfgM2 (V7 m ρ) hO).W) :
    W8 m ρ hO c (Proc.devRef .tc (Pipeline.arrRef spec2 w)) = (dat2 (V7 m ρ) hO c).arrAt w (cfgM2 (V7 m ρ) hO).N := by
  unfold W8; exact Pipeline.withArrays_arr spec2 winFacts2.arr_inj c _ _ w
theorem W8_of_ne (hO : Ok m ρ) (c : Dev nD) (b : Ref sig .tc) (hb : ∀ w, Pipeline.arrRef spec2 w ≠ b) :
    W8 m ρ hO c (Proc.devRef .tc b) = W7 m ρ c (Proc.devRef .tc b) := by
  unfold W8; exact Pipeline.withArrays_of_ne spec2 c _ _ b hb
abbrev V8 (hO : Ok m ρ) : (c : Dev nD) → (b : Ref sig .tc) → Buf (Elt F) ((c : Thread nD τ).loc b) := fun c b => W8 m ρ hO c b
theorem hF2 (hO : Ok m ρ) (c : Dev nD) (w : Fin (cfgM2 (V7 m ρ) hO).W) :
    (dat2 (V7 m ρ) hO c).arrAt w (cfgM2 (V7 m ρ) hO).N = V8 m ρ hO c (Pipeline.arrRef spec2 w) :=
  (W8_arr m ρ hO c w).symm
theorem hrest2 (hO : Ok m ρ) (c : Dev nD) : ∀ b, b ∉ Finset.univ.image (Pipeline.arrRef spec2) → V8 m ρ hO c b = V7 m ρ c b :=
  fun b hb => W8_of_ne m ρ hO c b fun w e => hb (Finset.mem_image.mpr ⟨w, Finset.mem_univ _, e⟩)

/-- After the last two reshapes: the contents at the return. -/
abbrev W9 (hO : Ok m ρ) : Dev nD → Valuation τ sig (Elt F) := fun c => StableHlo.after hostOps3 (W8 m ρ hO c)
abbrev V9 (hO : Ok m ρ) : (c : Dev nD) → (b : Ref sig .tc) → Buf (Elt F) ((c : Thread nD τ).loc b) := fun c b => W9 m ρ hO c b

/-- The prefetched tables' admissible contents: pipelines 0 and 1 have none; pipeline 2's is the table as region 2
    finds it. -/
abbrev adm (hO : Ok m ρ) : (p : Fin 3) → (pcfgs (F := F) p).Adm
  | ⟨0, _⟩ => cfg0.toPCfg_adm
  | ⟨1, _⟩ => cfg1.toPCfg_adm
  | ⟨2, _⟩ => adm2 (V7 m ρ) hO

/-! ## What each item leaves unchanged -/

theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W2_of (c : Dev nD) (r : Ref sig .tc) (h : r ∉ hostOps0_1_W) : W2 m ρ c (Proc.devRef .tc r) = W1 m ρ c (Proc.devRef .tc r) :=
  StableHlo.after_of_writes_sub hostOps0_1 _ hostOps0_1_writes h
theorem W3_of (c : Dev nD) (r : Ref sig .tc) (h : r ∉ hostOps0_2_W) : W3 m ρ c (Proc.devRef .tc r) = W2 m ρ c (Proc.devRef .tc r) :=
  StableHlo.after_of_writes_sub hostOps0_2 _ hostOps0_2_writes h
theorem W5_of (c : Dev nD) (r : Ref sig .tc) (h : r ∉ hostOps1_W) : W5 m ρ c (Proc.devRef .tc r) = W4 m ρ c (Proc.devRef .tc r) :=
  StableHlo.after_of_writes_sub hostOps1 _ hostOps1_writes h
theorem W7_of (c : Dev nD) (r : Ref sig .tc) (h : r ∉ hostOps2_W) : W7 m ρ c (Proc.devRef .tc r) = W6 m ρ c (Proc.devRef .tc r) :=
  StableHlo.after_of_writes_sub hostOps2 _ hostOps2_writes h
theorem W9_of (hO : Ok m ρ) (c : Dev nD) (r : Ref sig .tc) (h : r ∉ hostOps3_W) :
    W9 m ρ hO c (Proc.devRef .tc r) = W8 m ρ hO c (Proc.devRef .tc r) :=
  StableHlo.after_of_writes_sub hostOps3 _ hostOps3_writes h

/-- An input window's array leaves its region as it entered. -/
theorem W4_in0 (c : Dev nD) : W4 m ρ c (Proc.devRef .tc main_arg2) = W3 m ρ c (Proc.devRef .tc main_arg2) :=
  (W4_arr m ρ c 0).trans (((dat0 (V3 m ρ) c).arrAt_in 0 rfl _).trans (A_eq0 (V3 m ρ) c 0))
theorem W4_in1 (c : Dev nD) : W4 m ρ c (Proc.devRef .tc main_arg3) = W3 m ρ c (Proc.devRef .tc main_arg3) :=
  (W4_arr m ρ c 1).trans (((dat0 (V3 m ρ) c).arrAt_in 1 rfl _).trans (A_eq0 (V3 m ρ) c 1))
theorem W6_in0 (c : Dev nD) : W6 m ρ c (Proc.devRef .tc main_v46) = W5 m ρ c (Proc.devRef .tc main_v46) :=
  (W6_arr m ρ c 0).trans (((dat1 (V5 m ρ) c).arrAt_in 0 rfl _).trans (A_eq1 (V5 m ρ) c 0))
theorem W6_in1 (c : Dev nD) : W6 m ρ c (Proc.devRef .tc main_arg5) = W5 m ρ c (Proc.devRef .tc main_arg5) :=
  (W6_arr m ρ c 1).trans (((dat1 (V5 m ρ) c).arrAt_in 1 rfl _).trans (A_eq1 (V5 m ρ) c 1))
theorem W8_in0 (hO : Ok m ρ) (c : Dev nD) : W8 m ρ hO c (Proc.devRef .tc main_v65) = W7 m ρ c (Proc.devRef .tc main_v65) :=
  (W8_arr m ρ hO c 0).trans (((dat2 (V7 m ρ) hO c).arrAt_in 0 rfl _).trans (A_eq2 (V7 m ρ) hO c 0))

/-! ## The arguments end as launched -/

/-- A buffer that no stretch writes and no region has among its arrays holds at the return what the launch gave it. -/
theorem W9_of_untouched (hO : Ok m ρ) (c : Dev nD) (r : Ref sig .tc)
    (h0 : r ∉ hostOps0_W) (h01 : r ∉ hostOps0_1_W) (h02 : r ∉ hostOps0_2_W) (h1 : r ∉ hostOps1_W) (h2 : r ∉ hostOps2_W)
    (h3 : r ∉ hostOps3_W) (a0 : ∀ w, Pipeline.arrRef spec0 w ≠ r) (a1 : ∀ w, Pipeline.arrRef spec1 w ≠ r)
    (a2 : ∀ w, Pipeline.arrRef spec2 w ≠ r) :
    W9 m ρ hO c (Proc.devRef .tc r) = m ((c : Thread nD τ).loc r) :=
  calc W9 m ρ hO c (Proc.devRef .tc r)
    _ = W8 m ρ hO c (Proc.devRef .tc r) := W9_of m ρ hO c r h3
    _ = W7 m ρ c (Proc.devRef .tc r) := W8_of_ne m ρ hO c r a2
    _ = W6 m ρ c (Proc.devRef .tc r) := W7_of m ρ c r h2
    _ = W5 m ρ c (Proc.devRef .tc r) := W6_of_ne m ρ c r a1
    _ = W4 m ρ c (Proc.devRef .tc r) := W5_of m ρ c r h1
    _ = W3 m ρ c (Proc.devRef .tc r) := W4_of_ne m ρ c r a0
    _ = W2 m ρ c (Proc.devRef .tc r) := W3_of m ρ c r h02
    _ = W1 m ρ c (Proc.devRef .tc r) := W2_of m ρ c r h01
    _ = W0 m ρ c (Proc.devRef .tc r) := W1_of m ρ c r h0
    _ = m ((c : Thread nD τ).loc r) := rfl

theorem W9_main_arg0 (hO : Ok m ρ) (c : Dev nD) : W9 m ρ hO c (Proc.devRef .tc main_arg0) = m ((c : Thread nD τ).loc main_arg0) :=
  W9_of_untouched m ρ hO c main_arg0 (by decide) (by decide) (by decide) (by decide) (by decide) (by decide) (by decide) (by decide) (by decide)
theorem W9_main_arg1 (hO : Ok m ρ) (c : Dev nD) : W9 m ρ hO c (Proc.devRef .tc main_arg1) = m ((c : Thread nD τ).loc main_arg1) :=
  W9_of_untouched m ρ hO c main_arg1 (by decide) (by decide) (by decide) (by decide) (by decide) (by decide) (by decide) (by decide) (by decide)
theorem W9_main_arg4 (hO : Ok m ρ) (c : Dev nD) : W9 m ρ hO c (Proc.devRef .tc main_arg4) = m ((c : Thread nD τ).loc main_arg4) :=
  W9_of_untouched m ρ hO c main_arg4 (by decide) (by decide) (by decide) (by decide) (by decide) (by decide) (by decide) (by decide) (by decide)
theorem W9_main_arg6 (hO : Ok m ρ) (c : Dev nD) : W9 m ρ hO c (Proc.devRef .tc main_arg6) = m ((c : Thread nD τ).loc main_arg6) :=
  W9_of_untouched m ρ hO c main_arg6 (by decide) (by decide) (by decide) (by decide) (by decide) (by decide) (by decide) (by decide) (by decide)

/-- The embedding table and the first layer's weights are region 0's two input arrays. -/
theorem W9_main_arg2 (hO : Ok m ρ) (c : Dev nD) : W9 m ρ hO c (Proc.devRef .tc main_arg2) = m ((c : Thread nD τ).loc main_arg2) :=
  calc W9 m ρ hO c (Proc.devRef .tc main_arg2)
    _ = W8 m ρ hO c (Proc.devRef .tc main_arg2) := W9_of m ρ hO c _ (by decide)
    _ = W7 m ρ c (Proc.devRef .tc main_arg2) := W8_of_ne m ρ hO c _ (by decide)
    _ = W6 m ρ c (Proc.devRef .tc main_arg2) := W7_of m ρ c _ (by decide)
    _ = W5 m ρ c (Proc.devRef .tc main_arg2) := W6_of_ne m ρ c _ (by decide)
    _ = W4 m ρ c (Proc.devRef .tc main_arg2) := W5_of m ρ c _ (by decide)
    _ = W3 m ρ c (Proc.devRef .tc main_arg2) := W4_in0 m ρ c
    _ = W2 m ρ c (Proc.devRef .tc main_arg2) := W3_of m ρ c _ (by decide)
    _ = W1 m ρ c (Proc.devRef .tc main_arg2) := W2_of m ρ c _ (by decide)
    _ = W0 m ρ c (Proc.devRef .tc main_arg2) := W1_of m ρ c _ (by decide)
    _ = m ((c : Thread nD τ).loc main_arg2) := rfl
theorem W9_main_arg3 (hO : Ok m ρ) (c : Dev nD) : W9 m ρ hO c (Proc.devRef .tc main_arg3) = m ((c : Thread nD τ).loc main_arg3) :=
  calc W9 m ρ hO c (Proc.devRef .tc main_arg3)
    _ = W8 m ρ hO c (Proc.devRef .tc main_arg3) := W9_of m ρ hO c _ (by decide)
    _ = W7 m ρ c (Proc.devRef .tc main_arg3) := W8_of_ne m ρ hO c _ (by decide)
    _ = W6 m ρ c (Proc.devRef .tc main_arg3) := W7_of m ρ c _ (by decide)
    _ = W5 m ρ c (Proc.devRef .tc main_arg3) := W6_of_ne m ρ c _ (by decide)
    _ = W4 m ρ c (Proc.devRef .tc main_arg3) := W5_of m ρ c _ (by decide)
    _ = W3 m ρ c (Proc.devRef .tc main_arg3) := W4_in1 m ρ c
    _ = W2 m ρ c (Proc.devRef .tc main_arg3) := W3_of m ρ c _ (by decide)
    _ = W1 m ρ c (Proc.devRef .tc main_arg3) := W2_of m ρ c _ (by decide)
    _ = W0 m ρ c (Proc.devRef .tc main_arg3) := W1_of m ρ c _ (by decide)
    _ = m ((c : Thread nD τ).loc main_arg3) := rfl
/-- The second layer's weights are region 1's second input array. -/
theorem W9_main_arg5 (hO : Ok m ρ) (c : Dev nD) : W9 m ρ hO c (Proc.devRef .tc main_arg5) = m ((c : Thread nD τ).loc main_arg5) :=
  calc W9 m ρ hO c (Proc.devRef .tc main_arg5)
    _ = W8 m ρ hO c (Proc.devRef .tc main_arg5) := W9_of m ρ hO c _ (by decide)
    _ = W7 m ρ c (Proc.devRef .tc main_arg5) := W8_of_ne m ρ hO c _ (by decide)
    _ = W6 m ρ c (Proc.devRef .tc main_arg5) := W7_of m ρ c _ (by decide)
    _ = W5 m ρ c (Proc.devRef .tc main_arg5) := W6_in1 m ρ c
    _ = W4 m ρ c (Proc.devRef .tc main_arg5) := W5_of m ρ c _ (by decide)
    _ = W3 m ρ c (Proc.devRef .tc main_arg5) := W4_of_ne m ρ c _ (by decide)
    _ = W2 m ρ c (Proc.devRef .tc main_arg5) := W3_of m ρ c _ (by decide)
    _ = W1 m ρ c (Proc.devRef .tc main_arg5) := W2_of m ρ c _ (by decide)
    _ = W0 m ρ c (Proc.devRef .tc main_arg5) := W1_of m ρ c _ (by decide)
    _ = m ((c : Thread nD τ).loc main_arg5) := rfl

/-! ## The gather's table is the token argument, reshaped -/

/-- The token argument reaches region 2's entry as launched. -/
theorem W6_main_arg0 (c : Dev nD) : W6 m ρ c (Proc.devRef .tc main_arg0) = m ((c : Thread nD τ).loc main_arg0) :=
  calc W6 m ρ c (Proc.devRef .tc main_arg0)
    _ = W5 m ρ c (Proc.devRef .tc main_arg0) := W6_of_ne m ρ c _ (by decide)
    _ = W4 m ρ c (Proc.devRef .tc main_arg0) := W5_of m ρ c _ (by decide)
    _ = W3 m ρ c (Proc.devRef .tc main_arg0) := W4_of_ne m ρ c _ (by decide)
    _ = W2 m ρ c (Proc.devRef .tc main_arg0) := W3_of m ρ c _ (by decide)
    _ = W1 m ρ c (Proc.devRef .tc main_arg0) := W2_of m ρ c _ (by decide)
    _ = W0 m ρ c (Proc.devRef .tc main_arg0) := W1_of m ρ c _ (by decide)
    _ = m ((c : Thread nD τ).loc main_arg0) := rfl

/-- Region 2 finds in the table's buffer the token argument's elements in row-major order. -/
theorem W7_main_v64 (c : Dev nD) :
    W7 m ρ c (Proc.devRef .tc main_v64) = shapeCast S12800 (m ((c : Thread nD τ).loc main_arg0)) shapeCasts_S64x200_S12800 := by
  rw [← W6_main_arg0 m ρ c]
  show StableHlo.after hostOps2 (W6 m ρ c) (Proc.devRef .tc main_v64) = _
  after_results
  rfl

/-! ## The proof data family and what rides beside the buffers -/

/-- Every pipeline's proof data, each at its region's entry contents. -/
def pdats (hO : Ok m ρ) : (p : Fin 3) → (c : Dev nD) → Dat τ (Elt F) Unit ℕ (UR sig nD τ) ℕ (Pipeline.pin (pcfgs (F := F)) (adm m ρ hO) p) c
  | ⟨0, _⟩ => fun c => dat0 (V3 m ρ) c
  | ⟨1, _⟩ => fun c => dat1 (V5 m ρ) c
  | ⟨2, _⟩ => fun c => dat2 (V7 m ρ) hO c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues,
    at nothing. -/
abbrev R (c : Dev nD) : sProp 𝕄 := iprop((∃ r, prngReg c r) ∗ ∃ W, owes (c : Thread nD τ) (0 : CellTallies nD τ sig Unit) W)
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.KernelIdeal.Fr

end
-- ==== Proof.KI.Reg2.lean ====
/- Region 2 of @main as a segment over the thread state: entered from every unscoped buffer at the contents the
   stretch before it leaves, left at those contents with the gather's output array overwritten. The gather's table
   is one of the unscoped buffers: it is handed to the pipeline whole at entry, rides in the invariant unread, and
   is put back among the unscoped buffers at exit. Generic in the float model. -/
import proofs.«409041_j70755291234309_2_alg».proof.Proof.KI.Fold

set_option maxRecDepth 16384
noncomputable section
namespace Cert.KernelIdeal.Fr
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
variable {F : FTy → Type} [FloatOps F]
local notation "𝕄" => MT nD τ sig Unit (Elt F) ℕ (UR sig nD τ) ℕ

/-- There is one device, so on every device the table's buffer holds what `tbl2` reads off device 0: stated for
    any contents `V`, never for a particular one. -/
theorem tbl2_of (V : (c : Dev nD) → (b : Ref sig .tc) → Buf (Elt F) ((c : Thread nD τ).loc b)) (c : Dev nD) :
    (fun k => V c (pre2.ref k) : pre2.Contents (Elt F)) = tbl2 V := by
  obtain rfl : c = 0 := Subsingleton.elim _ _
  rfl

variable (m : (ℓ : Loc nD τ sig) → Buf (Elt F) ℓ) (ρ : Dev nD → PrngReg)

/-- The table as the pipeline holds it through region 2: whole, at the contents the region finds. -/
abbrev tblHeld (c : Dev nD) : sProp 𝕄 :=
  Pipeline.prefHeld (Ix := Unit) (Name := ℕ) (U := UR sig nD τ) (Lvl := ℕ) pre2 c (fun _ => fullShare) (tbl2 (V7 m ρ))

/-- The unscoped buffers that are none of region 2's arrays are the table, whole at the contents the region finds, and
    the rest. -/
theorem rest2_split (hO : Ok m ρ) (c : Dev nD) :
    (Pipeline.unscopedRest (Ix := Unit) (Name := ℕ) (U := UR sig nD τ) (Lvl := ℕ) (Pipeline.pin (pcfgs (F := F)) (adm m ρ hO) 2).spec c (V7 m ρ c) : sProp 𝕄)
      = iprop(tblHeld m ρ c ∗ Pipeline.unscopedRestP (Ix := Unit) (Name := ℕ) (U := UR sig nD τ) (Lvl := ℕ) pre2 spec2 c (V7 m ρ c)) :=
  (Pipeline.unscopedRest_split (win := spec2) (pre := pre2) preFacts2 c (V7 m ρ c)).trans
    (congrArg (fun t : pre2.Contents (Elt F) => (iprop(Pipeline.prefHeld (Ix := Unit) (Name := ℕ) (U := UR sig nD τ) (Lvl := ℕ) pre2 c (fun _ => fullShare) t
      ∗ Pipeline.unscopedRestP (Ix := Unit) (Name := ℕ) (U := UR sig nD τ) (Lvl := ℕ) pre2 spec2 c (V7 m ρ c)) : sProp 𝕄)) (tbl2_of (V7 m ρ) c))

set_option backward.isDefEq.respectTransparency.types false in
/-- REGION 2 over the thread state: entered from every unscoped buffer at `W7`, left at `W8`. Its two arrays and its
    table are split out of the unscoped buffers at entry; the table and the generator register enter the invariant and
    come back out of it; at exit the table rejoins the other unscoped buffers and the arrays are put back at what the
    pipeline leaves in them. Nothing is owed; the kernel has no semaphore of its own. -/
def reg2 (hO : Ok m ρ) : Pipeline.RegionSeg (pcfgs (F := F)) (adm m ρ hO) (pdats m ρ hO) () defs₀ 𝒱₀ L lv 2 where
  win := (launch2 (F := F)).win.to₀
  block_pos := (launch2 (F := F)).block_pos
  stage_whole := (launch2 (F := F)).stage_whole
  K := PEmpty
  osem k := k.elim
  ho := Pipeline.OwnSemFacts.none _
  hbody c := (body_obligation2 (V7 m ρ) hO c).loose
  hwaits := Pipeline.hwaits_of_owed_zero _ _ _ _ L lv 2 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ hO c) ∗ R c)
  X c := iprop(∃ r, prngReg c r)
  Y c := iprop((∃ r, prngReg c r) ∗ tblHeld m ρ c)
  Z c := Pipeline.unscopedRestP (Ix := Unit) (Name := ℕ) (U := UR sig nD τ) (Lvl := ℕ) pre2 spec2 c (V7 m ρ c)
  hentry c := by
    rw [Pipeline.ownSems0_none]
    have hsplit := Pipeline.arrays_of_unscopedBufs (p := 2) (pcfgs (F := F)) (adm m ρ hO) (pdats m ρ hO) (launch2 (F := F)).win (launch2 (F := F)).arr_whole c
      ((pdats m ρ hO 2 c).share_full fun _ => rfl) (V7 m ρ c) fun _ => rfl
    rw [Pipeline.unscopedBufs_held, rest2_split m ρ hO c] at hsplit
    iintro ⟨⟨Hub, Hp, HO⟩, -, -⟩
    ihave H := hsplit $$ Hub
    icases H with ⟨Ha, HT, Hrest⟩
    imodintro
    isplitl [Ha]; · iexact Ha
    isplitl [HT]; · iexact HT
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ hO 2 c).Φ 0 = iprop(Pipeline.ΦA spec2 c ∗ tblHeld m ρ c) from rfl]; unfold Pipeline.ΦA
    iintro ⟨Hp, HT, Hr⟩
    isplitl [Hr Hp]
    · isplitl [Hr]; · iexact Hr
      iexact Hp
    iexact HT
  hout c := by
    rw [Pipeline.ownSems0_none, show (pdats m ρ hO 2 c).Φ (Fin.last _) = iprop(Pipeline.ΦA spec2 c ∗ tblHeld m ρ c) from rfl]; unfold Pipeline.ΦA
    iintro ⟨⟨Hr, Hp⟩, HT⟩
    isplitl [Hp HT]
    · isplitl [Hp]; · iexact Hp
      iexact HT
    isplitr; · iempintro
    iexact Hr
  hexit c := by
    have hjoin := Pipeline.unscopedBufs_of_arrays (p := 2) (pcfgs (F := F)) (adm m ρ hO) (Ix := Unit) (Name := ℕ) (U := UR sig nD τ) (Lvl := ℕ)
      (launch2 (F := F)).win (launch2 (F := F)).arr_whole c (pdats m ρ hO) ((pdats m ρ hO 2 c).share_full fun _ => rfl)
      (V7 m ρ c) (V8 m ρ hO c) ((pdats m ρ hO 2 c).arrAt · (cfgM2 (V7 m ρ) hO).N) (hF2 m ρ hO c) (hrest2 m ρ hO c)
    rw [Pipeline.unscopedBufs_held, rest2_split m ρ hO c] at hjoin
    iintro ⟨Ha, HO, ⟨HY, HT⟩, Hrest⟩
    imodintro
    isplitl [Ha HT Hrest]
    · iapply hjoin
      isplitl [Ha]; · iexact Ha
      isplitl [HT]; · iexact HT
      iexact Hrest
    isplitl [HY]; · iexact HY
    unfold Pipeline.Dat.owesAt Pipeline.owesWithin
    icases HO with ⟨%W, -, HO⟩; iexists W; iexact HO

end Cert.KernelIdeal.Fr

end
-- ==== Proof.KI.Run.lean ====
/- The run of @main over the kit of segments: every stretch of host operations a host segment from its boundary's
   contents, every kernel call a region over the thread state "each unscoped buffer whole at the boundary's contents,
   the generator register at some state, nothing owed"; then the launch, whose final states hold every unscoped
   buffer at the fold's last contents, and the frame read off it. Generic in the float model. -/
import proofs.«409041_j70755291234309_2_alg».proof.Proof.KI.Fold
import proofs.«409041_j70755291234309_2_alg».proof.Proof.KI.Reg2
import Idealize.ShloMosaic.Lib.Pipeline.Regions
import Idealize.ShloMosaic.Lib.Pipeline.RegionsLoop

set_option maxRecDepth 16384
noncomputable section
namespace Cert.KernelIdeal.Fr
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
variable {F : FTy → Type} [FloatOps F]
local notation "𝕄" => MT nD τ sig Unit (Elt F) ℕ (UR sig nD τ) ℕ

variable (m : (ℓ : Loc nD τ sig) → Buf (Elt F) ℓ) (ρ : Dev nD → PrngReg)

/-! ## The host stretches as segments -/

/-- A stretch of host operations as a segment: over the unscoped references from the contents `W`, the register and
    the dues riding along; it leaves those references at `StableHlo.after ops (W c)`, the next boundary's contents. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-! ## The matrix products' regions as segments -/

set_option backward.isDefEq.respectTransparency.types false in
/-- Region 0 over the thread state: entered with every unscoped buffer at `W3`, left with them at `W4`. Its three
    arrays are split out of the unscoped buffers and put back at the exit contents; the generator register passes
    through the class invariant; nothing is owed; the kernel has no semaphore of its own. -/
def reg0 (hO : Ok m ρ) : Pipeline.RegionSeg (pcfgs (F := F)) (adm m ρ hO) (pdats m ρ hO) () defs₀ 𝒱₀ L lv 0 where
  win := (launch0 (F := F)).win.to₀
  block_pos := (launch0 (F := F)).block_pos
  stage_whole := (launch0 (F := F)).stage_whole
  K := PEmpty
  osem k := k.elim
  ho := Pipeline.OwnSemFacts.none _
  hbody c := (body_obligation0 (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs (p := 0) (pcfgs (F := F)) (adm m ρ hO) (pdats m ρ hO) (launch0 (F := F)).win
      (launch0 (F := F)).arr_whole c ((pdats m ρ hO 0 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ hO 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ hO 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) (adm m ρ hO) (Ix := Unit) (Name := ℕ) (U := UR sig nD τ) (Lvl := ℕ)
      (launch0 (F := F)).win (launch0 (F := F)).arr_whole c (pdats m ρ hO) ((pdats m ρ hO 0 c).share_full fun _ => rfl)
      (V3 m ρ c) (V4 m ρ c) ((pdats m ρ hO 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 likewise: entered with every unscoped buffer at `W5`, left with them at `W6`. -/
def reg1 (hO : Ok m ρ) : Pipeline.RegionSeg (pcfgs (F := F)) (adm m ρ hO) (pdats m ρ hO) () defs₀ 𝒱₀ L lv 1 where
  win := (launch1 (F := F)).win.to₀
  block_pos := (launch1 (F := F)).block_pos
  stage_whole := (launch1 (F := F)).stage_whole
  K := PEmpty
  osem k := k.elim
  ho := Pipeline.OwnSemFacts.none _
  hbody c := (body_obligation1 (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := Pipeline.arrays_of_unscopedBufs (p := 1) (pcfgs (F := F)) (adm m ρ hO) (pdats m ρ hO) (launch1 (F := F)).win
      (launch1 (F := F)).arr_whole c ((pdats m ρ hO 1 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ hO 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ hO 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) (adm m ρ hO) (Ix := Unit) (Name := ℕ) (U := UR sig nD τ) (Lvl := ℕ)
      (launch1 (F := F)).win (launch1 (F := F)).arr_whole c (pdats m ρ hO) ((pdats m ρ hO 1 c).share_full fun _ => rfl)
      (V5 m ρ c) (V6 m ρ c) ((pdats m ρ hO 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's nine items in order: a host segment per stretch from its boundary's contents, a region per kernel call. -/
abbrev segs (hO : Ok m ρ) : List (Pipeline.Seg (pcfgs (F := F)) (adm m ρ hO) (pdats m ρ hO) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ hO),
    .host (hseg hostOps1 hostOps1_sub hostOps1_fresh (W4 m ρ)),
    .region (reg1 m ρ hO),
    .host (hseg hostOps2 hostOps2_sub hostOps2_fresh (W6 m ρ)),
    .region (reg2 m ρ hO),
    .host (hseg hostOps3 hostOps3_sub hostOps3_fresh (W8 m ρ hO)) ]

/-- @main is the run of the segments: its chain of items, against the chain of the segments' fragments. -/
theorem main_run (hO : Ok m ρ) (c : Dev nD) : main (F := F) c = Pipeline.Seg.run (segs m ρ hO) := by
  rewrite [main_chain c, Pipeline.Seg.run_eq_chain,
    show (segs m ρ hO).map Pipeline.Seg.prog = [
      StableHlo.seq hostOps0,
      StableHlo.seq hostOps0_1,
      StableHlo.seq hostOps0_2,
      Prog.lift (.customCall (Pipeline.entry 0) ()),
      StableHlo.seq hostOps1,
      Prog.lift (.customCall (Pipeline.entry 1) ()),
      StableHlo.seq hostOps2,
      Prog.lift (.customCall (Pipeline.entry 2) ()),
      StableHlo.seq hostOps3 ] from rfl]
  rfl

/-- The last thread state without the dues: every unscoped buffer at the return's contents, the generator register at
    some state. -/
abbrev Tₙ (hO : Ok m ρ) (c : Dev nD) : sProp 𝕄 :=
  iprop(StableHlo.held (c : Thread nD τ) (Pipeline.ucRefs τ sig) (W9 m ρ hO c) ∗ ∃ r, prngReg c r)

set_option backward.isDefEq.respectTransparency.types false in
/-- THE RUN. With the table's row indices in range, from any memory with zero counters every weakly fair execution of
    @main on the TensorCore terminates, nothing faulting, and in every final state each unscoped buffer holds what the
    fold says of it at the return. -/
theorem run_main (hO : Ok m ρ) : θ_run defs (onTc (τ := τ) (main (F := F))) ⟨m, fun _ => 0, ρ⟩
    (fun r => ∀ c : Dev nD, ∀ b ∈ Pipeline.ucRefs τ sig, r.2.mem ((c : Thread nD τ).1, b) = W9 m ρ hO c b) :=
  Pipeline.θ_run_regions_kit (pcfgs (F := F)) (adm m ρ hO) (pdats m ρ hO) () (cellOf_inj (adm m ρ hO)) emb₁ defs₀ 𝒱₀ L lv m ρ main
    (segs m ρ hO)
    (fun c Q => by rw [main_run m ρ hO c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells (Pipeline.pin (pcfgs (F := F)) (adm m ρ hO)) (cellOf_inj (adm m ρ hO)))
      (Pipeline.launchToks (Pipeline.pin (pcfgs (F := F)) (adm m ρ hO)) (cellOf_inj (adm m ρ hO))))
    (hu₀ := by
      iintro Hu; imodintro
      isplitl [Hu]
      · iapply (show (ownU (initOf (Pipeline.cells (Pipeline.pin (pcfgs (F := F)) (adm m ρ hO)) (cellOf_inj (adm m ρ hO)))
            (Pipeline.launchToks (Pipeline.pin (pcfgs (F := F)) (adm m ρ hO)) (cellOf_inj (adm m ρ hO)))) : sProp 𝕄)
            ⊢ BI.own (emb₁ (initOf (Pipeline.cells (Pipeline.pin (pcfgs (F := F)) (adm m ρ hO)) (cellOf_inj (adm m ρ hO)))
              (Pipeline.launchToks (Pipeline.pin (pcfgs (F := F)) (adm m ρ hO)) (cellOf_inj (adm m ρ hO))))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ hO)
    (hch := ⟨fun _ => .rfl, fun _ => .rfl, fun _ => .rfl, fun _ => .rfl, fun _ => .rfl, fun _ => .rfl, fun _ => .rfl,
      fun _ => .rfl, fun _ => .rfl, fun c => by
        show iprop(StableHlo.held (c : Thread nD τ) (Pipeline.ucRefs τ sig) (W9 m ρ hO c) ∗ R c) ⊢ _
        iintro ⟨Hh, Hp, HO⟩
        isplitl [Hh Hp]
        · isplitl [Hh] <;> iassumption
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ hO c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ hO c) s')
      isplitl [Hh] <;> iassumption)
    (hQ := fun s h c => h c)

/-- THE FRAME: every argument array ends holding its launch contents — each read off the final state at the return's
    contents and walked back through the fold. -/
theorem frame (hO : Ok m ρ) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_arg0 (by decide))).trans (W9_main_arg0 m ρ hO c),
     (h c _ (mem_uc main_arg1 (by decide))).trans (W9_main_arg1 m ρ hO c),
     (h c _ (mem_uc main_arg2 (by decide))).trans (W9_main_arg2 m ρ hO c),
     (h c _ (mem_uc main_arg3 (by decide))).trans (W9_main_arg3 m ρ hO c),
     (h c _ (mem_uc main_arg4 (by decide))).trans (W9_main_arg4 m ρ hO c),
     (h c _ (mem_uc main_arg5 (by decide))).trans (W9_main_arg5 m ρ hO c),
     (h c _ (mem_uc main_arg6 (by decide))).trans (W9_main_arg6 m ρ hO c)⟩) (run_main m ρ hO)

/-- info: 'Cert.KernelIdeal.Fr.frame' depends on axioms: [propext, Classical.choice, Quot.sound] -/
#guard_msgs in #print axioms frame

end Cert.KernelIdeal.Fr

end
-- ==== Proof.KI.Ok.lean ====
/-
  The precondition bounds every token: 0 ≤ token < 100000, signed. The gather's table is the tokens under another
  shape, so each of its words is a token, and a word in [0, 100000) signed is below 100000 unsigned. Window 0's block
  at grid point i is row table[i] of the [100000, 1, 64] source: inside it, since table[i] + 1 ≤ 100000.
-/
import proofs.«409041_j70755291234309_2_alg».proof.KernelIdeal
import proofs.«409041_j70755291234309_2_alg».proof.Pre_finite_inputs
import proofs.«409041_j70755291234309_2_alg».proof.Proof.Gen.KernelIdeal
import proofs.«409041_j70755291234309_2_alg».proof.Proof.Gen.Pre_finite_inputs
import Idealize.ShloMosaic.Lib.ReduceAll
import Idealize.ShloMosaic.Lib.StableHlo.Predicate

set_option maxRecDepth 16384
noncomputable section
namespace Cert.KernelIdeal.Fr
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen
variable {F : FTy → Type} [FloatOps F]

/-- The scalar shape has one index. -/
instance subsingleton_S_Idx : Subsingleton Cert.Pre_finite_inputs.S_.Idx := ⟨fun x y => funext fun a => a.elim0⟩

/-- A word in [0, n) signed is below n unsigned. -/
theorem toNat_lt_of_signed_range (w : BitVec 32) (n : Nat) (hn : n < 2 ^ 31)
    (h0 : IntOp.cmpi .sge w 0#32 = 1#1) (h1 : IntOp.cmpi .slt w (BitVec.ofNat 32 n) = 1#1) : w.toNat < n := by
  have hw : w.toNat < 2 ^ 31 := by
    have := (Scalar.nonneg_iff w).1 h0
    omega
  have hn' : (BitVec.ofNat 32 n).toNat < 2 ^ 31 := by rw [BitVec.toNat_ofNat]; omega
  have := (StableHlo.Predicate.slt_iff_toNat hw hn').1 h1
  rw [BitVec.toNat_ofNat] at this
  omega

/-- THE PRECONDITION DECODED at one token: its last conjunct is the conjunction, over all tokens, of 0 ≤ token and
    token < 100000. -/
theorem pre_token (a0 : IVec Cert.Pre_finite_inputs.S64x200 32) (a1 : IVec Cert.Pre_finite_inputs.S2x1600000 32)
    (a2 : FVec F Cert.Pre_finite_inputs.S100000x64 .f32) (a3 : FVec F Cert.Pre_finite_inputs.S64x128 .f32)
    (a4 : FVec F Cert.Pre_finite_inputs.S128 .f32) (a5 : FVec F Cert.Pre_finite_inputs.S128x64 .f32)
    (a6 : FVec F Cert.Pre_finite_inputs.S64 .f32)
    (h : Cert.Pre_finite_inputs.fn (F := F) a0 a1 a2 a3 a4 a5 a6 = fun _ => 1#1)
    (i : Cert.Pre_finite_inputs.S64x200.Idx) : (a0 i).toNat < 100000 := by
  have e := congrFun h (fun a => a.elim0)
  unfold Cert.Pre_finite_inputs.fn Cert.Pre_finite_inputs.fn_part1 at e
  -- the result is (the five finiteness conjuncts) ∧ (the reduce of the token mask)
  have e29 := (IntOp.andi_eq_one.1 e).2
  have e28 := Host.reduce_andi_all _ _ _ _ _ e29 i
  obtain ⟨hge, hlt⟩ := IntOp.andi_eq_one.1 e28
  exact toNat_lt_of_signed_range (a0 i) 100000 (by decide) hge hlt

/-- Every word of a table that is the tokens under another shape is below 100000, hence the side condition. -/
theorem ok2_of_pre (a0 : IVec Cert.Pre_finite_inputs.S64x200 32) (a1 : IVec Cert.Pre_finite_inputs.S2x1600000 32)
    (a2 : FVec F Cert.Pre_finite_inputs.S100000x64 .f32) (a3 : FVec F Cert.Pre_finite_inputs.S64x128 .f32)
    (a4 : FVec F Cert.Pre_finite_inputs.S128 .f32) (a5 : FVec F Cert.Pre_finite_inputs.S128x64 .f32)
    (a6 : FVec F Cert.Pre_finite_inputs.S64 .f32)
    (h : Cert.Pre_finite_inputs.fn (F := F) a0 a1 a2 a3 a4 a5 a6 = fun _ => 1#1)
    (pf : pre2.Contents (Elt F))
    (hpf : pf 0 = shapeCast S12800 a0 shapeCasts_S64x200_S12800) : ok2 (F := F) pf := by
  intro i
  -- whatever index the map reads the table at, the word is a token
  have hl : ∀ x, BitVec.toNat (pf 0 x : BitVec 32) < 100000 := fun x => by
    rw [hpf]; exact pre_token a0 a1 a2 a3 a4 a5 a6 h _
  obtain ⟨w, hw, e⟩ : ∃ w : BitVec 32, w.toNat < 100000 ∧ cc2_transform_0 k2_off1_inb numel1_S1 pf i = ![w.toNat, 0, 0] :=
    ⟨_, hl _, rfl⟩
  refine ⟨fun a => ?_, Or.inl rfl⟩
  rw [e]
  fin_cases a <;> simp [S1x1x64, S100000x1x64] <;> omega

end Cert.KernelIdeal.Fr

end
-- ==== Proof.KI.OkFold.lean ====
/-
  The side condition of the gather's table, from the precondition on the launch memory: the table region 2 finds is the
  token argument under another shape, and the precondition bounds every token by 100000.
-/
import proofs.«409041_j70755291234309_2_alg».proof.Proof.KI.Ok
import proofs.«409041_j70755291234309_2_alg».proof.Proof.KI.Fold

set_option maxRecDepth 16384
noncomputable section
namespace Cert.KernelIdeal.Fr
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
variable {F : FTy → Type} [FloatOps F]

variable (m : (ℓ : Loc nD τ sig) → Buf (Elt F) ℓ) (ρ : Dev nD → PrngReg)

/-- The table at region 2's entry is, on the one device, the token argument's elements in row-major order; each is
    below 100000 under the precondition, so every block of window 0 lies inside the gathered array. -/
theorem ok_of_pre
    (h : ∀ c : Dev nD, Cert.Pre_finite_inputs.fn (F := F) (m ((c.tc : Thread nD τ).loc main_arg0))
      (m ((c.tc : Thread nD τ).loc main_arg1)) (m ((c.tc : Thread nD τ).loc main_arg2))
      (m ((c.tc : Thread nD τ).loc main_arg3)) (m ((c.tc : Thread nD τ).loc main_arg4))
      (m ((c.tc : Thread nD τ).loc main_arg5)) (m ((c.tc : Thread nD τ).loc main_arg6)) = fun _ => 1#1) :
    Ok m ρ := by
  have hpf : tbl2 (V7 m ρ) 0
      = shapeCast S12800 (m (((0 : Dev nD).tc : Thread nD τ).loc main_arg0)) shapeCasts_S64x200_S12800 :=
    W7_main_v64 m ρ 0
  exact ok2_of_pre _ _ _ _ _ _ _ (h 0) (tbl2 (V7 m ρ)) hpf

end Cert.KernelIdeal.Fr

end
-- ==== Proof.Ref.Term.lean ====
/-
  The reference's result as one pure term of its argument arrays: the run of the host program read back, and its
  read-at-an-index lemmas, brought in for the modules that compare it with the kernel's value.
-/
import proofs.«409041_j70755291234309_2_alg».proof.Proof.Ref.RunP
import proofs.«409041_j70755291234309_2_alg».proof.Proof.Ref.ReadP
-- ==== Proof.Ref.BridgeHost.lean ====
/-
  The host operations both programs share, as functions of what they read, and the kernel's buffers after each of its
  stretches of host operations as those functions of the buffers before. Generic in the float model.
-/
import proofs.«409041_j70755291234309_2_alg».proof.Proof.Ref.Term
import proofs.«409041_j70755291234309_2_alg».proof.Proof.KI.Fold

set_option maxRecDepth 16384

noncomputable section

namespace Cert.Bridge

open Idealize.ShloMosaic

/-! ## The two message-passing layers as functions of what they read

Each layer, given the edge sources and destinations (with the self loops appended), the edge normalisation, the bias and
the rows its linear part produced: gather the rows at the sources, scale by the normalisation, sum into the
destinations, add the bias. Both programs apply exactly these operations; they differ in who produced the rows. -/

section Chains
open Cert.ReferenceIdeal Cert.ReferenceIdeal.Gen Cert.ReferenceIdeal.ReadP

variable {F : FTy → Type} [FloatOps F]

/-- An index array with its negative entries wrapped around by 100000, as a column of start indices. -/
def wrapCol (e : (⟨S1700000, .i32⟩ : BufTy).Contents (Elt F)) : (⟨S1700000x1, .i32⟩ : BufTy).Contents (Elt F) :=
  broadcastInDim S1700000x1 ![0] bcast_S1700000_S1700000x1_0
    (select (cmpi .slt e (broadcastInDim S1700000 ![] bcast_S_S1700000 (constantI S_ 32 0#32)))
      (addi e (broadcastInDim S1700000 ![] bcast_S_S1700000 (constantI S_ 32 100000#32))) e)

/-- The first layer after its linear part `h`. -/
def layer1 (src dst : (⟨S1700000, .i32⟩ : BufTy).Contents (Elt F)) (nrm : (⟨S1700000, .f32⟩ : BufTy).Contents (Elt F))
    (b : (⟨S128, .f32⟩ : BufTy).Contents (Elt F)) (h : (⟨S100000x128, .f32⟩ : BufTy).Contents (Elt F)) :
    (⟨S100000x128, .f32⟩ : BufTy).Contents (Elt F) :=
  addf
    (Host.scatterAdd scatter_S100000x128_S1700000x1_S1700000x128_1_0_0_1
      (broadcastInDim S100000x128 ![] bcast_S_S100000x128 (constant (F := F) S_ .f32 0x00000000#32))
      (broadcastInDim S1700000x1 ![0] bcast_S1700000_S1700000x1_0 dst)
      (mulf
        (Host.gather gather_S100000x128_S1700000x1_S1700000x128_1_0_n_n_0_1_1128 h (wrapCol (F := F) src))
        (broadcastInDim S1700000x128 ![0, 1] bcast_S1700000x1_S1700000x128_0_1
          (broadcastInDim S1700000x1 ![0] bcast_S1700000_S1700000x1_0 nrm))))
    (broadcastInDim S100000x128 ![0, 1] bcast_S1x128_S100000x128_0_1 (broadcastInDim S1x128 ![1] bcast_S128_S1x128_1 b))

/-- The second layer after its linear part `h`. -/
def layer2 (src dst : (⟨S1700000, .i32⟩ : BufTy).Contents (Elt F)) (nrm : (⟨S1700000, .f32⟩ : BufTy).Contents (Elt F))
    (b : (⟨S64, .f32⟩ : BufTy).Contents (Elt F)) (h : (⟨S100000x64, .f32⟩ : BufTy).Contents (Elt F)) :
    (⟨S100000x64, .f32⟩ : BufTy).Contents (Elt F) :=
  addf
    (Host.scatterAdd scatter_S100000x64_S1700000x1_S1700000x64_1_0_0_1
      (broadcastInDim S100000x64 ![] bcast_S_S100000x64 (constant (F := F) S_ .f32 0x00000000#32))
      (broadcastInDim S1700000x1 ![0] bcast_S1700000_S1700000x1_0 dst)
      (mulf
        (Host.gather gather_S100000x64_S1700000x1_S1700000x64_1_0_n_n_0_1_164 h (wrapCol (F := F) src))
        (broadcastInDim S1700000x64 ![0, 1] bcast_S1700000x1_S1700000x64_0_1
          (broadcastInDim S1700000x1 ![0] bcast_S1700000_S1700000x1_0 nrm))))
    (broadcastInDim S100000x64 ![0, 1] bcast_S1x64_S100000x64_0_1 (broadcastInDim S1x64 ![1] bcast_S64_S1x64_1 b))

/-- The reference computes the edge normalisation twice; the second time is the first. -/
theorem ref_norm_again (x1 : (⟨S2x1600000, .i32⟩ : BufTy).Contents (Elt F)) :
    val_main_v70 (F := F) x1 = val_main_v30 (F := F) x1 := rfl

/-- The reference's first layer is `layer1` of its own matrix product. -/
theorem ref_v46 (x1 : (⟨S2x1600000, .i32⟩ : BufTy).Contents (Elt F)) (x2 : (⟨S100000x64, .f32⟩ : BufTy).Contents (Elt F))
    (x3 : (⟨S64x128, .f32⟩ : BufTy).Contents (Elt F)) (x4 : (⟨S128, .f32⟩ : BufTy).Contents (Elt F)) :
    val_main_v46 (F := F) x1 x2 x3 x4
      = layer1 (F := F) (val_main_v3 (F := F) x1) (val_main_v6 (F := F) x1) (val_main_v30 (F := F) x1) x4
          (val_main_v7 (F := F) x2 x3) := rfl

/-- The reference's second layer is `layer2` of its own matrix product, at the same normalisation. -/
theorem ref_v86 (x1 : (⟨S2x1600000, .i32⟩ : BufTy).Contents (Elt F)) (x2 : (⟨S100000x64, .f32⟩ : BufTy).Contents (Elt F))
    (x3 : (⟨S64x128, .f32⟩ : BufTy).Contents (Elt F)) (x4 : (⟨S128, .f32⟩ : BufTy).Contents (Elt F))
    (x5 : (⟨S128x64, .f32⟩ : BufTy).Contents (Elt F)) (x6 : (⟨S64, .f32⟩ : BufTy).Contents (Elt F)) :
    val_main_v86 (F := F) x1 x2 x3 x4 x5 x6
      = layer2 (F := F) (val_main_v3 (F := F) x1) (val_main_v6 (F := F) x1) (val_main_v30 (F := F) x1) x6
          (val_main_v47 (F := F) x1 x2 x3 x4 x5) := rfl

end Chains

/-! ## The kernel's buffers after each stretch of host operations -/

section KernelHost
open Idealize.ShloMosaic.TcCoe Idealize.SL.Sem Idealize.ShloMosaic.StableHlo
open Cert.KernelIdeal Cert.KernelIdeal.Gen Cert.KernelIdeal.Fr

variable {F : FTy → Type} [FloatOps F]
variable (m : (ℓ : Loc nD τ sig) → Buf (Elt F) ℓ) (ρ : Dev nD → PrngReg)

/-- The edge sources with the self loops appended, as the first stretch leaves them. -/
theorem kW1_v3 (c : Dev nD) :
    W1 m ρ c (Proc.devRef .tc main_v3)
      = Cert.ReferenceIdeal.ReadP.val_main_v3 (F := F) (m ((c.tc : Thread nD τ).loc main_arg1)) := by
  show StableHlo.after hostOps0 (W0 m ρ c) (Proc.devRef .tc main_v3) = _
  after_results
  rfl

/-- The edge destinations with the self loops appended. -/
theorem kW1_v6 (c : Dev nD) :
    W1 m ρ c (Proc.devRef .tc main_v6)
      = Cert.ReferenceIdeal.ReadP.val_main_v6 (F := F) (m ((c.tc : Thread nD τ).loc main_arg1)) := by
  show StableHlo.after hostOps0 (W0 m ρ c) (Proc.devRef .tc main_v6) = _
  after_results
  rfl

theorem kW3_v3 (c : Dev nD) :
    W3 m ρ c (Proc.devRef .tc main_v3)
      = Cert.ReferenceIdeal.ReadP.val_main_v3 (F := F) (m ((c.tc : Thread nD τ).loc main_arg1)) :=
  (W3_of m ρ c main_v3 (by decide)).trans ((W2_of m ρ c main_v3 (by decide)).trans (kW1_v3 m ρ c))

theorem kW3_v6 (c : Dev nD) :
    W3 m ρ c (Proc.devRef .tc main_v6)
      = Cert.ReferenceIdeal.ReadP.val_main_v6 (F := F) (m ((c.tc : Thread nD τ).loc main_arg1)) :=
  (W3_of m ρ c main_v6 (by decide)).trans ((W2_of m ρ c main_v6 (by decide)).trans (kW1_v6 m ρ c))

set_option maxHeartbeats 8000000 in
/-- The stretch between the first two regions is the first layer over region 0's output. -/
theorem kW5_v46 (c : Dev nD) :
    W5 m ρ c (Proc.devRef .tc main_v46)
      = layer1 (F := F) (W4 m ρ c (Proc.devRef .tc main_v3)) (W4 m ρ c (Proc.devRef .tc main_v6))
          (W4 m ρ c (Proc.devRef .tc main_v29)) (W4 m ρ c (Proc.devRef .tc main_arg4))
          (W4 m ρ c (Proc.devRef .tc main_v30)) := by
  show StableHlo.after hostOps1 (W4 m ρ c) (Proc.devRef .tc main_v46) = _
  after_results
  rfl

set_option maxHeartbeats 8000000 in
/-- The stretch between the last two regions is the second layer over region 1's output, laid out as rows of one
    [1 × 64] block each. -/
theorem kW7_v65 (c : Dev nD) :
    W7 m ρ c (Proc.devRef .tc main_v65)
      = shapeCast S100000x1x64
          (layer2 (F := F) (W6 m ρ c (Proc.devRef .tc main_v3)) (W6 m ρ c (Proc.devRef .tc main_v6))
            (W6 m ρ c (Proc.devRef .tc main_v29)) (W6 m ρ c (Proc.devRef .tc main_arg6))
            (W6 m ρ c (Proc.devRef .tc main_v47)))
          shapeCasts_S100000x64_S100000x1x64 := by
  show StableHlo.after hostOps2 (W6 m ρ c) (Proc.devRef .tc main_v65) = _
  after_results
  rfl

/-- The last stretch reshapes region 2's output twice. -/
theorem kW9_v68 (hO : Ok m ρ) (c : Dev nD) :
    W9 m ρ hO c (Proc.devRef .tc main_v68)
      = shapeCast S64x200x64
          (shapeCast S12800x64 (W8 m ρ hO c (Proc.devRef .tc main_v66)) shapeCasts_S12800x1x64_S12800x64)
          shapeCasts_S12800x64_S64x200x64 := by
  show StableHlo.after hostOps3 (W8 m ρ hO c) (Proc.devRef .tc main_v68) = _
  after_results
  rfl

/-! ### Read back to the arguments -/

/-- A buffer none of the first three stretches writes holds at region 0's entry what the launch gave it. -/
theorem kW3_untouched (c : Dev nD) (r : Ref sig .tc) (h0 : r ∉ hostOps0_W) (h01 : r ∉ hostOps0_1_W) (h02 : r ∉ hostOps0_2_W) :
    W3 m ρ c (Proc.devRef .tc r) = m ((c : Thread nD τ).loc r) :=
  (W3_of m ρ c r h02).trans ((W2_of m ρ c r h01).trans ((W1_of m ρ c r h0).trans rfl))

set_option maxHeartbeats 16000000 in
/-- The edge normalisation at region 0's entry is the reference's: the same operations on the same edge list. -/
theorem kW3_v29 (c : Dev nD) :
    W3 m ρ c (Proc.devRef .tc main_v29)
      = Cert.ReferenceIdeal.ReadP.val_main_v30 (F := F) (m ((c.tc : Thread nD τ).loc main_arg1)) := by
  show StableHlo.after hostOps0_2 (StableHlo.after hostOps0_1 (StableHlo.after hostOps0 (W0 m ρ c))) (Proc.devRef .tc main_v29) = _
  after_results
  rfl

theorem kW4_v3 (c : Dev nD) :
    W4 m ρ c (Proc.devRef .tc main_v3)
      = Cert.ReferenceIdeal.ReadP.val_main_v3 (F := F) (m ((c.tc : Thread nD τ).loc main_arg1)) :=
  (W4_of_ne m ρ c main_v3 (by decide)).trans (kW3_v3 m ρ c)
theorem kW4_v6 (c : Dev nD) :
    W4 m ρ c (Proc.devRef .tc main_v6)
      = Cert.ReferenceIdeal.ReadP.val_main_v6 (F := F) (m ((c.tc : Thread nD τ).loc main_arg1)) :=
  (W4_of_ne m ρ c main_v6 (by decide)).trans (kW3_v6 m ρ c)
theorem kW4_v29 (c : Dev nD) :
    W4 m ρ c (Proc.devRef .tc main_v29)
      = Cert.ReferenceIdeal.ReadP.val_main_v30 (F := F) (m ((c.tc : Thread nD τ).loc main_arg1)) :=
  (W4_of_ne m ρ c main_v29 (by decide)).trans (kW3_v29 m ρ c)
theorem kW4_arg4 (c : Dev nD) : W4 m ρ c (Proc.devRef .tc main_arg4) = m ((c : Thread nD τ).loc main_arg4) :=
  (W4_of_ne m ρ c main_arg4 (by decide)).trans (kW3_untouched m ρ c main_arg4 (by decide) (by decide) (by decide))
theorem kW4_arg5 (c : Dev nD) : W4 m ρ c (Proc.devRef .tc main_arg5) = m ((c : Thread nD τ).loc main_arg5) :=
  (W4_of_ne m ρ c main_arg5 (by decide)).trans (kW3_untouched m ρ c main_arg5 (by decide) (by decide) (by decide))
theorem kW4_arg6 (c : Dev nD) : W4 m ρ c (Proc.devRef .tc main_arg6) = m ((c : Thread nD τ).loc main_arg6) :=
  (W4_of_ne m ρ c main_arg6 (by decide)).trans (kW3_untouched m ρ c main_arg6 (by decide) (by decide) (by decide))

/-- Region 1 is entered with the first layer of region 0's output, over the arguments' edge list and bias. -/
theorem kW5_v46_args (c : Dev nD) :
    W5 m ρ c (Proc.devRef .tc main_v46)
      = layer1 (F := F) (Cert.ReferenceIdeal.ReadP.val_main_v3 (F := F) (m ((c.tc : Thread nD τ).loc main_arg1)))
          (Cert.ReferenceIdeal.ReadP.val_main_v6 (F := F) (m ((c.tc : Thread nD τ).loc main_arg1)))
          (Cert.ReferenceIdeal.ReadP.val_main_v30 (F := F) (m ((c.tc : Thread nD τ).loc main_arg1)))
          (m ((c : Thread nD τ).loc main_arg4)) (W4 m ρ c (Proc.devRef .tc main_v30)) := by
  rw [kW5_v46, kW4_v3, kW4_v6, kW4_v29, kW4_arg4]

theorem kW5_arg5 (c : Dev nD) : W5 m ρ c (Proc.devRef .tc main_arg5) = m ((c : Thread nD τ).loc main_arg5) :=
  (W5_of m ρ c main_arg5 (by decide)).trans (kW4_arg5 m ρ c)

theorem kW6_v3 (c : Dev nD) :
    W6 m ρ c (Proc.devRef .tc main_v3)
      = Cert.ReferenceIdeal.ReadP.val_main_v3 (F := F) (m ((c.tc : Thread nD τ).loc main_arg1)) :=
  (W6_of_ne m ρ c main_v3 (by decide)).trans ((W5_of m ρ c main_v3 (by decide)).trans (kW4_v3 m ρ c))
theorem kW6_v6 (c : Dev nD) :
    W6 m ρ c (Proc.devRef .tc main_v6)
      = Cert.ReferenceIdeal.ReadP.val_main_v6 (F := F) (m ((c.tc : Thread nD τ).loc main_arg1)) :=
  (W6_of_ne m ρ c main_v6 (by decide)).trans ((W5_of m ρ c main_v6 (by decide)).trans (kW4_v6 m ρ c))
theorem kW6_v29 (c : Dev nD) :
    W6 m ρ c (Proc.devRef .tc main_v29)
      = Cert.ReferenceIdeal.ReadP.val_main_v30 (F := F) (m ((c.tc : Thread nD τ).loc main_arg1)) :=
  (W6_of_ne m ρ c main_v29 (by decide)).trans ((W5_of m ρ c main_v29 (by decide)).trans (kW4_v29 m ρ c))
theorem kW6_arg6 (c : Dev nD) : W6 m ρ c (Proc.devRef .tc main_arg6) = m ((c : Thread nD τ).loc main_arg6) :=
  (W6_of_ne m ρ c main_arg6 (by decide)).trans ((W5_of m ρ c main_arg6 (by decide)).trans (kW4_arg6 m ρ c))

/-- Region 2 gathers rows of the second layer of region 1's output, over the arguments' edge list and bias. -/
theorem kW7_v65_args (c : Dev nD) :
    W7 m ρ c (Proc.devRef .tc main_v65)
      = shapeCast S100000x1x64
          (layer2 (F := F) (Cert.ReferenceIdeal.ReadP.val_main_v3 (F := F) (m ((c.tc : Thread nD τ).loc main_arg1)))
            (Cert.ReferenceIdeal.ReadP.val_main_v6 (F := F) (m ((c.tc : Thread nD τ).loc main_arg1)))
            (Cert.ReferenceIdeal.ReadP.val_main_v30 (F := F) (m ((c.tc : Thread nD τ).loc main_arg1)))
            (m ((c : Thread nD τ).loc main_arg6)) (W6 m ρ c (Proc.devRef .tc main_v47)))
          shapeCasts_S100000x64_S100000x1x64 := by
  rw [kW7_v65, kW6_v3, kW6_v6, kW6_v29, kW6_arg6]

end KernelHost

end Cert.Bridge

end
-- ==== Proof.KI.ValMm.lean ====
/- The value of the two tiled matrix products of @main, over the real numbers: after each region its output array is,
   index by index, the row-by-column sum of the two arrays the region was entered with. First the product of two blocks
   entry by entry, then each input block as rows of its array, then what a grid point writes back as a block of one
   whole-array function, then the rows every point covers, and the array after the region. -/
import proofs.«409041_j70755291234309_2_alg».proof.Proof.KI.Mm0
import proofs.«409041_j70755291234309_2_alg».proof.Proof.KI.Mm1
import Idealize.ShloMosaic.Lib.Pipeline.Value
import Idealize.ShloMosaic.Lib.ValueIdx
import Idealize.ShloMosaic.PureOps.Ideal.Laws

set_option maxRecDepth 16384
noncomputable section
namespace Cert.KernelIdeal.FrVal
open Idealize.ShloMosaic Idealize.ShloMosaic.TcCoe
open Idealize.SL.Sem
open Idealize.ShloMosaic.Pipeline (Dat Cfg Window cellOf)
open Cert.KernelIdeal Cert.KernelIdeal.Gen Cert.KernelIdeal.Fr
open scoped BigOperators

variable (V : (c : Dev nD) → (b : Ref sig .tc) → Buf (Elt Ideal) ((c : Thread nD τ).loc b))

/-! ## The product of two blocks, entry by entry -/

/-- Row coordinate of the left operand's index at an output index: the output's row. -/
theorem lhs0_row (j : S10000x128.Idx) (q : dot_S10000x64_S64x128_S10000x128_1_0_0_1_n_n.contr.Idx) :
    (dot_S10000x64_S64x128_S10000x128_1_0_0_1_n_n.lhsIdx j q 0).val = (j 0).val := by
  unfold DotDims.lhsIdx
  rw [dif_neg (show ¬(0 : Fin S10000x64.rank) ∈ dot_S10000x64_S64x128_S10000x128_1_0_0_1_n_n.lhsBatch by decide),
    dif_pos (show (0 : Fin S10000x64.rank) ∈ dot_S10000x64_S64x128_S10000x128_1_0_0_1_n_n.lhsNonContracting by decide)]
  rfl

/-- Column coordinate of the left operand's index: the summation variable. -/
theorem lhs0_col (j : S10000x128.Idx) (q : dot_S10000x64_S64x128_S10000x128_1_0_0_1_n_n.contr.Idx) :
    (dot_S10000x64_S64x128_S10000x128_1_0_0_1_n_n.lhsIdx j q 1).val = (q ⟨0, by decide⟩).val :=
  dot_S10000x64_S64x128_S10000x128_1_0_0_1_n_n.lhsIdx_val_of_single rfl j q

/-- Row coordinate of the right operand's index: the summation variable. -/
theorem rhs0_row (j : S10000x128.Idx) (q : dot_S10000x64_S64x128_S10000x128_1_0_0_1_n_n.contr.Idx) :
    (dot_S10000x64_S64x128_S10000x128_1_0_0_1_n_n.rhsIdx j q 0).val = (q ⟨0, by decide⟩).val :=
  dot_S10000x64_S64x128_S10000x128_1_0_0_1_n_n.rhsIdx_val_of_single rfl j q

/-- Column coordinate of the right operand's index: the output's column. -/
theorem rhs0_col (j : S10000x128.Idx) (q : dot_S10000x64_S64x128_S10000x128_1_0_0_1_n_n.contr.Idx) :
    (dot_S10000x64_S64x128_S10000x128_1_0_0_1_n_n.rhsIdx j q 1).val = (j 1).val := by
  unfold DotDims.rhsIdx
  rw [dif_neg (show ¬(1 : Fin S64x128.rank) ∈ dot_S10000x64_S64x128_S10000x128_1_0_0_1_n_n.rhsBatch by decide),
    dif_pos (show (1 : Fin S64x128.rank) ∈ dot_S10000x64_S64x128_S10000x128_1_0_0_1_n_n.rhsNonContracting by decide)]
  rfl

/-- Entry (p, q) of the first region's block product: the sum over k of x0 (p, k) * x1 (k, q). -/
theorem pay0_apply (x0 : Vec Ideal S10000x64 .f32) (x1 : Vec Ideal S64x128 .f32) (p : Fin 10000) (q : Fin 128) :
    k0_pay1 (F := Ideal) x0 x1 (ValueIdx.ix2 p q) = ∑ k : Fin 64, x0 (ValueIdx.ix2 p k) * x1 (ValueIdx.ix2 k q) := by
  unfold k0_pay1
  refine (Ideal.matmul_constant_zero_apply dot_S10000x64_S64x128_S10000x128_1_0_0_1_n_n none _ _ (ValueIdx.ix2 p q)).trans ?_
  rw [← Equiv.sum_comp (ValueIdx.contrEquiv1 dot_S10000x64_S64x128_S10000x128_1_0_0_1_n_n 64 rfl rfl).symm]
  refine Finset.sum_congr rfl fun k _ => ?_
  have hk := ValueIdx.contrEquiv1_symm_val dot_S10000x64_S64x128_S10000x128_1_0_0_1_n_n 64 rfl rfl k
  have el : dot_S10000x64_S64x128_S10000x128_1_0_0_1_n_n.lhsIdx (ValueIdx.ix2 p q)
      ((ValueIdx.contrEquiv1 dot_S10000x64_S64x128_S10000x128_1_0_0_1_n_n 64 rfl rfl).symm k) = ValueIdx.ix2 p k :=
    funext fun a => Fin.ext (by
      match a with
      | ⟨0, _⟩ => exact lhs0_row _ _
      | ⟨1, _⟩ => exact (lhs0_col _ _).trans hk)
  have er : dot_S10000x64_S64x128_S10000x128_1_0_0_1_n_n.rhsIdx (ValueIdx.ix2 p q)
      ((ValueIdx.contrEquiv1 dot_S10000x64_S64x128_S10000x128_1_0_0_1_n_n 64 rfl rfl).symm k) = ValueIdx.ix2 k q :=
    funext fun a => Fin.ext (by
      match a with
      | ⟨0, _⟩ => exact (rhs0_row _ _).trans hk
      | ⟨1, _⟩ => exact rhs0_col _ _)
  rw [el, er]
  rfl

/-! ## The arrays after the regions -/

/-- The row-by-column sum of a [100000,64] array and a [64,128] array, index by index. -/
def mm0 (X : S100000x64.Idx → EReal) (W : S64x128.Idx → EReal) : S100000x128.Idx → EReal :=
  fun i => ∑ k : Fin 64, X (ValueIdx.ix2 (i 0) k) * W (ValueIdx.ix2 k (i 1))

theorem mm0_apply (X : S100000x64.Idx → EReal) (W : S64x128.Idx → EReal) (i : S100000x128.Idx) :
    mm0 X W i = ∑ k : Fin 64, X (ValueIdx.ix2 (i 0) k) * W (ValueIdx.ix2 k (i 1)) := rfl

/-- The row-by-column sum of a [100000,128] array and a [128,64] array, index by index. -/
def mm1 (X : S100000x128.Idx → EReal) (W : S128x64.Idx → EReal) : S100000x64.Idx → EReal :=
  fun i => ∑ k : Fin 128, X (ValueIdx.ix2 (i 0) k) * W (ValueIdx.ix2 k (i 1))

theorem mm1_apply (X : S100000x128.Idx → EReal) (W : S128x64.Idx → EReal) (i : S100000x64.Idx) :
    mm1 X W i = ∑ k : Fin 128, X (ValueIdx.ix2 (i 0) k) * W (ValueIdx.ix2 k (i 1)) := rfl

/-! ## A point's product as rows of the whole product -/

theorem zeros2 : (![0, 0] : Fin 2 → Nat) = fun _ => 0 := funext fun a => by fin_cases a <;> rfl

/-- The product of a block of 10000 rows of `X` (the rows from `b * 10000` on) with the whole of `W` is those rows of the
    product of `X` and `W`. -/
theorem rows0 (X : S100000x64.Idx → EReal) (W : S64x128.Idx → EReal) (x0 : Vec Ideal S10000x64 .f32) (x1 : Vec Ideal S64x128 .f32)
    (b : Nat)
    (h0 : ∀ (y : S10000x64.Idx) (z : S100000x64.Idx), (z 0).val = b * 10000 + (y 0).val → (z 1).val = (y 1).val → x0 y = X z)
    (h1 : ∀ y : S64x128.Idx, x1 y = W y)
    (j : S10000x128.Idx) (i : S100000x128.Idx) (hi0 : (i 0).val = b * 10000 + (j 0).val) (hi1 : (i 1).val = (j 1).val) :
    k0_pay1 (F := Ideal) x0 x1 j = mm0 X W i := by
  have ej : j = ValueIdx.ix2 (n0 := 10000) (n1 := 128) ⟨(j 0).val, ValueIdx.idx2_lt0 j⟩ ⟨(j 1).val, ValueIdx.idx2_lt1 j⟩ :=
    funext fun a => by
      match a with
      | ⟨0, _⟩ => rfl
      | ⟨1, _⟩ => rfl
  refine (congrArg (k0_pay1 (F := Ideal) x0 x1) ej).trans ((pay0_apply x0 x1 _ _).trans ?_)
  rw [mm0_apply]
  refine Finset.sum_congr rfl fun k _ => ?_
  refine congrArg₂ (· * ·) (h0 _ _ hi0 rfl) ((h1 _).trans (congrArg W ?_))
  funext a
  apply Fin.ext
  match a with
  | ⟨0, _⟩ => rfl
  | ⟨1, _⟩ => exact hi1.symm

/-! ## The input blocks as parts of their arrays -/

/-- The printed index maps over the ten points: the row-block input moves with the output on the row axis, every other
    block index is zero, and the output's row-block index is the point's number. -/
theorem idx_facts0 : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) = t.val :=
  (by decide +kernel : ∀ t : Fin grid0.N, _)

/-- The row-block input's block at point `t` is the rows of its array from the output's row-block index times 10000 on. -/
theorem blk0_rows (c : Dev nD) (t : Fin cfg0.N) (y : S10000x64.Idx) (z : S100000x64.Idx)
    (hz0 : (z 0).val = win0_2.index t (0 : Fin 2) * 10000 + (y 0).val) (hz1 : (z 1).val = (y 1).val) :
    iblk0 V c 0 t y = V c main_arg2 z := by
  obtain ⟨e0, e1, -⟩ := idx_facts0 t
  unfold iblk0
  rw [View.read_apply]
  show V c main_arg2 _ = V c main_arg2 _
  congr 1
  funext a
  apply Fin.ext
  match a with
  | ⟨0, _⟩ => show win0_0.index t (0 : Fin 2) * 10000 + 1 * (y 0).val = (z 0).val; omega
  | ⟨1, _⟩ => show win0_0.index t (1 : Fin 2) * 64 + 1 * (y 1).val = (z 1).val; omega

/-- The weight input's block at every point is its whole array. -/
theorem blk0_whole (c : Dev nD) (t : Fin cfg0.N) (y : S64x128.Idx) :
    iblk0 V c 1 t y = V c main_arg3 y := by
  obtain ⟨-, -, e2, e3, -⟩ := idx_facts0 t
  unfold iblk0
  rw [View.read_apply]
  show V c main_arg3 _ = V c main_arg3 _
  congr 1
  funext a
  apply Fin.ext
  match a with
  | ⟨0, _⟩ => show win0_1.index t (0 : Fin 2) * 64 + 1 * (y 0).val = (y 0).val; omega
  | ⟨1, _⟩ => show win0_1.index t (1 : Fin 2) * 128 + 1 * (y 1).val = (y 1).val; omega

/-! ## What a point writes back -/

/-- What point `t` writes back is block `t` of the product of the two arrays the region was entered with. -/
theorem flushed0_eq (c : Dev nD) (t : Fin cfg0.N) :
    (dat0 (F := Ideal) V c).flushed 2 t = ((cfg0.win 2).blk t).view.read (Elt Ideal) (mm0 (V c main_arg2) (V c main_arg3)) := by
  show (cfg0.win 2).cut (grid0.coords t) ((dat0 (F := Ideal) V c).after 2 t) = _
  rw [after0_2]
  unfold out0_2
  rw [View.canon_unit_zero zeros2]
  simp only [View.ld_unit_zero (S := S10000x64) zeros2, View.ld_unit_zero (S := S64x128) zeros2]
  funext j
  obtain ⟨-, -, -, -, e4, -⟩ := idx_facts0 t
  show k0_pay1 (F := Ideal) (iblk0 V c 0 t) (iblk0 V c 1 t) j
    = mm0 (V c main_arg2) (V c main_arg3) (((cfg0.win 2).blk t).view.emb j)
  refine rows0 (V c main_arg2) (V c main_arg3) (iblk0 V c 0 t) (iblk0 V c 1 t) (win0_2.index t (0 : Fin 2))
    (fun y z h0 h1 => blk0_rows V c t y z h0 h1) (fun y => blk0_whole V c t y) j _ ?_ ?_
  · show win0_2.index t (0 : Fin 2) * 10000 + 1 * (j 0).val = win0_2.index t (0 : Fin 2) * 10000 + (j 0).val
    omega
  · show win0_2.index t (1 : Fin 2) * 128 + 1 * (j 1).val = (j 1).val
    omega

/-! ## The rows every point covers, and the array after the region -/

/-- Every row-block index of the output array is some point's. -/
theorem idx_onto0 : ∀ q0 : Fin 10, ∃ t : Fin cfg0.N, win0_2.index t (0 : Fin 2) = q0.val :=
  (by decide +kernel : ∀ q0 : Fin 10, ∃ t : Fin grid0.N, win0_2.index t (0 : Fin 2) = q0.val)

/-- An index of the output array is in point `t`'s block iff each coordinate is in the block's range on its axis. -/
theorem mem_blk0 (t : Fin cfg0.N) (i : S100000x128.Idx) :
    i ∈ ((cfg0.win 2).blk t).view.set ↔ ∀ a : Fin 2, win0_2.index t a * S10000x128.size a ≤ (i a).val
      ∧ (i a).val < win0_2.index t a * S10000x128.size a + S10000x128.size a := by
  show i ∈ ((View.whole main_v30).slice (win0_2.rect t)).set ↔ _
  rw [View.set_slice_whole, Rect.mem_set_unit]
  exact Iff.rfl

/-- Row `r` of the output array is written back by the point whose row-block index is `r / 10000`. -/
theorem cover0 (i : S100000x128.Idx) :
    ∃ t : Fin cfg0.N, (cfg0.win 2).flush t = true ∧ i ∈ ((cfg0.win 2).blk t).view.set := by
  have hi0 : (i 0).val < 100000 := ValueIdx.idx2_lt0 i
  have hi1 : (i 1).val < 128 := ValueIdx.idx2_lt1 i
  obtain ⟨t, ht⟩ := idx_onto0 ⟨(i 0).val / 10000, by omega⟩
  have q0 : win0_2.index t (0 : Fin 2) = (i 0).val / 10000 := ht
  obtain ⟨-, -, -, -, e4, -⟩ := idx_facts0 t
  refine ⟨t, flush0_2 t, ?_⟩
  rw [mem_blk0]
  intro a
  match a with
  | ⟨0, _⟩ =>
    show win0_2.index t (0 : Fin 2) * 10000 ≤ (i 0).val ∧ (i 0).val < win0_2.index t (0 : Fin 2) * 10000 + 10000
    omega
  | ⟨1, _⟩ =>
    show win0_2.index t (1 : Fin 2) * 128 ≤ (i 1).val ∧ (i 1).val < win0_2.index t (1 : Fin 2) * 128 + 128
    omega

/-- After the first region its output array is the product of the two arrays it was entered with. -/
theorem final0 (c : Dev nD) : (dat0 (F := Ideal) V c).arrAt 2 cfg0.N = mm0 (V c main_arg2) (V c main_arg3) :=
  (dat0 (F := Ideal) V c).arrAt_eq_of_cover 2 (mm0 (V c main_arg2) (V c main_arg3)) (fun t _ => flushed0_eq V c t) cover0

/-! # The second region: the same with a [100000,128] array against a [128,64] array -/

/-! ## The product of two blocks, entry by entry -/

/-- Row coordinate of the left operand's index at an output index: the output's row. -/
theorem lhs1_row (j : S10000x64.Idx) (q : dot_S10000x128_S128x64_S10000x64_1_0_0_1_n_n.contr.Idx) :
    (dot_S10000x128_S128x64_S10000x64_1_0_0_1_n_n.lhsIdx j q 0).val = (j 0).val := by
  unfold DotDims.lhsIdx
  rw [dif_neg (show ¬(0 : Fin S10000x128.rank) ∈ dot_S10000x128_S128x64_S10000x64_1_0_0_1_n_n.lhsBatch by decide),
    dif_pos (show (0 : Fin S10000x128.rank) ∈ dot_S10000x128_S128x64_S10000x64_1_0_0_1_n_n.lhsNonContracting by decide)]
  rfl

/-- Column coordinate of the left operand's index: the summation variable. -/
theorem lhs1_col (j : S10000x64.Idx) (q : dot_S10000x128_S128x64_S10000x64_1_0_0_1_n_n.contr.Idx) :
    (dot_S10000x128_S128x64_S10000x64_1_0_0_1_n_n.lhsIdx j q 1).val = (q ⟨0, by decide⟩).val :=
  dot_S10000x128_S128x64_S10000x64_1_0_0_1_n_n.lhsIdx_val_of_single rfl j q

/-- Row coordinate of the right operand's index: the summation variable. -/
theorem rhs1_row (j : S10000x64.Idx) (q : dot_S10000x128_S128x64_S10000x64_1_0_0_1_n_n.contr.Idx) :
    (dot_S10000x128_S128x64_S10000x64_1_0_0_1_n_n.rhsIdx j q 0).val = (q ⟨0, by decide⟩).val :=
  dot_S10000x128_S128x64_S10000x64_1_0_0_1_n_n.rhsIdx_val_of_single rfl j q

/-- Column coordinate of the right operand's index: the output's column. -/
theorem rhs1_col (j : S10000x64.Idx) (q : dot_S10000x128_S128x64_S10000x64_1_0_0_1_n_n.contr.Idx) :
    (dot_S10000x128_S128x64_S10000x64_1_0_0_1_n_n.rhsIdx j q 1).val = (j 1).val := by
  unfold DotDims.rhsIdx
  rw [dif_neg (show ¬(1 : Fin S128x64.rank) ∈ dot_S10000x128_S128x64_S10000x64_1_0_0_1_n_n.rhsBatch by decide),
    dif_pos (show (1 : Fin S128x64.rank) ∈ dot_S10000x128_S128x64_S10000x64_1_0_0_1_n_n.rhsNonContracting by decide)]
  rfl

/-- Entry (p, q) of the second region's block product: the sum over k of x0 (p, k) * x1 (k, q). -/
theorem pay1_apply (x0 : Vec Ideal S10000x128 .f32) (x1 : Vec Ideal S128x64 .f32) (p : Fin 10000) (q : Fin 64) :
    k1_pay1 (F := Ideal) x0 x1 (ValueIdx.ix2 p q) = ∑ k : Fin 128, x0 (ValueIdx.ix2 p k) * x1 (ValueIdx.ix2 k q) := by
  unfold k1_pay1
  rw [shapeCast_self]
  refine (Ideal.matmul_constant_zero_apply dot_S10000x128_S128x64_S10000x64_1_0_0_1_n_n none _ _ (ValueIdx.ix2 p q)).trans ?_
  rw [← Equiv.sum_comp (ValueIdx.contrEquiv1 dot_S10000x128_S128x64_S10000x64_1_0_0_1_n_n 128 rfl rfl).symm]
  refine Finset.sum_congr rfl fun k _ => ?_
  have hk := ValueIdx.contrEquiv1_symm_val dot_S10000x128_S128x64_S10000x64_1_0_0_1_n_n 128 rfl rfl k
  have el : dot_S10000x128_S128x64_S10000x64_1_0_0_1_n_n.lhsIdx (ValueIdx.ix2 p q)
      ((ValueIdx.contrEquiv1 dot_S10000x128_S128x64_S10000x64_1_0_0_1_n_n 128 rfl rfl).symm k) = ValueIdx.ix2 p k :=
    funext fun a => Fin.ext (by
      match a with
      | ⟨0, _⟩ => exact lhs1_row _ _
      | ⟨1, _⟩ => exact (lhs1_col _ _).trans hk)
  have er : dot_S10000x128_S128x64_S10000x64_1_0_0_1_n_n.rhsIdx (ValueIdx.ix2 p q)
      ((ValueIdx.contrEquiv1 dot_S10000x128_S128x64_S10000x64_1_0_0_1_n_n 128 rfl rfl).symm k) = ValueIdx.ix2 k q :=
    funext fun a => Fin.ext (by
      match a with
      | ⟨0, _⟩ => exact (rhs1_row _ _).trans hk
      | ⟨1, _⟩ => exact rhs1_col _ _)
  rw [el, er]
  rfl

/-- The product of a block of 10000 rows of `X` (the rows from `b * 10000` on) with the whole of `W` is those rows of the
    product of `X` and `W`. -/
theorem rows1 (X : S100000x128.Idx → EReal) (W : S128x64.Idx → EReal) (x0 : Vec Ideal S10000x128 .f32) (x1 : Vec Ideal S128x64 .f32)
    (b : Nat)
    (h0 : ∀ (y : S10000x128.Idx) (z : S100000x128.Idx), (z 0).val = b * 10000 + (y 0).val → (z 1).val = (y 1).val → x0 y = X z)
    (h1 : ∀ y : S128x64.Idx, x1 y = W y)
    (j : S10000x64.Idx) (i : S100000x64.Idx) (hi0 : (i 0).val = b * 10000 + (j 0).val) (hi1 : (i 1).val = (j 1).val) :
    k1_pay1 (F := Ideal) x0 x1 j = mm1 X W i := by
  have ej : j = ValueIdx.ix2 (n0 := 10000) (n1 := 64) ⟨(j 0).val, ValueIdx.idx2_lt0 j⟩ ⟨(j 1).val, ValueIdx.idx2_lt1 j⟩ :=
    funext fun a => by
      match a with
      | ⟨0, _⟩ => rfl
      | ⟨1, _⟩ => rfl
  refine (congrArg (k1_pay1 (F := Ideal) x0 x1) ej).trans ((pay1_apply x0 x1 _ _).trans ?_)
  rw [mm1_apply]
  refine Finset.sum_congr rfl fun k _ => ?_
  refine congrArg₂ (· * ·) (h0 _ _ hi0 rfl) ((h1 _).trans (congrArg W ?_))
  funext a
  apply Fin.ext
  match a with
  | ⟨0, _⟩ => rfl
  | ⟨1, _⟩ => exact hi1.symm

/-! ## The input blocks as parts of their arrays -/

/-- The printed index maps over the ten points: the row-block input moves with the output on the row axis, every other
    block index is zero, and the output's row-block index is the point's number. -/
theorem idx_facts1 : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (1 : Fin 2) = 0
    ∧ win1_2.index t (0 : Fin 2) = t.val :=
  (by decide +kernel : ∀ t : Fin grid1.N, _)

/-- The row-block input's block at point `t` is the rows of its array from the output's row-block index times 10000 on. -/
theorem blk1_rows (c : Dev nD) (t : Fin cfg1.N) (y : S10000x128.Idx) (z : S100000x128.Idx)
    (hz0 : (z 0).val = win1_2.index t (0 : Fin 2) * 10000 + (y 0).val) (hz1 : (z 1).val = (y 1).val) :
    iblk1 V c 0 t y = V c main_v46 z := by
  obtain ⟨e0, e1, -⟩ := idx_facts1 t
  unfold iblk1
  rw [View.read_apply]
  show V c main_v46 _ = V c main_v46 _
  congr 1
  funext a
  apply Fin.ext
  match a with
  | ⟨0, _⟩ => show win1_0.index t (0 : Fin 2) * 10000 + 1 * (y 0).val = (z 0).val; omega
  | ⟨1, _⟩ => show win1_0.index t (1 : Fin 2) * 128 + 1 * (y 1).val = (z 1).val; omega

/-- The weight input's block at every point is its whole array. -/
theorem blk1_whole (c : Dev nD) (t : Fin cfg1.N) (y : S128x64.Idx) :
    iblk1 V c 1 t y = V c main_arg5 y := by
  obtain ⟨-, -, e2, e3, -⟩ := idx_facts1 t
  unfold iblk1
  rw [View.read_apply]
  show V c main_arg5 _ = V c main_arg5 _
  congr 1
  funext a
  apply Fin.ext
  match a with
  | ⟨0, _⟩ => show win1_1.index t (0 : Fin 2) * 128 + 1 * (y 0).val = (y 0).val; omega
  | ⟨1, _⟩ => show win1_1.index t (1 : Fin 2) * 64 + 1 * (y 1).val = (y 1).val; omega

/-! ## What a point writes back -/

/-- What point `t` writes back is block `t` of the product of the two arrays the region was entered with. -/
theorem flushed1_eq (c : Dev nD) (t : Fin cfg1.N) :
    (dat1 (F := Ideal) V c).flushed 2 t = ((cfg1.win 2).blk t).view.read (Elt Ideal) (mm1 (V c main_v46) (V c main_arg5)) := by
  show (cfg1.win 2).cut (grid1.coords t) ((dat1 (F := Ideal) V c).after 2 t) = _
  rw [after1_2]
  unfold out1_2
  rw [View.canon_unit_zero zeros2]
  simp only [View.ld_unit_zero (S := S10000x128) zeros2, View.ld_unit_zero (S := S128x64) zeros2]
  funext j
  obtain ⟨-, -, -, -, e4, -⟩ := idx_facts1 t
  show k1_pay1 (F := Ideal) (iblk1 V c 0 t) (iblk1 V c 1 t) j
    = mm1 (V c main_v46) (V c main_arg5) (((cfg1.win 2).blk t).view.emb j)
  refine rows1 (V c main_v46) (V c main_arg5) (iblk1 V c 0 t) (iblk1 V c 1 t) (win1_2.index t (0 : Fin 2))
    (fun y z h0 h1 => blk1_rows V c t y z h0 h1) (fun y => blk1_whole V c t y) j _ ?_ ?_
  · show win1_2.index t (0 : Fin 2) * 10000 + 1 * (j 0).val = win1_2.index t (0 : Fin 2) * 10000 + (j 0).val
    omega
  · show win1_2.index t (1 : Fin 2) * 64 + 1 * (j 1).val = (j 1).val
    omega

/-! ## The rows every point covers, and the array after the region -/

/-- Every row-block index of the output array is some point's. -/
theorem idx_onto1 : ∀ q0 : Fin 10, ∃ t : Fin cfg1.N, win1_2.index t (0 : Fin 2) = q0.val :=
  (by decide +kernel : ∀ q0 : Fin 10, ∃ t : Fin grid1.N, win1_2.index t (0 : Fin 2) = q0.val)

/-- An index of the output array is in point `t`'s block iff each coordinate is in the block's range on its axis. -/
theorem mem_blk1 (t : Fin cfg1.N) (i : S100000x64.Idx) :
    i ∈ ((cfg1.win 2).blk t).view.set ↔ ∀ a : Fin 2, win1_2.index t a * S10000x64.size a ≤ (i a).val
      ∧ (i a).val < win1_2.index t a * S10000x64.size a + S10000x64.size a := by
  show i ∈ ((View.whole main_v47).slice (win1_2.rect t)).set ↔ _
  rw [View.set_slice_whole, Rect.mem_set_unit]
  exact Iff.rfl

/-- Row `r` of the output array is written back by the point whose row-block index is `r / 10000`. -/
theorem cover1 (i : S100000x64.Idx) :
    ∃ t : Fin cfg1.N, (cfg1.win 2).flush t = true ∧ i ∈ ((cfg1.win 2).blk t).view.set := by
  have hi0 : (i 0).val < 100000 := ValueIdx.idx2_lt0 i
  have hi1 : (i 1).val < 64 := ValueIdx.idx2_lt1 i
  obtain ⟨t, ht⟩ := idx_onto1 ⟨(i 0).val / 10000, by omega⟩
  have q0 : win1_2.index t (0 : Fin 2) = (i 0).val / 10000 := ht
  obtain ⟨-, -, -, -, e4, -⟩ := idx_facts1 t
  refine ⟨t, flush1_2 t, ?_⟩
  rw [mem_blk1]
  intro a
  match a with
  | ⟨0, _⟩ =>
    show win1_2.index t (0 : Fin 2) * 10000 ≤ (i 0).val ∧ (i 0).val < win1_2.index t (0 : Fin 2) * 10000 + 10000
    omega
  | ⟨1, _⟩ =>
    show win1_2.index t (1 : Fin 2) * 64 ≤ (i 1).val ∧ (i 1).val < win1_2.index t (1 : Fin 2) * 64 + 64
    omega

/-- After the second region its output array is the product of the two arrays it was entered with. -/
theorem final1 (c : Dev nD) : (dat1 (F := Ideal) V c).arrAt 2 cfg1.N = mm1 (V c main_v46) (V c main_arg5) :=
  (dat1 (F := Ideal) V c).arrAt_eq_of_cover 2 (mm1 (V c main_v46) (V c main_arg5)) (fun t _ => flushed1_eq V c t) cover1

end Cert.KernelIdeal.FrVal

end
-- ==== Proof.KI.ValGather.lean ====
/- Region 2 of @main at the ideal float model: the VALUE the row gather leaves. Row r of the result array is the row
   of the gathered array that the prefetched table names at r. The body copies its input block to its output block
   unchanged; the input window's block index at point t is the table's word at t, the output window's is t itself,
   and the output's blocks, one row each, tile the result. -/
import proofs.«409041_j70755291234309_2_alg».proof.Proof.KI.Gather2
import Idealize.ShloMosaic.Lib.Pipeline.Value
import Idealize.ShloMosaic.Lib.ValueIdx

set_option maxRecDepth 16384
noncomputable section
namespace Cert.KernelIdeal.FrVal
open Idealize.ShloMosaic Idealize.ShloMosaic.TcCoe
open Idealize.SL.Sem
open Idealize.ShloMosaic.Pipeline (Dat Cfg Window)
open Idealize.ShloMosaic.ValueIdx (ix1 ix3 eq_ix1 eq_ix3)
open Cert.KernelIdeal Cert.KernelIdeal.Gen Cert.KernelIdeal.Fr

/-! ## The index maps, at any contents of the table -/

section AnyContents
variable {F : FTy → Type} [FloatOps F]

/-- A grid coordinate of the region, as a 32-bit word and back, is itself: it is below 12800. -/
theorem coord_word (i : grid2.Coords) : (Scalar.indexCast (BitVec.ofNat 32 (i 0).val)).toNat = (i 0).val := by
  have h : (i 0).val < 12800 := (i 0).isLt
  show (BitVec.ofNat 32 (i 0).val).toNat = _
  rw [BitVec.toNat_ofNat]
  omega

set_option maxHeartbeats 50000 in
/-- The input window's block index on the row axis is the table's word at the grid coordinate, -/
theorem transform0_0 (pf : pre2.Contents (Elt F)) (i : grid2.Coords) :
    cc2_transform_0 k2_off1_inb numel1_S1 pf i 0 = (pf 0 (ix1 (i 0))).toNat := by
  show (pf 0 _).toNat = _
  refine congrArg (fun x => (pf 0 x).toNat) ?_
  funext a
  match a with
  | ⟨0, _⟩ =>
    apply Fin.ext
    show (Scalar.indexCast (BitVec.ofNat 32 (i 0).val)).toNat + 1 * 0 = (i 0).val
    rw [coord_word]
    omega

end AnyContents

section AnyTable
variable {F : FTy → Type} [FloatOps F]

/-- Under the side condition every word of the table names a row of the gathered array. -/
theorem word_lt (pf : pre2.Contents (Elt F)) (h : ok2 pf) (r : Fin 12800) : (pf 0 (ix1 r)).toNat < 100000 := by
  obtain ⟨hb, -⟩ := h (ix1 r)
  have h0 := hb 0
  rw [transform0_0] at h0
  have e : (pf 0 (ix1 ((ix1 r : grid2.Coords) 0))).toNat = (pf 0 (ix1 r)).toNat := rfl
  rw [e] at h0
  generalize (pf 0 (ix1 r)).toNat = k at h0 ⊢
  have h1 : (k + 1) * 1 ≤ 100000 := h0
  omega

/-- The row the table names for row `r` of the result, at admissible contents. -/
def tokA (a : (pcfg2 (F := F)).Adm) (r : Fin 12800) : Fin 100000 := ⟨(a.1 0 (ix1 r)).toNat, word_lt a.1 a.2 r⟩

/-- The body's payload is its loaded block: the shape cast is to the same shape. -/
theorem pay_eq (x0 : Vec F S1x1x64 .f32) : k2_pay1 x0 = x0 := by
  unfold k2_pay1; dsimp only; rw [shapeCast_self]

theorem hz3 : (![0, 0, 0] : Fin 3 → Nat) = fun _ => 0 := funext fun a => by fin_cases a <;> rfl

/-- So the body leaves the input block in the output buffer. -/
theorem out2_1_eq (x0 : Vec F S1x1x64 .f32) : out2_1 x0 = x0 := by
  unfold out2_1
  rw [View.canon_unit_zero hz3, View.ld_unit_zero (S := S1x1x64) hz3, pay_eq]

/-- On the one-axis grid the coordinate of point `t` is `t`. -/
theorem coord_val (t : Fin grid2.N) : (grid2.coords t 0).val = t.val := by
  have hN : grid2.N = 12800 := N_2
  have ht := t.isLt
  have hs : grid2.stride 0 = 1 := by decide
  show t.val / grid2.stride 0 % 12800 = t.val
  rw [hs]; omega

/-- The windows' block indices at point `t`, at any admissible contents: the input's row is the table's word at the
    point's coordinate, the output's row is the coordinate; the other axes have the one block. -/
theorem index0_0 (a : (pcfg2 (F := F)).Adm) (t : Fin (cfg2 a).N) :
    ((cfg2 a).win 0).index t (0 : Fin 3) = (a.1 0 (ix1 ((cfg2 a).grid.coords t 0))).toNat := transform0_0 a.1 _
theorem index0_1 (a : (pcfg2 (F := F)).Adm) (t : Fin (cfg2 a).N) : ((cfg2 a).win 0).index t (1 : Fin 3) = 0 := rfl
theorem index0_2 (a : (pcfg2 (F := F)).Adm) (t : Fin (cfg2 a).N) : ((cfg2 a).win 0).index t (2 : Fin 3) = 0 := rfl
theorem index1_0 (a : (pcfg2 (F := F)).Adm) (t : Fin (cfg2 a).N) :
    ((cfg2 a).win 1).index t (0 : Fin 3) = ((cfg2 a).grid.coords t 0).val := coord_word _
theorem index1_1 (a : (pcfg2 (F := F)).Adm) (t : Fin (cfg2 a).N) : ((cfg2 a).win 1).index t (1 : Fin 3) = 0 := rfl
theorem index1_2 (a : (pcfg2 (F := F)).Adm) (t : Fin (cfg2 a).N) : ((cfg2 a).win 1).index t (2 : Fin 3) = 0 := rfl

variable (V : (c : Dev nD) → (b : Ref sig .tc) → Buf (Elt F) ((c : Thread nD τ).loc b))

/-- The array the region leaves, as a function of the gathered array. -/
def gathA (a : (pcfg2 (F := F)).Adm) (c : Dev nD) : S12800x1x64.Idx → Elt F .f32 :=
  fun i => V c main_v65 (ix3 (tokA a (i 0)) (i 1) (i 2))

set_option maxHeartbeats 200000 in
/-- WHAT POINT `t` WRITES BACK is block `t` of that function: the body leaves the input block, which is the gathered
    array read at the table's row, and the output's block at `t` is row `t`. -/
theorem flushedA (a : (pcfg2 (F := F)).Adm) {c : Dev nD} (dat : Dat τ (Elt F) Unit ℕ (UR sig nD τ) ℕ (cfg2 a) c)
    (hafter : ∀ t, dat.after 1 t = out2_1 (iblkA2 V a c 0 t)) (t : Fin (cfg2 a).N) :
    dat.flushed 1 t = (((cfg2 a).win 1).blk t).view.read (Elt F) (gathA V a c) := by
  show ((cfg2 a).win 1).cut ((cfg2 a).grid.coords t) (dat.after 1 t) = _
  rw [hafter]
  funext j
  refine (congrFun (out2_1_eq (iblkA2 V a c 0 t)) _).trans ?_
  show V c main_v65 ((((cfg2 a).win 0).blk t).view.emb (((cfg2 a).win 1).xinj ((cfg2 a).grid.coords t) j))
     = V c main_v65 (ix3 (tokA a ((((cfg2 a).win 1).blk t).view.emb j (0 : Fin 3))) ((((cfg2 a).win 1).blk t).view.emb j (1 : Fin 3)) ((((cfg2 a).win 1).blk t).view.emb j (2 : Fin 3)))
  have j0 : (j (0 : Fin 3)).val = 0 := by
    have h := (j (0 : Fin 3)).isLt
    have e : (((cfg2 a).win 1).xblock ((cfg2 a).grid.coords t)).size (0 : Fin 3) = 1 := rfl
    omega
  have he1 : (((cfg2 a).win 1).blk t).view.emb j (0 : Fin 3) = (cfg2 a).grid.coords t 0 := by
    apply Fin.ext
    show ((cfg2 a).win 1).index t (0 : Fin 3) * 1 + 1 * (j (0 : Fin 3)).val = ((cfg2 a).grid.coords t 0).val
    rw [index1_0, j0]
    omega
  rw [he1]
  refine congrArg (V c main_v65) ?_
  funext ax
  apply Fin.ext
  match ax with
  | ⟨0, _⟩ =>
    show ((cfg2 a).win 0).index t (0 : Fin 3) * 1 + 1 * (j (0 : Fin 3)).val = (a.1 0 (ix1 ((cfg2 a).grid.coords t 0))).toNat
    rw [index0_0, j0]
    generalize (a.1 0 (ix1 ((cfg2 a).grid.coords t 0))).toNat = k
    omega
  | ⟨1, _⟩ =>
    show ((cfg2 a).win 0).index t (1 : Fin 3) * 1 + 1 * (j (1 : Fin 3)).val = ((cfg2 a).win 1).index t (1 : Fin 3) * 1 + 1 * (j (1 : Fin 3)).val
    rw [index0_1, index1_1]
  | ⟨2, _⟩ =>
    show ((cfg2 a).win 0).index t (2 : Fin 3) * 64 + 1 * (j (2 : Fin 3)).val = ((cfg2 a).win 1).index t (2 : Fin 3) * 64 + 1 * (j (2 : Fin 3)).val
    rw [index0_2, index1_2]

/-- The coordinate of point `t`, at any admissible contents (the grid does not depend on them). -/
theorem coordA (a : (pcfg2 (F := F)).Adm) (t : Fin (cfg2 a).N) : ((cfg2 a).grid.coords t 0).val = t.val := coord_val t

/-- Every point of the output window writes its block back: the next point's row is another. -/
theorem flushA (a : (pcfg2 (F := F)).Adm) (t : Fin (cfg2 a).N) : ((cfg2 a).win 1).flush t = true := by
  unfold Window.flush
  have hout : ((cfg2 a).win 1).isOut = true := rfl
  rw [hout, Bool.true_and, Bool.or_eq_true, decide_eq_true_eq, decide_eq_true_eq]
  by_cases h : t.val + 1 = (cfg2 a).grid.N
  · exact .inl h
  · have ht : t.val < (cfg2 a).grid.N := t.isLt
    have hlt : t.val + 1 < (cfg2 a).grid.N := by omega
    refine .inr ⟨hlt, fun e => ?_⟩
    have e0 := congrFun e (0 : Fin 3)
    rw [index1_0, index1_0, coordA, coordA] at e0
    have e1 : t.val + 1 = t.val := e0
    omega

/-- An index of the result is in point `t`'s block iff each coordinate is in the block's range on its axis. -/
theorem mem_blkA (a : (pcfg2 (F := F)).Adm) (t : Fin (cfg2 a).N) (i : S12800x1x64.Idx) :
    i ∈ (((cfg2 a).win 1).blk t).view.set ↔ ∀ ax : Fin 3, ((cfg2 a).win 1).index t ax * S1x1x64.size ax ≤ (i ax).val
      ∧ (i ax).val < ((cfg2 a).win 1).index t ax * S1x1x64.size ax + S1x1x64.size ax := by
  exact (Eq.to_iff (congrArg (fun S => i ∈ S) (View.set_slice_whole main_v66 (((cfg2 a).win 1).rect t)))).trans Rect.mem_set_unit

/-- The output's blocks, one row each, tile the result: row `r` is point `r`'s block. -/
theorem coverA (a : (pcfg2 (F := F)).Adm) (i : S12800x1x64.Idx) :
    ∃ t : Fin (cfg2 a).N, ((cfg2 a).win 1).flush t = true ∧ i ∈ (((cfg2 a).win 1).blk t).view.set := by
  have hN : (cfg2 a).N = 12800 := N_2
  have hi0 : (i (0 : Fin 3)).val < 12800 := (i (0 : Fin 3)).isLt
  have hi1 : (i (1 : Fin 3)).val < 1 := (i (1 : Fin 3)).isLt
  have hi2 : (i (2 : Fin 3)).val < 64 := (i (2 : Fin 3)).isLt
  refine ⟨⟨(i (0 : Fin 3)).val, by omega⟩, flushA a _, ?_⟩
  rw [mem_blkA]
  intro ax
  match ax with
  | ⟨0, _⟩ =>
    show ((cfg2 a).win 1).index _ (0 : Fin 3) * 1 ≤ (i (0 : Fin 3)).val ∧ (i (0 : Fin 3)).val < ((cfg2 a).win 1).index _ (0 : Fin 3) * 1 + 1
    rw [index1_0, coordA]
    show (i (0 : Fin 3)).val * 1 ≤ (i (0 : Fin 3)).val ∧ (i (0 : Fin 3)).val < (i (0 : Fin 3)).val * 1 + 1
    omega
  | ⟨1, _⟩ =>
    show ((cfg2 a).win 1).index _ (1 : Fin 3) * 1 ≤ (i (1 : Fin 3)).val ∧ (i (1 : Fin 3)).val < ((cfg2 a).win 1).index _ (1 : Fin 3) * 1 + 1
    rw [index1_1]; omega
  | ⟨2, _⟩ =>
    show ((cfg2 a).win 1).index _ (2 : Fin 3) * 64 ≤ (i (2 : Fin 3)).val ∧ (i (2 : Fin 3)).val < ((cfg2 a).win 1).index _ (2 : Fin 3) * 64 + 64
    rw [index1_2]; omega

/-- THE ARRAY after the run, for any proof data whose body leaves the input block in the output buffer. -/
theorem finalA (a : (pcfg2 (F := F)).Adm) {c : Dev nD} (dat : Dat τ (Elt F) Unit ℕ (UR sig nD τ) ℕ (cfg2 a) c)
    (hafter : ∀ t, dat.after 1 t = out2_1 (iblkA2 V a c 0 t)) : dat.arrAt 1 (cfg2 a).N = gathA V a c :=
  dat.arrAt_eq_of_cover 1 (gathA V a c) (fun t _ => flushedA V a dat hafter t) (coverA a)

end AnyTable

/-! ## The value, at the contents the region finds -/

variable (V : (c : Dev nD) → (b : Ref sig .tc) → Buf (Elt Ideal) ((c : Thread nD τ).loc b))

/-- Under the pipeline's side condition every word of the table names a row of the gathered array. -/
theorem tok_lt (hO : Ok2 V) (r : Fin 12800) : (tbl2 V 0 (ix1 r)).toNat < 100000 := word_lt (tbl2 V) hO r

/-- The row of the gathered array that the table names for row `r` of the result. -/
def tok (hO : Ok2 V) (r : Fin 12800) : Fin 100000 := ⟨(tbl2 V 0 (ix1 r)).toNat, tok_lt V hO r⟩

theorem tok_val (hO : Ok2 V) (r : Fin 12800) : (tok V hO r).val = (tbl2 V 0 (ix1 r)).toNat := rfl

/-- THE ARRAY the region leaves: row `r` of the result is row `tok r` of the gathered array. -/
theorem final2 (hO : Ok2 V) (c : Dev nD) :
    (dat2 (F := Ideal) V hO c).arrAt 1 (cfgM2 V hO).N
      = fun i : S12800x1x64.Idx => V c main_v65 (ix3 (tok V hO (i 0)) (i 1) (i 2)) :=
  finalA V (adm2 V hO) (dat2 V hO c) (after2_1 V hO c)

end Cert.KernelIdeal.FrVal

end
-- ==== Proof.Ref.Bridge.lean ====
/-
  The reference's result and the kernel's result are one function of the seven argument arrays.
  Reference side: the result read at an index is the second layer's table at the row the token names.
-/
import proofs.«409041_j70755291234309_2_alg».proof.Proof.Ref.BridgeHost
import proofs.«409041_j70755291234309_2_alg».proof.Proof.KI.ValMm
import proofs.«409041_j70755291234309_2_alg».proof.Proof.KI.ValGather
import Idealize.ShloMosaic.Lib.StableHlo.Predicate

set_option maxRecDepth 16384

noncomputable section

namespace Cert.Bridge

open Idealize.ShloMosaic Idealize.ShloMosaic.ValueIdx Idealize.ShloMosaic.StableHlo.Predicate
open scoped BigOperators

/-! ## Words: a token in range is its own normalisation -/

/-- A token below 100000 is non-negative as a signed word, so the wrap-around of negative indices leaves it alone. -/
theorem tok_select (t : BitVec 32) (h : t.toNat < 100000) :
    Scalar.select (IntOp.cmpi .slt t 0#32) (IntOp.addi t 100000#32) t = t := by
  have hn : ¬ (IntOp.cmpi .slt t 0#32 = 1#1) := by
    rw [slt_iff_toNat (by omega) (by decide)]
    simp
  exact if_neg hn

/-- Read signed and clamped into the table's rows, a token below 100000 is its value. -/
theorem tok_clamp (t : BitVec 32) (h : t.toNat < 100000) : min t.toInt.toNat (100000 - 1) = t.toNat := by
  rw [toInt_eq_toNat_of_lt (by omega)]
  simp only [Int.toNat_natCast]
  omega

/-! ## The row gather read at an index -/

section RowGather
open Cert.ReferenceIdeal Cert.ReferenceIdeal.Gen

/-- The reference's last gather, `table[idx]` over the rows of a [100000 × 64] table at a [12800 × 1] column of start
    indices: result element `(p, q)` is the table at row `idx[p, 0]` (read signed, clamped into the rows) and column `q`. -/
theorem gather_rows_apply {α : Type} (x : S100000x64.Idx → α) (idx : IVec S12800x1 32) (j : S12800x64.Idx) :
    Host.gather gather_S100000x64_S12800x1_S12800x64_1_0_n_n_0_1_164 x idx j
      = x (ix2 (n0 := 100000) (n1 := 64) ⟨min (idx (ix2 (n0 := 12800) (n1 := 1) (j 0) 0)).toInt.toNat (100000 - 1), by omega⟩ (j 1)) := by
  unfold Host.gather
  congr 1
  funext a
  refine Fin.ext ?_
  match a with
  | ⟨0, _⟩ =>
    show gather_S100000x64_S12800x1_S12800x64_1_0_n_n_0_1_164.start j idx 0
        + gather_S100000x64_S12800x1_S12800x64_1_0_n_n_0_1_164.batchCoord j 0
        + gather_S100000x64_S12800x1_S12800x64_1_0_n_n_0_1_164.offCoord j 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S100000x64_S12800x1_S12800x64_1_0_n_n_0_1_164.startIndexMap from List.mem_singleton.mpr rfl)]
    have hsi : gather_S100000x64_S12800x1_S12800x64_1_0_n_n_0_1_164.siIdx j
        ⟨List.idxOf (0 : Fin 2) gather_S100000x64_S12800x1_S12800x64_1_0_n_n_0_1_164.startIndexMap,
          List.idxOf_lt_length_iff.2 (List.mem_singleton.mpr rfl)⟩ = ix2 (n0 := 12800) (n1 := 1) (j 0) 0 := by
      funext b; refine Fin.ext ?_
      match b with
      | ⟨0, _⟩ => rfl
      | ⟨1, _⟩ => rfl
    rw [hsi]
    rfl
  | ⟨1, _⟩ =>
    show gather_S100000x64_S12800x1_S12800x64_1_0_n_n_0_1_164.start j idx 1
        + gather_S100000x64_S12800x1_S12800x64_1_0_n_n_0_1_164.batchCoord j 1
        + gather_S100000x64_S12800x1_S12800x64_1_0_n_n_0_1_164.offCoord j 1 = _
    rw [GatherDims.batchCoord_eq_zero _ _ _ List.not_mem_nil]
    unfold GatherDims.start
    rw [dif_neg (show ¬ (1 : Fin 2) ∈ gather_S100000x64_S12800x1_S12800x64_1_0_n_n_0_1_164.startIndexMap by decide)]
    rw [Nat.zero_add]
    unfold GatherDims.offCoord
    rw [dif_pos (show (1 : Fin 2) ∈ gather_S100000x64_S12800x1_S12800x64_1_0_n_n_0_1_164.sKept by decide)]
    rfl

end RowGather

/-! ## The reference's result at an index -/

section RefApply
open Cert.ReferenceIdeal Cert.ReferenceIdeal.Gen Cert.ReferenceIdeal.ReadP

variable {F : FTy → Type} [FloatOps F]

/-- The normalised token the reference's gather starts at, at flat position `p`: the token itself when it is in range. -/
theorem ref_tok (x0 : (⟨S64x200, .i32⟩ : BufTy).Contents (Elt F)) (htok : ∀ q : S64x200.Idx, (x0 q).toNat < 100000)
    (p : S12800x1.Idx) :
    val_main_v93 (F := F) x0 p = x0 (idx_main_v87 (idx_main_v93 p)) := by
  rw [val_main_v93_apply, val_main_v92_apply, val_main_v89_apply, val_main_v91_apply, val_main_v88_apply,
    val_main_v90_apply, val_main_c_20_apply, val_main_c_21_apply, val_main_v87_apply]
  exact tok_select _ (htok _)

/-- THE REFERENCE AT AN INDEX: element `(b, l, d)` of the result is the second layer's table at the row the token
    `tokens[b, l]` names and column `d`, when every token is a row of the table. -/
theorem ref_apply (x0 : (⟨S64x200, .i32⟩ : BufTy).Contents (Elt F)) (x1 : (⟨S2x1600000, .i32⟩ : BufTy).Contents (Elt F))
    (x2 : (⟨S100000x64, .f32⟩ : BufTy).Contents (Elt F)) (x3 : (⟨S64x128, .f32⟩ : BufTy).Contents (Elt F))
    (x4 : (⟨S128, .f32⟩ : BufTy).Contents (Elt F)) (x5 : (⟨S128x64, .f32⟩ : BufTy).Contents (Elt F))
    (x6 : (⟨S64, .f32⟩ : BufTy).Contents (Elt F)) (htok : ∀ q : S64x200.Idx, (x0 q).toNat < 100000)
    (i : S64x200x64.Idx) :
    val_main_v95 (F := F) x0 x1 x2 x3 x4 x5 x6 i
      = val_main_v86 (F := F) x1 x2 x3 x4 x5 x6
          (ix2 (n0 := 100000) (n1 := 64) ⟨(x0 (ix2 (n0 := 64) (n1 := 200) (i 0) (i 1))).toNat, htok _⟩ (i 2)) := by
  rw [val_main_v95_apply]
  unfold val_main_v94
  generalize val_main_v86 (F := F) x1 x2 x3 x4 x5 x6 = T
  rw [gather_rows_apply]
  have h0 : (i 0).val < 64 := (i 0).isLt
  have h1 : (i 1).val < 200 := (i 1).isLt
  have h2 : (i 2).val < 64 := (i 2).isLt
  have hp : idx_main_v87 (idx_main_v93 (ix2 (n0 := 12800) (n1 := 1) (idx_main_v95 i 0) 0))
      = ix2 (n0 := 64) (n1 := 200) (i 0) (i 1) := by
    funext a; refine Fin.ext ?_
    match a with
    | ⟨0, _⟩ => show (((i 0).val * 200 + (i 1).val) * 64 + (i 2).val) / 64 / 200 = (i 0).val; omega
    | ⟨1, _⟩ => show (((i 0).val * 200 + (i 1).val) * 64 + (i 2).val) / 64 % 200 = (i 1).val; omega
  congr 1
  funext a; refine Fin.ext ?_
  match a with
  | ⟨0, _⟩ =>
    show min (val_main_v93 (F := F) x0 (ix2 (n0 := 12800) (n1 := 1) (idx_main_v95 i 0) 0)).toInt.toNat (100000 - 1)
      = (x0 (ix2 (n0 := 64) (n1 := 200) (i 0) (i 1))).toNat
    rw [ref_tok x0 htok, hp]
    exact tok_clamp _ (htok _)
  | ⟨1, _⟩ => show (((i 0).val * 200 + (i 1).val) * 64 + (i 2).val) % 64 = (i 2).val; omega

end RefApply

/-! ## The reference's two matrix products, index by index -/

section Products
open Cert.ReferenceIdeal Cert.ReferenceIdeal.Gen Cert.ReferenceIdeal.ReadP

/-- The reference's first product is the row-by-column sum. -/
theorem ref_v7_mm0 (x2 : (⟨S100000x64, .f32⟩ : BufTy).Contents (Elt Ideal)) (x3 : (⟨S64x128, .f32⟩ : BufTy).Contents (Elt Ideal)) :
    val_main_v7 (F := Ideal) x2 x3 = Cert.KernelIdeal.FrVal.mm0 x2 x3 := by
  funext i
  rw [val_main_v7_apply, Cert.KernelIdeal.FrVal.mm0_apply]
  refine Finset.sum_congr rfl fun k _ => ?_
  have el : lidx_main_v7 i k = ValueIdx.ix2 (n0 := 100000) (n1 := 64) (i 0) k := by
    funext a; match a with | ⟨0, _⟩ => rfl | ⟨1, _⟩ => rfl
  have er : ridx_main_v7 i k = ValueIdx.ix2 (n0 := 64) (n1 := 128) k (i 1) := by
    funext a; match a with | ⟨0, _⟩ => rfl | ⟨1, _⟩ => rfl
  rw [el, er]

/-- The reference's second product is the row-by-column sum of its first layer with the second weight. -/
theorem ref_v47_mm1 (x1 : (⟨S2x1600000, .i32⟩ : BufTy).Contents (Elt Ideal)) (x2 : (⟨S100000x64, .f32⟩ : BufTy).Contents (Elt Ideal))
    (x3 : (⟨S64x128, .f32⟩ : BufTy).Contents (Elt Ideal)) (x4 : (⟨S128, .f32⟩ : BufTy).Contents (Elt Ideal))
    (x5 : (⟨S128x64, .f32⟩ : BufTy).Contents (Elt Ideal)) :
    val_main_v47 (F := Ideal) x1 x2 x3 x4 x5 = Cert.KernelIdeal.FrVal.mm1 (val_main_v46 (F := Ideal) x1 x2 x3 x4) x5 := by
  funext i
  rw [val_main_v47_apply, Cert.KernelIdeal.FrVal.mm1_apply]
  generalize val_main_v46 (F := Ideal) x1 x2 x3 x4 = y
  refine Finset.sum_congr rfl fun k _ => ?_
  have el : lidx_main_v47 i k = ValueIdx.ix2 (n0 := 100000) (n1 := 128) (i 0) k := by
    funext a; match a with | ⟨0, _⟩ => rfl | ⟨1, _⟩ => rfl
  have er : ridx_main_v47 i k = ValueIdx.ix2 (n0 := 128) (n1 := 64) k (i 1) := by
    funext a; match a with | ⟨0, _⟩ => rfl | ⟨1, _⟩ => rfl
  rw [el, er]

end Products

/-! ## The kernel's result, stage by stage, and the two results compared -/

section Final
open Idealize.ShloMosaic.TcCoe Idealize.SL.Sem
open Cert.KernelIdeal Cert.KernelIdeal.Gen Cert.KernelIdeal.Fr Cert.KernelIdeal.FrVal

variable (m : (ℓ : Loc nD τ sig) → Buf (Elt Ideal) ℓ) (ρ : Dev nD → PrngReg)

/-- Region 0 leaves the reference's first matrix product. -/
theorem kW4_v30 (c : Dev nD) :
    W4 m ρ c (Proc.devRef .tc main_v30)
      = Cert.ReferenceIdeal.ReadP.val_main_v7 (F := Ideal) (m ((c : Thread nD τ).loc main_arg2)) (m ((c : Thread nD τ).loc main_arg3)) := by
  rw [ref_v7_mm0]
  refine (W4_arr m ρ c 2).trans ((final0 (V3 m ρ) c).trans ?_)
  show mm0 (W3 m ρ c (Proc.devRef .tc main_arg2)) (W3 m ρ c (Proc.devRef .tc main_arg3)) = _
  rw [kW3_untouched m ρ c main_arg2 (by decide) (by decide) (by decide),
    kW3_untouched m ρ c main_arg3 (by decide) (by decide) (by decide)]

/-- Region 1 is entered with the reference's first layer. -/
theorem kW5_v46_ref (c : Dev nD) :
    W5 m ρ c (Proc.devRef .tc main_v46)
      = Cert.ReferenceIdeal.ReadP.val_main_v46 (F := Ideal) (m ((c : Thread nD τ).loc main_arg1)) (m ((c : Thread nD τ).loc main_arg2))
          (m ((c : Thread nD τ).loc main_arg3)) (m ((c : Thread nD τ).loc main_arg4)) := by
  rw [kW5_v46_args, kW4_v30, ref_v46]

/-- Region 1 leaves the reference's second matrix product. -/
theorem kW6_v47 (c : Dev nD) :
    W6 m ρ c (Proc.devRef .tc main_v47)
      = Cert.ReferenceIdeal.ReadP.val_main_v47 (F := Ideal) (m ((c : Thread nD τ).loc main_arg1)) (m ((c : Thread nD τ).loc main_arg2))
          (m ((c : Thread nD τ).loc main_arg3)) (m ((c : Thread nD τ).loc main_arg4)) (m ((c : Thread nD τ).loc main_arg5)) := by
  rw [ref_v47_mm1]
  refine (W6_arr m ρ c 2).trans ((final1 (V5 m ρ) c).trans ?_)
  show mm1 (W5 m ρ c (Proc.devRef .tc main_v46)) (W5 m ρ c (Proc.devRef .tc main_arg5)) = _
  rw [kW5_v46_ref, kW5_arg5]

/-- Region 2 gathers rows of the reference's second layer. -/
theorem kW7_v65_ref (c : Dev nD) :
    W7 m ρ c (Proc.devRef .tc main_v65)
      = shapeCast S100000x1x64
          (Cert.ReferenceIdeal.ReadP.val_main_v86 (F := Ideal) (m ((c : Thread nD τ).loc main_arg1)) (m ((c : Thread nD τ).loc main_arg2))
            (m ((c : Thread nD τ).loc main_arg3)) (m ((c : Thread nD τ).loc main_arg4)) (m ((c : Thread nD τ).loc main_arg5))
            (m ((c : Thread nD τ).loc main_arg6)))
          shapeCasts_S100000x64_S100000x1x64 := by
  rw [kW7_v65_args, kW6_v47, ref_v86]

/-- The word region 2's table holds for result row `p * 200 + q` is the token `tokens[p, q]`. -/
theorem ktok (hO : Ok m ρ) (c : Dev nD) (p : Fin 64) (q : Fin 200) (hr : p.val * 200 + q.val < 12800) :
    (tok (V7 m ρ) hO ⟨p.val * 200 + q.val, hr⟩).val
      = (m ((c : Thread nD τ).loc main_arg0) (ValueIdx.ix2 (n0 := 64) (n1 := 200) p q)).toNat := by
  obtain rfl : c = 0 := Subsingleton.elim _ _
  rw [tok_val]
  have hpf : tbl2 (V7 m ρ) 0
      = shapeCast S12800 (m (((0 : Dev nD).tc : Thread nD τ).loc main_arg0)) shapeCasts_S64x200_S12800 :=
    W7_main_v64 m ρ 0
  rw [hpf, shapeCast_apply _ shapeCasts_S64x200_S12800 (ValueIdx.ix1 (n := 12800) ⟨p.val * 200 + q.val, hr⟩)
    (ValueIdx.ix2 (n0 := 64) (n1 := 200) p q)
    (by rewrite [Shape.rowMajor_val_two, Shape.rowMajor_val_one]; rfl)]

/-- THE KERNEL AT AN INDEX: element `(b, l, d)` of its result is the reference's second layer at the row the token
    `tokens[b, l]` names and column `d`. -/
theorem kernel_apply (hO : Ok m ρ) (c : Dev nD)
    (htok : ∀ q : S64x200.Idx, (m ((c : Thread nD τ).loc main_arg0) q).toNat < 100000) (i : S64x200x64.Idx) :
    W9 m ρ hO c (Proc.devRef .tc main_v68) i
      = Cert.ReferenceIdeal.ReadP.val_main_v86 (F := Ideal) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6))
          (ValueIdx.ix2 (n0 := 100000) (n1 := 64)
            ⟨(m ((c : Thread nD τ).loc main_arg0) (ValueIdx.ix2 (n0 := 64) (n1 := 200) (i 0) (i 1))).toNat, htok _⟩ (i 2)) := by
  have h0 : (i 0).val < 64 := (i 0).isLt
  have h1 : (i 1).val < 200 := (i 1).isLt
  have h2 : (i 2).val < 64 := (i 2).isLt
  have hr : (i 0).val * 200 + (i 1).val < 12800 := by omega
  generalize hT : Cert.ReferenceIdeal.ReadP.val_main_v86 (F := Ideal) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) = T
  -- the two reshapes of region 2's output
  rw [kW9_v68,
    shapeCast_apply _ shapeCasts_S12800x64_S64x200x64 i
      (ValueIdx.ix2 (n0 := 12800) (n1 := 64) ⟨(i 0).val * 200 + (i 1).val, hr⟩ (i 2))
      (by rewrite [Shape.rowMajor_val_two, Shape.rowMajor_val_three]; rfl),
    shapeCast_apply _ shapeCasts_S12800x1x64_S12800x64
      (ValueIdx.ix2 (n0 := 12800) (n1 := 64) ⟨(i 0).val * 200 + (i 1).val, hr⟩ (i 2))
      (ValueIdx.ix3 (n0 := 12800) (n1 := 1) (n2 := 64) ⟨(i 0).val * 200 + (i 1).val, hr⟩ 0 (i 2))
      (by rewrite [Shape.rowMajor_val_two, Shape.rowMajor_val_three]
          show (((i 0).val * 200 + (i 1).val) * 1 + 0) * 64 + (i 2).val = ((i 0).val * 200 + (i 1).val) * 64 + (i 2).val
          omega)]
  -- region 2's output, row by row
  have h8 : W8 m ρ hO c (Proc.devRef .tc main_v66)
      = fun j : S12800x1x64.Idx => V7 m ρ c main_v65 (ValueIdx.ix3 (tok (V7 m ρ) hO (j 0)) (j 1) (j 2)) :=
    (W8_arr m ρ hO c 1).trans (final2 (V7 m ρ) hO c)
  rw [h8]
  show W7 m ρ c (Proc.devRef .tc main_v65)
      (ValueIdx.ix3 (n0 := 100000) (n1 := 1) (n2 := 64) (tok (V7 m ρ) hO ⟨(i 0).val * 200 + (i 1).val, hr⟩) 0 (i 2)) = _
  rw [kW7_v65_ref, hT,
    shapeCast_apply T shapeCasts_S100000x64_S100000x1x64 _
      (ValueIdx.ix2 (n0 := 100000) (n1 := 64) (tok (V7 m ρ) hO ⟨(i 0).val * 200 + (i 1).val, hr⟩) (i 2))
      (by rewrite [Shape.rowMajor_val_two, Shape.rowMajor_val_three]
          show (tok (V7 m ρ) hO ⟨(i 0).val * 200 + (i 1).val, hr⟩).val * 64 + (i 2).val
            = ((tok (V7 m ρ) hO ⟨(i 0).val * 200 + (i 1).val, hr⟩).val * 1 + 0) * 64 + (i 2).val
          omega)]
  congr 1
  funext a; refine Fin.ext ?_
  match a with
  | ⟨0, _⟩ => exact ktok m ρ hO c (i 0) (i 1) hr
  | ⟨1, _⟩ => rfl

/-- THE TWO RESULTS ARE EQUAL: from memories agreeing on the seven arguments, the tokens all rows of the table, the
    reference's result is what the kernel's last stretch leaves in its result buffer. -/
theorem result_eq
    (m' : (ℓ : Loc Cert.ReferenceIdeal.nD Cert.ReferenceIdeal.τ Cert.ReferenceIdeal.sig) → Buf (Elt Ideal) ℓ)
    (hO : Ok m ρ) (c : Dev nD)
    (htok : ∀ q, (m ((c.tc : Thread nD τ).loc main_arg0) q).toNat < 100000)
    (hag : m' ((c.tc : Thread Cert.ReferenceIdeal.nD Cert.ReferenceIdeal.τ).loc Cert.ReferenceIdeal.main_arg0) = m ((c.tc : Thread nD τ).loc main_arg0)
      ∧ m' ((c.tc : Thread Cert.ReferenceIdeal.nD Cert.ReferenceIdeal.τ).loc Cert.ReferenceIdeal.main_arg1) = m ((c.tc : Thread nD τ).loc main_arg1)
      ∧ m' ((c.tc : Thread Cert.ReferenceIdeal.nD Cert.ReferenceIdeal.τ).loc Cert.ReferenceIdeal.main_arg2) = m ((c.tc : Thread nD τ).loc main_arg2)
      ∧ m' ((c.tc : Thread Cert.ReferenceIdeal.nD Cert.ReferenceIdeal.τ).loc Cert.ReferenceIdeal.main_arg3) = m ((c.tc : Thread nD τ).loc main_arg3)
      ∧ m' ((c.tc : Thread Cert.ReferenceIdeal.nD Cert.ReferenceIdeal.τ).loc Cert.ReferenceIdeal.main_arg4) = m ((c.tc : Thread nD τ).loc main_arg4)
      ∧ m' ((c.tc : Thread Cert.ReferenceIdeal.nD Cert.ReferenceIdeal.τ).loc Cert.ReferenceIdeal.main_arg5) = m ((c.tc : Thread nD τ).loc main_arg5)
      ∧ m' ((c.tc : Thread Cert.ReferenceIdeal.nD Cert.ReferenceIdeal.τ).loc Cert.ReferenceIdeal.main_arg6) = m ((c.tc : Thread nD τ).loc main_arg6)) :
    Cert.ReferenceIdeal.ValueP.res_main_v95 m' c = W9 m ρ hO c (Proc.devRef .tc main_v68) := by
  obtain ⟨e0, e1, e2, e3, e4, e5, e6⟩ := hag
  rw [Cert.ReferenceIdeal.ReadP.val_main_v95_eq, e0, e1, e2, e3, e4, e5, e6]
  funext i
  exact (ref_apply (F := Ideal) _ _ _ _ _ _ _ htok i).trans (kernel_apply m ρ hO c htok i).symm

end Final

end Cert.Bridge

end
-- ==== Proof.lean ====
/-
  Two graph-convolution layers over the embedding table, then a row gather at the input tokens.

  The kernel's program computes each layer's dense part, X · W, in a pipelined region that multiplies row blocks of
  10000 rows at a time (inputs cut to bf16, which the extended reals do not see, accumulated from zero), and does the
  message passing on the host: the symmetric normalisation d_src^(-1/2) · d_dst^(-1/2) from the in-degrees, the gather of
  source rows, the scatter-add into destination rows, the bias. The closing lookup is a region whose input block at grid
  point r is row token[r] of the table, copied to row r of the result.

  The reference computes the same chain with whole matrix products and a host gather; it recomputes the normalisation for
  the second layer, which is the same term. So at the extended reals both results are ONE function of the arguments:
  a block-row matrix product is the whole product read at those rows, and the gather region reads the table at the
  tokens, which the precondition keeps inside [0, 100000) — the domain on which the table is indexed at all, and without
  which the gather region's block would lie outside its array.

  The three frames: the kernel's programs by the run of their nine items (six stretches of host operations, three
  regions) with every region's body run symbolically; the reference's by the run of its host operations.
-/
import proofs.«409041_j70755291234309_2_alg».proof.Defs
import proofs.«409041_j70755291234309_2_alg».proof.Proof.Gen.Kernel
import proofs.«409041_j70755291234309_2_alg».proof.Proof.Gen.KernelIdeal
import proofs.«409041_j70755291234309_2_alg».proof.Proof.Gen.ReferenceIdeal
import proofs.«409041_j70755291234309_2_alg».proof.Proof.Gen.Pre_finite_inputs
import proofs.«409041_j70755291234309_2_alg».proof.Proof.K.Run
import proofs.«409041_j70755291234309_2_alg».proof.Proof.K.OkFold
import proofs.«409041_j70755291234309_2_alg».proof.Proof.KI.Run
import proofs.«409041_j70755291234309_2_alg».proof.Proof.KI.OkFold
import proofs.«409041_j70755291234309_2_alg».proof.Proof.Ref.Bridge
import Idealize.ShloMosaic.Adequacy
import Idealize.ShloMosaic.Init

noncomputable section

namespace Cert.Proof

open Idealize.ShloMosaic Idealize.SL.Sem

/-- The word-level program runs to the end and leaves its arguments: the tokens are in range, so the gather region's
    blocks lie inside the table. -/
theorem frame_k : Cert.frame_Kernel := fun m ρ h =>
  Cert.Kernel.Fr.frame m ρ (Cert.Kernel.Fr.ok_of_pre m ρ h)

/-- The same of the idealized program. -/
theorem frame_ki : Cert.frame_KernelIdeal := fun m ρ h =>
  Cert.KernelIdeal.Fr.frame m ρ (Cert.KernelIdeal.Fr.ok_of_pre m ρ h)

/-- The reference is host operations only: its run, the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- Both idealized programs end with the result at one function of the arguments: the kernel's at what its last
    stretch of host operations leaves, which the reference's term equals when the arguments agree. -/
theorem algebraic : Cert.algebraic_KernelIdeal_ReferenceIdeal := by
  intro m ρ m' ρ' hpre hagree
  have hO : Cert.KernelIdeal.Fr.Ok (F := Ideal) m ρ := Cert.KernelIdeal.Fr.ok_of_pre m ρ hpre
  refine ⟨fun c => Cert.KernelIdeal.Fr.W9 m ρ hO c (Proc.devRef .tc Cert.KernelIdeal.main_v68), ?_, ?_⟩
  · refine (θ_run Cert.KernelIdeal.defs _ _).mono (fun r h c => ?_) (Cert.KernelIdeal.Fr.run_main m ρ hO)
    exact ⟨h c _ (Cert.KernelIdeal.Fr.mem_uc Cert.KernelIdeal.main_v68 (by decide)),
      (h c _ (Cert.KernelIdeal.Fr.mem_uc Cert.KernelIdeal.main_arg0 (by decide))).trans (Cert.KernelIdeal.Fr.W9_main_arg0 m ρ hO c),
      (h c _ (Cert.KernelIdeal.Fr.mem_uc Cert.KernelIdeal.main_arg1 (by decide))).trans (Cert.KernelIdeal.Fr.W9_main_arg1 m ρ hO c),
      (h c _ (Cert.KernelIdeal.Fr.mem_uc Cert.KernelIdeal.main_arg2 (by decide))).trans (Cert.KernelIdeal.Fr.W9_main_arg2 m ρ hO c),
      (h c _ (Cert.KernelIdeal.Fr.mem_uc Cert.KernelIdeal.main_arg3 (by decide))).trans (Cert.KernelIdeal.Fr.W9_main_arg3 m ρ hO c),
      (h c _ (Cert.KernelIdeal.Fr.mem_uc Cert.KernelIdeal.main_arg4 (by decide))).trans (Cert.KernelIdeal.Fr.W9_main_arg4 m ρ hO c),
      (h c _ (Cert.KernelIdeal.Fr.mem_uc Cert.KernelIdeal.main_arg5 (by decide))).trans (Cert.KernelIdeal.Fr.W9_main_arg5 m ρ hO c),
      (h c _ (Cert.KernelIdeal.Fr.mem_uc Cert.KernelIdeal.main_arg6 (by decide))).trans (Cert.KernelIdeal.Fr.W9_main_arg6 m ρ hO c)⟩
  · refine (θ_run Cert.ReferenceIdeal.defs _ _).mono (fun r h c => ⟨(h c).1.trans ?_, (h c).2⟩)
      (Cert.ReferenceIdeal.ValueP.run (F := Ideal) m' ρ')
    exact Cert.Bridge.result_eq m ρ m' hO c (fun q => Cert.KernelIdeal.Fr.pre_token _ _ _ _ _ _ _ (hpre c) q) (hagree c)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
